-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v54_2)) (v1 : (c : Dev Cert.KernelIdeal.nD) → Buf (Elt Ideal) ((c.tc : Thread Cert.KernelIdeal.nD Cert.KernelIdeal.τ).loc Cert.KernelIdeal.main_v54_3)) (v2 : (c : Dev Cert.KernelIdeal.nD) → Buf (Elt Ideal) ((c.tc : Thread Cert.KernelIdeal.nD Cert.KernelIdeal.τ).loc Cert.KernelIdeal.main_v54_0)) (v3 : (c : Dev Cert.KernelIdeal.nD) → Buf (Elt Ideal) ((c.tc : Thread Cert.KernelIdeal.nD Cert.KernelIdeal.τ).loc Cert.KernelIdeal.main_v54_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_2) = v0 c
          ∧ r.2.mem ((c.tc : Thread Cert.KernelIdeal.nD Cert.KernelIdeal.τ).loc Cert.KernelIdeal.main_v54_3) = v1 c
          ∧ r.2.mem ((c.tc : Thread Cert.KernelIdeal.nD Cert.KernelIdeal.τ).loc Cert.KernelIdeal.main_v54_0) = v2 c
          ∧ r.2.mem ((c.tc : Thread Cert.KernelIdeal.nD Cert.KernelIdeal.τ).loc Cert.KernelIdeal.main_v54_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S50000x64 : Shape := ⟨2, ![50000, 64]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_

variable [Facts]

def fn_part5 {F : FTy → Type} [FloatOps F] (main_v82 : IVec S_ 1) (main_v84 : IVec S50000 1) : IVec S_ 1 :=
  let main_c_33 : IVec S_ 1 := constantI S_ 1 1#1
  let main_v85 : IVec S_ 1 := (fun x v => Host.reduce IntOp.andi x v reducesTo_S50000_S_d0 h_S_) main_v84 main_c_33
  let main_v86 : IVec S_ 1 := andi main_v82 main_v85
  main_v86

def fn_part4 {F : FTy → Type} [FloatOps F] (main_arg0 : IVec S50000 32) (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64x1 .f32 := Host.absf main_arg16
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 0#32
  let main_v79 : IVec S50000 32 := broadcastInDim S50000 ![] bcast_S_S50000 main_c_30
  let main_v80 : IVec S50000 1 := cmpi .sge main_arg0 main_v79
  let main_c_31 : IVec S_ 1 := constantI S_ 1 1#1
  let main_v81 : IVec S_ 1 := (fun x v => Host.reduce IntOp.andi x v reducesTo_S50000_S_d0 h_S_) main_v80 main_c_31
  let main_v82 : IVec S_ 1 := andi main_v78 main_v81
  let main_c_32 : IVec S_ 32 := constantI S_ 32 128#32
  let main_v83 : IVec S50000 32 := broadcastInDim S50000 ![] bcast_S_S50000 main_c_32
  let main_v84 : IVec S50000 1 := cmpi .slt main_arg0 main_v83
  fn_part5 (F := F) main_v82 main_v84

def fn_part3 {F : FTy → Type} [FloatOps F] (main_arg0 : IVec S50000 32) (main_arg13 : FVec F S256 .f32) (main_arg14 : FVec F S256x128 .f32) (main_arg15 : FVec F S128 .f32) (main_arg16 : FVec F S64x1 .f32) (main_arg17 : FVec F S1 .f32) (main_v48 : IVec S_ 1) (main_v49 : FVec F S64x256 .f32) (main_v50 : FVec F S64x256 .f32) : IVec S_ 1 :=
  let main_v51 : IVec S64x256 1 := cmpf .olt main_v49 main_v50
  let main_c_19 : IVec S_ 1 := constantI S_ 1 1#1
  let main_v52 : IVec S_ 1 := (fun x v => Host.reduce IntOp.andi x v reducesTo_S64x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg16 main_arg17 main_v63 main_v67

def fn_part2 {F : FTy → Type} [FloatOps F] (main_arg0 : IVec S50000 32) (main_arg9 : FVec F S64 .f32) (main_arg10 : FVec F S256x64 .f32) (main_arg11 : FVec F S64 .f32) (main_arg12 : FVec F S64x256 .f32) (main_arg13 : FVec F S256 .f32) (main_arg14 : FVec F S256x128 .f32) (main_arg15 : FVec F S128 .f32) (main_arg16 : FVec F S64x1 .f32) (main_arg17 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x64 .f32 := Host.absf main_arg10
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x256 .f32 := Host.absf main_arg12
  let main_cst_18 : FVec F S_ .f32 := constant S_ .f32 0x7F800000#32
  let main_v50 : FVec F S64x256 .f32 := broadcastInDim S64x256 ![] bcast_S_S64x256 main_cst_18
  fn_part3 (F := F) main_arg0 main_arg13 main_arg14 main_arg15 main_arg16 main_arg17 main_v48 main_v49 main_v50

def fn_part1 {F : FTy → Type} [FloatOps F] (main_arg0 : IVec S50000 32) (main_arg6 : FVec F S256x256 .f32) (main_arg7 : FVec F S256 .f32) (main_arg8 : FVec F S256x64 .f32) (main_arg9 : FVec F S64 .f32) (main_arg10 : FVec F S256x64 .f32) (main_arg11 : FVec F S64 .f32) (main_arg12 : FVec F S64x256 .f32) (main_arg13 : FVec F S256 .f32) (main_arg14 : FVec F S256x128 .f32) (main_arg15 : FVec F S128 .f32) (main_arg16 : FVec F S64x1 .f32) (main_arg17 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg0 main_arg9 main_arg10 main_arg11 main_arg12 main_arg13 main_arg14 main_arg15 main_arg16 main_arg17 main_v33

def fn {F : FTy → Type} [FloatOps F] (main_arg0 : IVec S50000 32) (main_arg1 : IVec S2x800000 32) (main_arg2 : FVec F S50000x64 .f32) (main_arg3 : FVec F S128x128 .f32) (main_arg4 : FVec F S128x256 .f32) (main_arg5 : FVec F S256 .f32) (main_arg6 : FVec F S256x256 .f32) (main_arg7 : FVec F S256 .f32) (main_arg8 : FVec F S256x64 .f32) (main_arg9 : FVec F S64 .f32) (main_arg10 : FVec F S256x64 .f32) (main_arg11 : FVec F S64 .f32) (main_arg12 : FVec F S64x256 .f32) (main_arg13 : FVec F S256 .f32) (main_arg14 : FVec F S256x128 .f32) (main_arg15 : FVec F S128 .f32) (main_arg16 : FVec F S64x1 .f32) (main_arg17 : FVec F S1 .f32) : IVec S_ 1 :=
  let main_v0 : FVec F S50000x64 .f32 := Host.absf main_arg2
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg6 main_arg7 main_arg8 main_arg9 main_arg10 main_arg11 main_arg12 main_arg13 main_arg14 main_arg15 main_arg16 main_arg17 main_v13 main_v16
-- ==== Kernel.lean ====
abbrev S50000 : Shape := ⟨1, ![50000]⟩
abbrev S2x800000 : Shape := ⟨2, ![2, 800000]⟩
abbrev S50000x64 : Shape := ⟨2, ![50000, 64]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S2000x1 : Shape := ⟨2, ![2000, 1]⟩
abbrev S2000x256 : Shape := ⟨2, ![2000, 256]⟩
abbrev S2000x128 : Shape := ⟨2, ![2000, 128]⟩
abbrev S850000x256 : Shape := ⟨2, ![850000, 256]⟩
abbrev S1x256 : Shape := ⟨2, ![1, 256]⟩
abbrev S1x64 : Shape := ⟨2, ![1, 64]⟩
abbrev S1x128 : Shape := ⟨2, ![1, 128]⟩
abbrev S1x1 : Shape := ⟨2, ![1, 1]⟩
abbrev S50000x128 : Shape := ⟨2, ![50000, 128]⟩
abbrev S2000x64 : Shape := ⟨2, ![2000, 64]⟩

abbrev nBuf : Space → Nat
  | .hbm => 85
  | .vmem => 40
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000x64, .f32⟩
  | .hbm, ⟨3, _⟩ => ⟨S128x128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S256x64, .f32⟩
  | .hbm, ⟨11, _⟩ => ⟨S64, .f32⟩
  | .hbm, ⟨12, _⟩ => ⟨S64x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S64x1, .f32⟩
  | .hbm, ⟨17, _⟩ => ⟨S1, .f32⟩
  | .hbm, ⟨18, _⟩ => ⟨S50000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S1x800000, .i32⟩
  | .hbm, ⟨23, _⟩ => ⟨S800000, .i32⟩
  | .hbm, ⟨24, _⟩ => ⟨S850000, .i32⟩
  | .hbm, ⟨25, _⟩ => ⟨S_, .f32⟩
  | .hbm, ⟨26, _⟩ => ⟨S850000, .f32⟩
  | .hbm, ⟨27, _⟩ => ⟨S_, .f32⟩
  | .hbm, ⟨28, _⟩ => ⟨S50000, .f32⟩
  | .hbm, ⟨29, _⟩ => ⟨S850000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S128x256, .f32⟩
  | .hbm, ⟨37, _⟩ => ⟨S50000x1, .i32⟩
  | .hbm, ⟨38, _⟩ => ⟨S50000x256, .bf16⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000x256, .bf16⟩
  | .hbm, ⟨48, _⟩ => ⟨S850000x256, .f32⟩
  | .hbm, ⟨49, _⟩ => ⟨S_, .f32⟩
  | .hbm, ⟨50, _⟩ => ⟨S50000x256, .f32⟩
  | .hbm, ⟨51, _⟩ => ⟨S850000x1, .i32⟩
  | .hbm, ⟨52, _⟩ => ⟨S50000x256, .f32⟩
  | .hbm, ⟨53, _⟩ => ⟨S256x256, .bf16⟩
  | .hbm, ⟨54, _⟩ => ⟨S1x256, .f32⟩
  | .hbm, ⟨55, _⟩ => ⟨S50000x256, .bf16⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x256, .bf16⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S256x64, .bf16⟩
  | .hbm, ⟨71, _⟩ => ⟨S256x64, .bf16⟩
  | .hbm, ⟨72, _⟩ => ⟨S64x256, .bf16⟩
  | .hbm, ⟨73, _⟩ => ⟨S256x128, .bf16⟩
  | .hbm, ⟨74, _⟩ => ⟨S64x1, .bf16⟩
  | .hbm, ⟨75, _⟩ => ⟨S1x256, .f32⟩
  | .hbm, ⟨76, _⟩ => ⟨S1x64, .f32⟩
  | .hbm, ⟨77, _⟩ => ⟨S1x64, .f32⟩
  | .hbm, ⟨78, _⟩ => ⟨S1x256, .f32⟩
  | .hbm, ⟨79, _⟩ => ⟨S1x128, .f32⟩
  | .hbm, ⟨80, _⟩ => ⟨S1x1, .f32⟩
  | .hbm, ⟨81, _⟩ => ⟨S50000x64, .f32⟩
  | .hbm, ⟨82, _⟩ => ⟨S50000x64, .f32⟩
  | .hbm, ⟨83, _⟩ => ⟨S50000x128, .f32⟩
  | .hbm, ⟨84, _⟩ => ⟨S50000x1, .f32⟩
  | .local _ .vmem, ⟨0, _⟩ => ⟨S2000x1, .i32⟩
  | .local _ .vmem, ⟨1, _⟩ => ⟨S2000x1, .i32⟩
  | .local _ .vmem, ⟨2, _⟩ => ⟨S128x256, .f32⟩
  | .local _ .vmem, ⟨3, _⟩ => ⟨S2000x1, .f32⟩
  | .local _ .vmem, ⟨4, _⟩ => ⟨S2000x1, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x256, .bf16⟩
  | .local _ .vmem, ⟨13, _⟩ => ⟨S2000x256, .bf16⟩
  | .local _ .vmem, ⟨14, _⟩ => ⟨S2000x256, .bf16⟩
  | .local _ .vmem, ⟨15, _⟩ => ⟨S2000x256, .f32⟩
  | .local _ .vmem, ⟨16, _⟩ => ⟨S2000x256, .f32⟩
  | .local _ .vmem, ⟨17, _⟩ => ⟨S2000x1, .f32⟩
  | .local _ .vmem, ⟨18, _⟩ => ⟨S2000x1, .f32⟩
  | .local _ .vmem, ⟨19, _⟩ => ⟨S1x256, .f32⟩
  | .local _ .vmem, ⟨20, _⟩ => ⟨S256x64, .bf16⟩
  | .local _ .vmem, ⟨21, _⟩ => ⟨S1x64, .f32⟩
  | .local _ .vmem, ⟨22, _⟩ => ⟨S256x64, .bf16⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S64x256, .bf16⟩
  | .local _ .vmem, ⟨27, _⟩ => ⟨S1x256, .f32⟩
  | .local _ .vmem, ⟨28, _⟩ => ⟨S256x128, .bf16⟩
  | .local _ .vmem, ⟨29, _⟩ => ⟨S1x128, .f32⟩
  | .local _ .vmem, ⟨30, _⟩ => ⟨S64x1, .bf16⟩
  | .local _ .vmem, ⟨31, _⟩ => ⟨S1x1, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x128, .f32⟩
  | .local _ .vmem, ⟨37, _⟩ => ⟨S2000x128, .f32⟩
  | .local _ .vmem, ⟨38, _⟩ => ⟨S2000x1, .f32⟩
  | .local _ .vmem, ⟨39, _⟩ => ⟨S2000x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54_0 : Ref sig .tc := ⟨.hbm, 81, rfl⟩
abbrev main_v54_1 : Ref sig .tc := ⟨.hbm, 82, rfl⟩
abbrev main_v54_2 : Ref sig .tc := ⟨.hbm, 83, rfl⟩
abbrev main_v54_3 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc2_stg13_0 : Ref sig .tc := ⟨.vmem, 31, rfl⟩
abbrev cc2_stg14_0 : Ref sig .tc := ⟨.vmem, 32, rfl⟩
abbrev cc2_stg14_1 : Ref sig .tc := ⟨.vmem, 33, rfl⟩
abbrev cc2_stg15_0 : Ref sig .tc := ⟨.vmem, 34, rfl⟩
abbrev cc2_stg15_1 : Ref sig .tc := ⟨.vmem, 35, rfl⟩
abbrev cc2_stg16_0 : Ref sig .tc := ⟨.vmem, 36, rfl⟩
abbrev cc2_stg16_1 : Ref sig .tc := ⟨.vmem, 37, rfl⟩
abbrev cc2_stg17_0 : Ref sig .tc := ⟨.vmem, 38, rfl⟩
abbrev cc2_stg17_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev cc2_sem14_0 : DmaSem sig := 32
abbrev cc2_sem14_1 : DmaSem sig := 33
abbrev cc2_sem15_0 : DmaSem sig := 34
abbrev cc2_sem15_1 : DmaSem sig := 35
abbrev cc2_sem16_0 : DmaSem sig := 36
abbrev cc2_sem16_1 : DmaSem sig := 37
abbrev cc2_sem17_0 : DmaSem sig := 38
abbrev cc2_sem17_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S64x256 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256x128 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x1 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S2000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S2000x64 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S2000x128 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S2000x1 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S2000x1_S2000x256 : S2000x1.Broadcasts S2000x256
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S64_S1x64 : S64.ShapeCasts S1x64
  shapeCasts_S128_S1x128 : S128.ShapeCasts S1x128
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S50000_S850000x1_S850000_n_0_0_1_wf : ScatterDims.WF S50000 S850000x1 S850000 [] [0] [0] 1
  dot_S128x128_S128x256_S128x256_1_0_0_1_n_n_wf : DotDims.WF S128x128 S128x256 S128x256 [1] [0] [0] [1] [] []
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  dot_S2000x64_S64x256_S2000x256_1_0_0_1_n_n_wf : DotDims.WF S2000x64 S64x256 S2000x256 [1] [0] [0] [1] [] []
  dot_S2000x256_S256x128_S2000x128_1_0_0_1_n_n_wf : DotDims.WF S2000x256 S256x128 S2000x128 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S50000x1.size a
  hwx0_0 : ∀ i : grid0.Coords, EltTy.bits .i32 = 32 ∨ (Rect.block (s := S50000x1) S2000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .bf16 = 32 ∨ (Rect.block (s := S50000x256) S2000x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S256x64.size a
  hwx2_3 : ∀ i : grid2.Coords, EltTy.bits .bf16 = 32 ∨ (Rect.block (s := S256x64) S256x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x64.size a ≤ S256x64.size a
  hwx2_5 : ∀ i : grid2.Coords, EltTy.bits .bf16 = 32 ∨ (Rect.block (s := S256x64) S256x64.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x64.size a ≤ S50000x64.size a
  hwx2_7 : ∀ i : grid2.Coords, EltTy.bits .f32 = 32 ∨ (Rect.block (s := S50000x64) S2000x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x256.size a ≤ S64x256.size a
  hwx2_8 : ∀ i : grid2.Coords, EltTy.bits .bf16 = 32 ∨ (Rect.block (s := S64x256) S64x256.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S256x128.size a ≤ S256x128.size a
  hwx2_10 : ∀ i : grid2.Coords, EltTy.bits .bf16 = 32 ∨ (Rect.block (s := S256x128) S256x128.size (cc2_transform_10 i) (hinb2_10 i)).WholeWords (EltTy.packing .bf16)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64x1.size a ≤ S64x1.size a
  hwx2_12 : ∀ i : grid2.Coords, EltTy.bits .bf16 = 32 ∨ (Rect.block (s := S64x1) S64x1.size (cc2_transform_12 i) (hinb2_12 i)).WholeWords (EltTy.packing .bf16)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x1.size a ≤ S1x1.size a
  hwx2_13 : ∀ i : grid2.Coords, EltTy.bits .f32 = 32 ∨ (Rect.block (s := S1x1) S1x1.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S2000x64.size a ≤ S50000x64.size a
  hwx2_14 : ∀ i : grid2.Coords, EltTy.bits .f32 = 32 ∨ (Rect.block (s := S50000x64) S2000x64.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2000x64.size a ≤ S50000x64.size a
  hwx2_15 : ∀ i : grid2.Coords, EltTy.bits .f32 = 32 ∨ (Rect.block (s := S50000x64) S2000x64.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S2000x128.size a ≤ S50000x128.size a
  hwx2_16 : ∀ i : grid2.Coords, EltTy.bits .f32 = 32 ∨ (Rect.block (s := S50000x128) S2000x128.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S2000x1.size a ≤ S50000x1.size a
  hwx2_17 : ∀ i : grid2.Coords, EltTy.bits .f32 = 32 ∨ (Rect.block (s := S50000x1) S2000x1.size (cc2_transform_17 i) (hinb2_17 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v16) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S256x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S256x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg2) S2000x64.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v45) S64x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v51) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v46) S256x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v52) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v47) S64x1.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v53) S1x1.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v54_0) S2000x64.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v54_1) S2000x64.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v54_2) S2000x128.size cc2_transform_16 reads2_16 true false 2 stage2_16 sem2_16
    hrank2 hreads2_16 hinb2_16 nbuf2_16 (Memref.isWhole_whole _) hwx2_16 hstage2_16

abbrev win2_17 : Pipeline.Window sig grid2 :=
  Pipeline.Window.ofSpec (Memref.whole main_v54_3) S2000x1.size cc2_transform_17 reads2_17 true false 2 stage2_17 sem2_17
    hrank2 hreads2_17 hinb2_17 nbuf2_17 (Memref.isWhole_whole _) hwx2_17 hstage2_17

abbrev win2 : Fin 18 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | ⟨_ + 18, h⟩ => absurd h (Nat.not_lt.2 (Nat.le_add_left _ _))
abbrev spec2 : Fin 18 → Pipeline.WinSpec sig grid2.rank := fun w => (win2 w).toWinSpec

class Facts : Prop extends Facts₀ where

variable [Facts]
-- ==== ReferenceIdeal.lean ====
abbrev S50000 : Shape := ⟨1, ![50000]⟩
abbrev S2x800000 : Shape := ⟨2, ![2, 800000]⟩
abbrev S50000x64 : Shape := ⟨2, ![50000, 64]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S50000x1 : Shape := ⟨2, ![50000, 1]⟩
abbrev S50000x128 : Shape := ⟨2, ![50000, 128]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S1x64 : Shape := ⟨2, ![1, 64]⟩
abbrev S1x128 : Shape := ⟨2, ![1, 128]⟩
abbrev S1x1 : Shape := ⟨2, ![1, 1]⟩

abbrev nBuf : Space → Nat
  | .hbm => 175
  | .vmem => 0
  | .smem => 0
  | _ => 0

abbrev hbmTy0_0 (i : Nat) : BufTy := match i % 128 with
  | 0 => ⟨S50000, .i32⟩
  | 1 => ⟨S2x800000, .i32⟩
  | 2 => ⟨S50000x64, .f32⟩
  | 3 => ⟨S128x128, .f32⟩
  | 4 => ⟨S128x256, .f32⟩
  | 5 => ⟨S256, .f32⟩
  | 6 => ⟨S256x256, .f32⟩
  | 7 => ⟨S256, .f32⟩
  | 8 => ⟨S256x64, .f32⟩
  | 9 => ⟨S64, .f32⟩
  | 10 => ⟨S256x64, .f32⟩
  | 11 => ⟨S64, .f32⟩
  | 12 => ⟨S64x256, .f32⟩
  | 13 => ⟨S256, .f32⟩
  | 14 => ⟨S256x128, .f32⟩
  | 15 => ⟨S128, .f32⟩
  | 16 => ⟨S64x1, .f32⟩
  | 17 => ⟨S1, .f32⟩
  | 18 => ⟨S50000, .i32⟩
  | 19 => ⟨S1x800000, .i32⟩
  | 20 => ⟨S800000, .i32⟩
  | 21 => ⟨S850000, .i32⟩
  | 22 => ⟨S1x800000, .i32⟩
  | 23 => ⟨S800000, .i32⟩
  | 24 => ⟨S850000, .i32⟩
  | 25 => ⟨S_, .i32⟩
  | 26 => ⟨S50000, .i32⟩
  | 27 => ⟨S50000, .i1⟩
  | 28 => ⟨S_, .i32⟩
  | 29 => ⟨S50000, .i32⟩
  | 30 => ⟨S50000, .i32⟩
  | 31 => ⟨S50000, .i32⟩
  | 32 => ⟨S50000x1, .i32⟩
  | 33 => ⟨S50000x128, .f32⟩
  | 34 => ⟨S_, .f32⟩
  | 35 => ⟨S850000, .f32⟩
  | 36 => ⟨S_, .f32⟩
  | 37 => ⟨S50000, .f32⟩
  | 38 => ⟨S850000x1, .i32⟩
  | 39 => ⟨S50000, .f32⟩
  | 40 => ⟨S_, .f32⟩
  | 41 => ⟨S50000, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S850000, .f32⟩
  | 63 => ⟨S50000x256, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x256, .f32⟩
  | 73 => ⟨S850000x1, .f32⟩
  | 74 => ⟨S850000x256, .f32⟩
  | 75 => ⟨S850000x256, .f32⟩
  | 76 => ⟨S_, .f32⟩
  | 77 => ⟨S50000x256, .f32⟩
  | 78 => ⟨S850000x1, .i32⟩
  | 79 => ⟨S50000x256, .f32⟩
  | 80 => ⟨S1x256, .f32⟩
  | 81 => ⟨S50000x256, .f32⟩
  | 82 => ⟨S50000x256, .f32⟩
  | 83 => ⟨S_, .f32⟩
  | 84 => ⟨S50000x256, .f32⟩
  | 85 => ⟨S50000x256, .f32⟩
  | 86 => ⟨S_, .f32⟩
  | 87 => ⟨S850000, .f32⟩
  | 88 => ⟨S_, .f32⟩
  | 89 => ⟨S50000, .f32⟩
  | 90 => ⟨S850000x1, .i32⟩
  | 91 => ⟨S50000, .f32⟩
  | 92 => ⟨S_, .f32⟩
  | 93 => ⟨S50000, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S50000x256, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x256, .f32⟩
  | 125 => ⟨S850000x1, .f32⟩
  | 126 => ⟨S850000x256, .f32⟩
  | 127 => ⟨S850000x256, .f32⟩
  | _ => ⟨S50000, .i32⟩

abbrev hbmTy0_1 (i : Nat) : BufTy := match i % 128 with
  | 0 => ⟨S_, .f32⟩
  | 1 => ⟨S50000x256, .f32⟩
  | 2 => ⟨S850000x1, .i32⟩
  | 3 => ⟨S50000x256, .f32⟩
  | 4 => ⟨S1x256, .f32⟩
  | 5 => ⟨S50000x256, .f32⟩
  | 6 => ⟨S50000x256, .f32⟩
  | 7 => ⟨S_, .f32⟩
  | 8 => ⟨S50000x256, .f32⟩
  | 9 => ⟨S50000x256, .f32⟩
  | 10 => ⟨S50000x64, .f32⟩
  | 11 => ⟨S1x64, .f32⟩
  | 12 => ⟨S50000x64, .f32⟩
  | 13 => ⟨S50000x64, .f32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | 22 => ⟨S50000x64, .f32⟩
  | 23 => ⟨S50000x64, .f32⟩
  | 24 => ⟨S50000x256, .f32⟩
  | 25 => ⟨S1x256, .f32⟩
  | 26 => ⟨S50000x256, .f32⟩
  | 27 => ⟨S50000x256, .f32⟩
  | 28 => ⟨S_, .f32⟩
  | 29 => ⟨S50000x256, .f32⟩
  | 30 => ⟨S50000x256, .f32⟩
  | 31 => ⟨S50000x128, .f32⟩
  | 32 => ⟨S1x128, .f32⟩
  | 33 => ⟨S50000x128, .f32⟩
  | 34 => ⟨S50000x128, .f32⟩
  | 35 => ⟨S50000x1, .f32⟩
  | 36 => ⟨S1x1, .f32⟩
  | 37 => ⟨S50000x1, .f32⟩
  | 38 => ⟨S50000x1, .f32⟩
  | 39 => ⟨S50000x1, .f32⟩
  | 40 => ⟨S50000x1, .f32⟩
  | 41 => ⟨S_, .f32⟩
  | 42 => ⟨S50000x1, .f32⟩
  | 43 => ⟨S50000x1, .f32⟩
  | 44 => ⟨S_, .f32⟩
  | 45 => ⟨S50000x1, .f32⟩
  | 46 => ⟨S50000x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_c_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call0_cst : Ref sig .tc := ⟨.hbm, 83, rfl⟩
abbrev main_call0_v0 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_13 : Ref sig .tc := ⟨.hbm, 96, rfl⟩
abbrev main_v61 : Ref sig .tc := ⟨.hbm, 97, rfl⟩
abbrev main_v62 : Ref sig .tc := ⟨.hbm, 98, rfl⟩
abbrev main_c_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_15 : Ref sig .tc := ⟨.hbm, 105, rfl⟩
abbrev main_v68 : Ref sig .tc := ⟨.hbm, 106, rfl⟩
abbrev main_v69 : Ref sig .tc := ⟨.hbm, 107, rfl⟩
abbrev main_c_16 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_17 : Ref sig .tc := ⟨.hbm, 116, rfl⟩
abbrev main_v77 : Ref sig .tc := ⟨.hbm, 117, rfl⟩
abbrev main_v78 : Ref sig .tc := ⟨.hbm, 118, rfl⟩
abbrev main_c_18 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_19 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_call1_cst : Ref sig .tc := ⟨.hbm, 135, rfl⟩
abbrev main_call1_v0 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_20 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_call2_cst : Ref sig .tc := ⟨.hbm, 156, rfl⟩
abbrev main_call2_v0 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_21 : Ref sig .tc := ⟨.hbm, 169, rfl⟩
abbrev main_v122 : Ref sig .tc := ⟨.hbm, 170, rfl⟩
abbrev main_v123 : Ref sig .tc := ⟨.hbm, 171, rfl⟩
abbrev main_cst_22 : Ref sig .tc := ⟨.hbm, 172, rfl⟩
abbrev main_v124 : Ref sig .tc := ⟨.hbm, 173, rfl⟩
abbrev main_v125 : Ref sig .tc := ⟨.hbm, 174, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S128x128_S50000x1_S50000x128_1_0_n_n_0_1_1128_wf : GatherDims.WF S128x128 S50000x1 S50000x128 [1] [0] [] [0] [] 1 ![1, 128]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []
  dot_S50000x64_S64x256_S50000x256_1_0_0_1_n_n_wf : DotDims.WF S50000x64 S64x256 S50000x256 [1] [0] [0] [1] [] []
  dot_S50000x256_S256x128_S50000x128_1_0_0_1_n_n_wf : DotDims.WF S50000x256 S256x128 S50000x128 [1] [0] [0] [1] [] []
  dot_S50000x64_S64x1_S50000x1_1_0_0_1_n_n_wf : DotDims.WF S50000x64 S64x1 S50000x1 [1] [0] [0] [1] [] []

variable [Facts₀]

def gather_S128x128_S50000x1_S50000x128_1_0_n_n_0_1_1128 : GatherDims S128x128 S50000x1 S50000x128 where
  offsetDims := [1]
  collapsedSliceDims := [0]
  operandBatchingDims := []
  startIndicesBatchingDims := []
  startIndexMap := [0]
  indexVectorDim := 1
  sliceSizes := ![1, 128]
  wf := gather_S128x128_S50000x1_S50000x128_1_0_n_n_0_1_1128_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.PreDecode.lean ====
/-
  The precondition read back at the token array.

  The precondition is one `i1` word: a conjunction, by `and`, of eighteen `jnp.all` tests. Sixteen say that a float
  array has only finite entries; the last two say that every entry `w` of the token array satisfies `0 ≤ w` and
  `w < 128`, both read signed. A conjunction that is one has every conjunct one; a reduction by `and` over all
  positions that is one has a one at every position; and a signed comparison word that is one orders its operands
  as integers. So from "the precondition is all ones" every token is an integer of [0, 128).
-/
import proofs.«403013_j32667521253538_2_alg».proof.Pre_finite_inputs
import Idealize.ShloMosaic.PureOps.Ideal
import Idealize.ShloMosaic.Lib.Affine
import Idealize.ShloMosaic.Lib.ReduceAll
import Idealize.ShloMosaic.Lib.ValueIdx

namespace Cert.PreDecode

open Idealize.ShloMosaic Idealize.ShloMosaic.ValueIdx
open Cert.Pre_finite_inputs

/-- The scalar shape has one index. -/
instance : Subsingleton S_.Idx := ⟨fun a b => funext fun d => d.elim0⟩

/-- The last stretch: the conjunction of the word so far with `jnp.all` of the mask `m` is one only if the word so far
    is one and the mask is one everywhere. -/
theorem part5_one [Facts] (c : IVec S_ 1) (m : IVec S50000 1)
    (h : fn_part5 (F := Ideal) c m ix0 = 1#1) : c ix0 = 1#1 ∧ ∀ j : S50000.Idx, m j = 1#1 := by
  obtain ⟨hc, hm⟩ := IntOp.andi_eq_one.1 h
  exact ⟨hc, fun j => Host.reduce_andi_all _ _ _ _ _ hm j⟩

/-- The stretch that holds both token tests: whatever the word `c₁ ∧ c₂` of the earlier conjuncts is, the whole being
    one makes `0 ≤ w` and `w < 128` hold of every token `w`. -/
theorem part4_tokens [Facts] (a0 : IVec S50000 32) (a16 : FVec Ideal S64x1 .f32) (a17 : FVec Ideal S1 .f32)
    (c₁ c₂ : IVec S_ 1) (h : fn_part4 (F := Ideal) a0 a16 a17 c₁ c₂ ix0 = 1#1) :
    ∀ i : Fin 50000, 0 ≤ (a0 (ix1 i)).toInt ∧ (a0 (ix1 i)).toInt < 128 := by
  obtain ⟨h82, h84⟩ := part5_one _ _ h
  obtain ⟨-, h81⟩ := IntOp.andi_eq_one.1 h82
  intro i
  -- the two masks at position i are the two comparison words of token i against the literals
  have hge : IntOp.cmpi .sge (a0 (ix1 i)) 0#32 = 1#1 := Host.reduce_andi_all _ _ _ _ _ h81 (ix1 i)
  have hlt : IntOp.cmpi .slt (a0 (ix1 i)) 128#32 = 1#1 := h84 (ix1 i)
  rw [IntOp.cmpi_sge] at hge
  rw [IntOp.cmpi_slt] at hlt
  rw [show (0#32 : BitVec 32).toInt = 0 from by decide] at hge
  rw [show (128#32 : BitVec 32).toInt = 128 from by decide] at hlt
  exact ⟨hge, hlt⟩

/-- The whole precondition: its earlier stretches only hand their conjunction on to the stretch above. -/
theorem token_range [Facts]
    (a0 : IVec S50000 32) (a1 : IVec S2x800000 32) (a2 : FVec Ideal S50000x64 .f32) (a3 : FVec Ideal S128x128 .f32)
    (a4 : FVec Ideal S128x256 .f32) (a5 : FVec Ideal S256 .f32) (a6 : FVec Ideal S256x256 .f32) (a7 : FVec Ideal S256 .f32)
    (a8 : FVec Ideal S256x64 .f32) (a9 : FVec Ideal S64 .f32) (a10 : FVec Ideal S256x64 .f32) (a11 : FVec Ideal S64 .f32)
    (a12 : FVec Ideal S64x256 .f32) (a13 : FVec Ideal S256 .f32) (a14 : FVec Ideal S256x128 .f32) (a15 : FVec Ideal S128 .f32)
    (a16 : FVec Ideal S64x1 .f32) (a17 : FVec Ideal S1 .f32)
    (h : Cert.Pre_finite_inputs.fn (F := Ideal) a0 a1 a2 a3 a4 a5 a6 a7 a8 a9 a10 a11 a12 a13 a14 a15 a16 a17 = fun _ => 1#1) :
    ∀ i : Fin 50000, 0 ≤ (a0 (ix1 i)).toInt ∧ (a0 (ix1 i)).toInt < 128 := by
  have h0 := congrFun h ix0
  exact part4_tokens a0 a16 a17 _ _ h0

end Cert.PreDecode
-- ==== Proof.KernelHost.lean ====
/-
  What the three kernel regions find in their input arrays, and where the program's four results lie, as terms of the
  launch memory and of the earlier regions' output arrays.

  The program runs three stretches of array operations, each followed by a kernel region. An array that a stretch
  computes is the composition of its operations read off the stretch's list; an array that a stretch does not write,
  and that the preceding region does not own, is carried unchanged. Walking these two facts back from each region's
  entry to the launch memory gives every input window of every region as a closed term: the degree normalisation
  `d = 1/sqrt(max(deg, 1))` as a column, the gathered-and-summed rows of the previous region's output, the reshaped
  biases and the rounded weights.
-/
import proofs.«403013_j32667521253538_2_alg».proof.Proof.KernelIdealFrameP
import proofs.«403013_j32667521253538_2_alg».proof.Proof.KernelIdealLaunchP
import Idealize.ShloMosaic.Lib.StableHlo.Run
import Idealize.ShloMosaic.PureOps.Ideal

set_option maxRecDepth 16384

noncomputable section

namespace Cert.KernelIdeal.Host

open Idealize.ShloMosaic Idealize.ShloMosaic.TcCoe
open Cert.KernelIdeal.Gen

variable (m : (ℓ : Loc nD τ sig) → Buf (Elt Ideal) ℓ) (ρ : Dev nD → PrngReg)

/-- A stretch of operations leaves a buffer alone when each operation's result buffer is another reference: the
    stretch's list is opened and the references are compared one by one. -/
local macro "carried_over" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The array terms of the launch memory that recur -/

/-- The edge list: row 0 the sources, row 1 the destinations. -/
abbrev edges (c : Dev nD) : IVec S2x800000 32 := m ((c : Thread nD τ).loc main_arg1)

/-- The sources, then one self-loop per node. -/
abbrev srcT (c : Dev nD) : IVec S850000 32 :=
  concatenate S850000 0 [⟨S800000, shapeCast _ (extractStridedSlice S1x800000 ![0, 0] (edges m c) slices_S2x800000_S1x800000_0_0) shapeCasts_S1x800000_S800000⟩, ⟨S50000, iotaInDim S50000 32 0⟩] concatenates_S800000_S50000_S850000_d0

/-- The destinations, then one self-loop per node. -/
abbrev dstT (c : Dev nD) : IVec S850000 32 :=
  concatenate S850000 0 [⟨S800000, shapeCast _ (extractStridedSlice S1x800000 ![1, 0] (edges m c) slices_S2x800000_S1x800000_1_0) shapeCasts_S1x800000_S800000⟩, ⟨S50000, iotaInDim S50000 32 0⟩] concatenates_S800000_S50000_S850000_d0

/-- The inverse square root of each node's degree (self-loop counted, never below one). -/
abbrev dinvT (c : Dev nD) : FVec Ideal S50000 .f32 :=
  Host.rsqrt (maximumf (Host.scatterAdd scatter_S50000_S850000x1_S850000_n_0_0_1 (broadcastInDim S50000 ![] bcast_S_S50000 (constant (F := Ideal) S_ .f32 0x00000000#32)) (broadcastInDim S850000x1 ![0] bcast_S850000_S850000x1_0 (dstT m c)) (broadcastInDim S850000 ![] bcast_S_S850000 (constant (F := Ideal) S_ .f32 0x3F800000#32))) (broadcastInDim S50000 ![] bcast_S_S50000 (constant (F := Ideal) S_ .f32 0x3F800000#32)))

/-- The source of each message as a start index: a negative source wrapped once by the node count. -/
abbrev wsrcT (c : Dev nD) : IVec S850000x1 32 :=
  broadcastInDim S850000x1 ![0] bcast_S850000_S850000x1_0 (select (cmpi .slt (srcT m c) (broadcastInDim S850000 ![] bcast_S_S850000 (constantI S_ 32 0#32))) (addi (srcT m c) (broadcastInDim S850000 ![] bcast_S_S850000 (constantI S_ 32 50000#32))) (srcT m c))

/-- The rows of `o` gathered along the sources and summed into the destinations. -/
abbrev gsumT (c : Dev nD) (o : FVec Ideal S50000x256 .bf16) : FVec Ideal S50000x256 .f32 :=
  Host.scatterAdd scatter_S50000x256_S850000x1_S850000x256_1_0_0_1 (broadcastInDim S50000x256 ![] bcast_S_S50000x256 (constant (F := Ideal) S_ .f32 0x00000000#32)) (broadcastInDim S850000x1 ![0] bcast_S850000_S850000x1_0 (dstT m c)) (extf .f32 (Host.gather gather_S50000x256_S850000x1_S850000x256_1_0_n_n_0_1_1256 o (wsrcT m c)) bitsLt_bf16_f32)

/-- Region 0's output array as its run leaves it. -/
abbrev out0 (c : Dev nD) : FVec Ideal S50000x256 .bf16 := (dat0 (F := Ideal) (V1 m ρ) c).arrAt 3 cfg0.N

/-- Region 1's output array as its run leaves it. -/
abbrev out1 (c : Dev nD) : FVec Ideal S50000x256 .bf16 := (dat1 (F := Ideal) (V3 m ρ) c).arrAt 4 cfg1.N

/-! ## Region 0's input windows -/

/-- Window 0: the token column, the token vector reshaped. -/
theorem in0_0 (c : Dev nD) :
    V1 m ρ c (Pipeline.arrRef spec0 0) = shapeCast _ (m ((c : Thread nD τ).loc main_arg0)) shapeCasts_S50000_S50000x1 := by
  show StableHlo.after hostOps0 (W0 m ρ c) (Proc.devRef .tc main_v16) = _
  after_results
  all_goals rfl

/-- Window 1: the projected embedding table, the product of the two table arguments. -/
theorem in0_1 (c : Dev nD) :
    (V1 m ρ c (Pipeline.arrRef spec0 1) : FVec Ideal S128x256 .f32)
      = Host.dotGeneral (F := Ideal) (φ₁ := .f32) (φ₂ := .f32) dot_S128x128_S128x256_S128x256_1_0_0_1_n_n none
          (m ((c : Thread nD τ).loc main_arg3) : FVec Ideal S128x128 .f32) (m ((c : Thread nD τ).loc main_arg4) : FVec Ideal S128x256 .f32) := by
  show StableHlo.after hostOps0 (W0 m ρ c) (Proc.devRef .tc main_v15) = _
  after_results
  all_goals rfl

/-- Window 2: the degree normalisation as a column. -/
theorem in0_2 (c : Dev nD) :
    (V1 m ρ c (Pipeline.arrRef spec0 2) : FVec Ideal S50000x1 .f32) = shapeCast _ (dinvT m c) shapeCasts_S50000_S50000x1 := by
  show StableHlo.after hostOps0 (W0 m ρ c) (Proc.devRef .tc main_v14) = _
  after_results
  all_goals rfl

/-! ## Where the four results lie -/

/-- The mean head's array is region 2's window 14 as its run leaves it. -/
theorem res_mean (c : Dev nD) : W6 m ρ c (Proc.devRef .tc main_v54_0) = (dat2 (F := Ideal) (V5 m ρ) c).arrAt 14 cfg2.N :=
  W6_arr m ρ c 14
/-- The log-variance head's array is window 15. -/
theorem res_logvar (c : Dev nD) : W6 m ρ c (Proc.devRef .tc main_v54_1) = (dat2 (F := Ideal) (V5 m ρ) c).arrAt 15 cfg2.N :=
  W6_arr m ρ c 15
/-- The reconstruction's array is window 16. -/
theorem res_recon (c : Dev nD) : W6 m ρ c (Proc.devRef .tc main_v54_2) = (dat2 (F := Ideal) (V5 m ρ) c).arrAt 16 cfg2.N :=
  W6_arr m ρ c 16
/-- The scalar head's array is window 17. -/
theorem res_cap (c : Dev nD) : W6 m ρ c (Proc.devRef .tc main_v54_3) = (dat2 (F := Ideal) (V5 m ρ) c).arrAt 17 cfg2.N :=
  W6_arr m ρ c 17

/-! ## What the first stretch computes, and what is still there when region 0 is left

Region 0 owns four arrays: the token column, the projected table, the normalisation column (inputs, left as entered)
and its output. Every other buffer is as the first stretch left it. -/

/-- The first stretch leaves the sources-with-self-loops vector in its buffer. -/
theorem W1_src (c : Dev nD) : W1 m ρ c (Proc.devRef .tc main_v3) = srcT m c := by
  show StableHlo.after hostOps0 (W0 m ρ c) (Proc.devRef .tc main_v3) = _
  after_results
  all_goals rfl
/-- The first stretch leaves the destinations-with-self-loops vector in its buffer. -/
theorem W1_dst (c : Dev nD) : W1 m ρ c (Proc.devRef .tc main_v6) = dstT m c := by
  show StableHlo.after hostOps0 (W0 m ρ c) (Proc.devRef .tc main_v6) = _
  after_results
  all_goals rfl
/-- An argument the first stretch does not write is as launched. -/
theorem W1_arg5 (c : Dev nD) : W1 m ρ c (Proc.devRef .tc main_arg5) = m ((c : Thread nD τ).loc main_arg5) :=
  (show W1 m ρ c (Proc.devRef .tc main_arg5) = W0 m ρ c (Proc.devRef .tc main_arg5) by carried_over hostOps0).trans rfl
theorem W1_arg6 (c : Dev nD) : W1 m ρ c (Proc.devRef .tc main_arg6) = m ((c : Thread nD τ).loc main_arg6) :=
  (show W1 m ρ c (Proc.devRef .tc main_arg6) = W0 m ρ c (Proc.devRef .tc main_arg6) by carried_over hostOps0).trans rfl

/-- Region 0 does not own the sources' buffer. -/
theorem W2_src (c : Dev nD) : W2 m ρ c (Proc.devRef .tc main_v3) = srcT m c :=
  (W2_of_ne m ρ c main_v3 (by decide)).trans (W1_src m ρ c)
/-- Region 0 does not own the destinations' buffer. -/
theorem W2_dst (c : Dev nD) : W2 m ρ c (Proc.devRef .tc main_v6) = dstT m c :=
  (W2_of_ne m ρ c main_v6 (by decide)).trans (W1_dst m ρ c)
/-- The normalisation column is an input array of region 0: it is left as entered. -/
theorem W2_dinv (c : Dev nD) :
    (W2 m ρ c (Proc.devRef .tc main_v14) : FVec Ideal S50000x1 .f32) = shapeCast _ (dinvT m c) shapeCasts_S50000_S50000x1 :=
  ((W2_arr m ρ c 2).trans (((dat0 (V1 m ρ) c).arrAt_in 2 rfl _).trans (A_eq0 (V1 m ρ) c 2))).trans (in0_2 m ρ c)
/-- Region 0's output buffer holds what its run leaves. -/
theorem W2_out (c : Dev nD) : W2 m ρ c (Proc.devRef .tc main_v17) = out0 m ρ c := W2_arr m ρ c 3
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

/-! ## Region 1's input windows -/

/-- Window 0: region 0's output rows gathered along the sources and summed into the destinations. -/
theorem in1_0 (c : Dev nD) :
    (V3 m ρ c (Pipeline.arrRef spec1 0) : FVec Ideal S50000x256 .f32) = gsumT m c (out0 m ρ c) := by
  show StableHlo.after hostOps1 (W2 m ρ c) (Proc.devRef .tc main_v28) = _
  after_results_simp
  rw [W2_src, W2_dst, W2_out]
  all_goals rfl

/-- Window 1: the normalisation column, untouched by the second stretch. -/
theorem in1_1 (c : Dev nD) :
    (V3 m ρ c (Pipeline.arrRef spec1 1) : FVec Ideal S50000x1 .f32) = shapeCast _ (dinvT m c) shapeCasts_S50000_S50000x1 :=
  (show W3 m ρ c (Proc.devRef .tc main_v14) = W2 m ρ c (Proc.devRef .tc main_v14) by carried_over hostOps1).trans (W2_dinv m ρ c)

/-- Window 2: the first bias as a row. -/
theorem in1_2 (c : Dev nD) :
    V3 m ρ c (Pipeline.arrRef spec1 2) = shapeCast _ (m ((c : Thread nD τ).loc main_arg5)) shapeCasts_S256_S1x256 := by
  show StableHlo.after hostOps1 (W2 m ρ c) (Proc.devRef .tc main_v30) = _
  after_results
  rw [W2_arg5]
  all_goals rfl

/-- Window 3: the first weight matrix rounded to the short format. -/
theorem in1_3 (c : Dev nD) :
    (V3 m ρ c (Pipeline.arrRef spec1 3) : FVec Ideal S256x256 .bf16)
      = truncf (F := Ideal) (s := S256x256) (φ := .f32) .bf16 (m ((c : Thread nD τ).loc main_arg6)) bitsLt_bf16_f32 := by
  show StableHlo.after hostOps1 (W2 m ρ c) (Proc.devRef .tc main_v29) = _
  after_results
  rw [W2_arg6]
  all_goals rfl

/-! ## What is still there when region 1 is left

Region 1 owns five arrays: the summed rows, the normalisation column, the bias row and the rounded weights (inputs,
left as entered) and its output. The second stretch writes neither the edge vectors nor any argument. -/

/-- The sources' vector is carried through the second stretch and region 1. -/
theorem W4_src (c : Dev nD) : W4 m ρ c (Proc.devRef .tc main_v3) = srcT m c :=
  (W4_of_ne m ρ c main_v3 (by decide)).trans
    ((show W3 m ρ c (Proc.devRef .tc main_v3) = W2 m ρ c (Proc.devRef .tc main_v3) by carried_over hostOps1).trans (W2_src m ρ c))
/-- The destinations' vector is carried through the second stretch and region 1. -/
theorem W4_dst (c : Dev nD) : W4 m ρ c (Proc.devRef .tc main_v6) = dstT m c :=
  (W4_of_ne m ρ c main_v6 (by decide)).trans
    ((show W3 m ρ c (Proc.devRef .tc main_v6) = W2 m ρ c (Proc.devRef .tc main_v6) by carried_over hostOps1).trans (W2_dst m ρ c))
/-- The normalisation column is an input array of region 1: it is left as entered. -/
theorem W4_dinv (c : Dev nD) :
    (W4 m ρ c (Proc.devRef .tc main_v14) : FVec Ideal S50000x1 .f32) = shapeCast _ (dinvT m c) shapeCasts_S50000_S50000x1 :=
  ((W4_arr m ρ c 1).trans (((dat1 (V3 m ρ) c).arrAt_in 1 rfl _).trans (A_eq1 (V3 m ρ) c 1))).trans (in1_1 m ρ c)
/-- Region 1's output buffer holds what its run leaves. -/
theorem W4_out (c : Dev nD) : W4 m ρ c (Proc.devRef .tc main_v31) = out1 m ρ c := W4_arr m ρ c 4

/-- An argument that neither of the first two stretches writes and neither of the first two regions owns is as launched. -/
theorem W4_arg2 (c : Dev nD) : W4 m ρ c (Proc.devRef .tc main_arg2) = m ((c : Thread nD τ).loc main_arg2) :=
  (W4_of_ne m ρ c main_arg2 (by decide)).trans
    ((show W3 m ρ c (Proc.devRef .tc main_arg2) = W2 m ρ c (Proc.devRef .tc main_arg2) by carried_over hostOps1).trans
      ((W2_of_ne m ρ c main_arg2 (by decide)).trans
        ((show W1 m ρ c (Proc.devRef .tc main_arg2) = W0 m ρ c (Proc.devRef .tc main_arg2) by carried_over hostOps0).trans rfl)))
theorem W4_arg7 (c : Dev nD) : W4 m ρ c (Proc.devRef .tc main_arg7) = m ((c : Thread nD τ).loc main_arg7) :=
  (W4_of_ne m ρ c main_arg7 (by decide)).trans
    ((show W3 m ρ c (Proc.devRef .tc main_arg7) = W2 m ρ c (Proc.devRef .tc main_arg7) by carried_over hostOps1).trans
      ((W2_of_ne m ρ c main_arg7 (by decide)).trans
        ((show W1 m ρ c (Proc.devRef .tc main_arg7) = W0 m ρ c (Proc.devRef .tc main_arg7) by carried_over hostOps0).trans rfl)))
theorem W4_arg8 (c : Dev nD) : W4 m ρ c (Proc.devRef .tc main_arg8) = m ((c : Thread nD τ).loc main_arg8) :=
  (W4_of_ne m ρ c main_arg8 (by decide)).trans
    ((show W3 m ρ c (Proc.devRef .tc main_arg8) = W2 m ρ c (Proc.devRef .tc main_arg8) by carried_over hostOps1).trans
      ((W2_of_ne m ρ c main_arg8 (by decide)).trans
        ((show W1 m ρ c (Proc.devRef .tc main_arg8) = W0 m ρ c (Proc.devRef .tc main_arg8) by carried_over hostOps0).trans rfl)))
theorem W4_arg9 (c : Dev nD) : W4 m ρ c (Proc.devRef .tc main_arg9) = m ((c : Thread nD τ).loc main_arg9) :=
  (W4_of_ne m ρ c main_arg9 (by decide)).trans
    ((show W3 m ρ c (Proc.devRef .tc main_arg9) = W2 m ρ c (Proc.devRef .tc main_arg9) by carried_over hostOps1).trans
      ((W2_of_ne m ρ c main_arg9 (by decide)).trans
        ((show W1 m ρ c (Proc.devRef .tc main_arg9) = W0 m ρ c (Proc.devRef .tc main_arg9) by carried_over hostOps0).trans rfl)))
theorem W4_arg10 (c : Dev nD) : W4 m ρ c (Proc.devRef .tc main_arg10) = m ((c : Thread nD τ).loc main_arg10) :=
  (W4_of_ne m ρ c main_arg10 (by decide)).trans
    ((show W3 m ρ c (Proc.devRef .tc main_arg10) = W2 m ρ c (Proc.devRef .tc main_arg10) by carried_over hostOps1).trans
      ((W2_of_ne m ρ c main_arg10 (by decide)).trans
        ((show W1 m ρ c (Proc.devRef .tc main_arg10) = W0 m ρ c (Proc.devRef .tc main_arg10) by carried_over hostOps0).trans rfl)))
theorem W4_arg11 (c : Dev nD) : W4 m ρ c (Proc.devRef .tc main_arg11) = m ((c : Thread nD τ).loc main_arg11) :=
  (W4_of_ne m ρ c main_arg11 (by decide)).trans
    ((show W3 m ρ c (Proc.devRef .tc main_arg11) = W2 m ρ c (Proc.devRef .tc main_arg11) by carried_over hostOps1).trans
      ((W2_of_ne m ρ c main_arg11 (by decide)).trans
        ((show W1 m ρ c (Proc.devRef .tc main_arg11) = W0 m ρ c (Proc.devRef .tc main_arg11) by carried_over hostOps0).trans rfl)))
theorem W4_arg12 (c : Dev nD) : W4 m ρ c (Proc.devRef .tc main_arg12) = m ((c : Thread nD τ).loc main_arg12) :=
  (W4_of_ne m ρ c main_arg12 (by decide)).trans
    ((show W3 m ρ c (Proc.devRef .tc main_arg12) = W2 m ρ c (Proc.devRef .tc main_arg12) by carried_over hostOps1).trans
      ((W2_of_ne m ρ c main_arg12 (by decide)).trans
        ((show W1 m ρ c (Proc.devRef .tc main_arg12) = W0 m ρ c (Proc.devRef .tc main_arg12) by carried_over hostOps0).trans rfl)))
theorem W4_arg13 (c : Dev nD) : W4 m ρ c (Proc.devRef .tc main_arg13) = m ((c : Thread nD τ).loc main_arg13) :=
  (W4_of_ne m ρ c main_arg13 (by decide)).trans
    ((show W3 m ρ c (Proc.devRef .tc main_arg13) = W2 m ρ c (Proc.devRef .tc main_arg13) by carried_over hostOps1).trans
      ((W2_of_ne m ρ c main_arg13 (by decide)).trans
        ((show W1 m ρ c (Proc.devRef .tc main_arg13) = W0 m ρ c (Proc.devRef .tc main_arg13) by carried_over hostOps0).trans rfl)))
theorem W4_arg14 (c : Dev nD) : W4 m ρ c (Proc.devRef .tc main_arg14) = m ((c : Thread nD τ).loc main_arg14) :=
  (W4_of_ne m ρ c main_arg14 (by decide)).trans
    ((show W3 m ρ c (Proc.devRef .tc main_arg14) = W2 m ρ c (Proc.devRef .tc main_arg14) by carried_over hostOps1).trans
      ((W2_of_ne m ρ c main_arg14 (by decide)).trans
        ((show W1 m ρ c (Proc.devRef .tc main_arg14) = W0 m ρ c (Proc.devRef .tc main_arg14) by carried_over hostOps0).trans rfl)))
theorem W4_arg15 (c : Dev nD) : W4 m ρ c (Proc.devRef .tc main_arg15) = m ((c : Thread nD τ).loc main_arg15) :=
  (W4_of_ne m ρ c main_arg15 (by decide)).trans
    ((show W3 m ρ c (Proc.devRef .tc main_arg15) = W2 m ρ c (Proc.devRef .tc main_arg15) by carried_over hostOps1).trans
      ((W2_of_ne m ρ c main_arg15 (by decide)).trans
        ((show W1 m ρ c (Proc.devRef .tc main_arg15) = W0 m ρ c (Proc.devRef .tc main_arg15) by carried_over hostOps0).trans rfl)))
theorem W4_arg16 (c : Dev nD) : W4 m ρ c (Proc.devRef .tc main_arg16) = m ((c : Thread nD τ).loc main_arg16) :=
  (W4_of_ne m ρ c main_arg16 (by decide)).trans
    ((show W3 m ρ c (Proc.devRef .tc main_arg16) = W2 m ρ c (Proc.devRef .tc main_arg16) by carried_over hostOps1).trans
      ((W2_of_ne m ρ c main_arg16 (by decide)).trans
        ((show W1 m ρ c (Proc.devRef .tc main_arg16) = W0 m ρ c (Proc.devRef .tc main_arg16) by carried_over hostOps0).trans rfl)))
theorem W4_arg17 (c : Dev nD) : W4 m ρ c (Proc.devRef .tc main_arg17) = m ((c : Thread nD τ).loc main_arg17) :=
  (W4_of_ne m ρ c main_arg17 (by decide)).trans
    ((show W3 m ρ c (Proc.devRef .tc main_arg17) = W2 m ρ c (Proc.devRef .tc main_arg17) by carried_over hostOps1).trans
      ((W2_of_ne m ρ c main_arg17 (by decide)).trans
        ((show W1 m ρ c (Proc.devRef .tc main_arg17) = W0 m ρ c (Proc.devRef .tc main_arg17) by carried_over hostOps0).trans rfl)))

/-! ## Region 2's input windows -/

/-- Window 0: region 1's output rows gathered along the sources and summed into the destinations. -/
theorem in2_0 (c : Dev nD) :
    (V5 m ρ c (Pipeline.arrRef spec2 0) : FVec Ideal S50000x256 .f32) = gsumT m c (out1 m ρ c) := by
  show StableHlo.after hostOps2 (W4 m ρ c) (Proc.devRef .tc main_v42) = _
  after_results_simp
  rw [W4_src, W4_dst, W4_out]
  all_goals rfl

/-- Window 1: the normalisation column, untouched by the third stretch. -/
theorem in2_1 (c : Dev nD) :
    (V5 m ρ c (Pipeline.arrRef spec2 1) : FVec Ideal S50000x1 .f32) = shapeCast _ (dinvT m c) shapeCasts_S50000_S50000x1 :=
  (show W5 m ρ c (Proc.devRef .tc main_v14) = W4 m ρ c (Proc.devRef .tc main_v14) by carried_over hostOps2).trans (W4_dinv m ρ c)

/-- Window 2: the second bias as a row. -/
theorem in2_2 (c : Dev nD) :
    V5 m ρ c (Pipeline.arrRef spec2 2) = shapeCast _ (m ((c : Thread nD τ).loc main_arg7)) shapeCasts_S256_S1x256 := by
  show StableHlo.after hostOps2 (W4 m ρ c) (Proc.devRef .tc main_v48) = _
  after_results
  rw [W4_arg7]
  all_goals rfl

/-- Window 3: the mean head's weights rounded to the short format. -/
theorem in2_3 (c : Dev nD) :
    (V5 m ρ c (Pipeline.arrRef spec2 3) : FVec Ideal S256x64 .bf16)
      = truncf (F := Ideal) (s := S256x64) (φ := .f32) .bf16 (m ((c : Thread nD τ).loc main_arg8)) bitsLt_bf16_f32 := by
  show StableHlo.after hostOps2 (W4 m ρ c) (Proc.devRef .tc main_v43) = _
  after_results
  rw [W4_arg8]
  all_goals rfl

/-- Window 4: the mean head's bias as a row. -/
theorem in2_4 (c : Dev nD) :
    V5 m ρ c (Pipeline.arrRef spec2 4) = shapeCast _ (m ((c : Thread nD τ).loc main_arg9)) shapeCasts_S64_S1x64 := by
  show StableHlo.after hostOps2 (W4 m ρ c) (Proc.devRef .tc main_v49) = _
  after_results
  rw [W4_arg9]
  all_goals rfl

/-- Window 5: the log-variance head's weights rounded to the short format. -/
theorem in2_5 (c : Dev nD) :
    (V5 m ρ c (Pipeline.arrRef spec2 5) : FVec Ideal S256x64 .bf16)
      = truncf (F := Ideal) (s := S256x64) (φ := .f32) .bf16 (m ((c : Thread nD τ).loc main_arg10)) bitsLt_bf16_f32 := by
  show StableHlo.after hostOps2 (W4 m ρ c) (Proc.devRef .tc main_v44) = _
  after_results
  rw [W4_arg10]
  all_goals rfl

/-- Window 6: the log-variance head's bias as a row. -/
theorem in2_6 (c : Dev nD) :
    V5 m ρ c (Pipeline.arrRef spec2 6) = shapeCast _ (m ((c : Thread nD τ).loc main_arg11)) shapeCasts_S64_S1x64 := by
  show StableHlo.after hostOps2 (W4 m ρ c) (Proc.devRef .tc main_v50) = _
  after_results
  rw [W4_arg11]
  all_goals rfl

/-- Window 7: the noise, an argument read in place. -/
theorem in2_7 (c : Dev nD) : V5 m ρ c (Pipeline.arrRef spec2 7) = m ((c : Thread nD τ).loc main_arg2) :=
  (show W5 m ρ c (Proc.devRef .tc main_arg2) = W4 m ρ c (Proc.devRef .tc main_arg2) by carried_over hostOps2).trans (W4_arg2 m ρ c)

/-- Window 8: the decoder's first weights rounded to the short format. -/
theorem in2_8 (c : Dev nD) :
    (V5 m ρ c (Pipeline.arrRef spec2 8) : FVec Ideal S64x256 .bf16)
      = truncf (F := Ideal) (s := S64x256) (φ := .f32) .bf16 (m ((c : Thread nD τ).loc main_arg12)) bitsLt_bf16_f32 := by
  show StableHlo.after hostOps2 (W4 m ρ c) (Proc.devRef .tc main_v45) = _
  after_results
  rw [W4_arg12]
  all_goals rfl

/-- Window 9: the decoder's first bias as a row. -/
theorem in2_9 (c : Dev nD) :
    V5 m ρ c (Pipeline.arrRef spec2 9) = shapeCast _ (m ((c : Thread nD τ).loc main_arg13)) shapeCasts_S256_S1x256 := by
  show StableHlo.after hostOps2 (W4 m ρ c) (Proc.devRef .tc main_v51) = _
  after_results
  rw [W4_arg13]
  all_goals rfl

/-- Window 10: the decoder's second weights rounded to the short format. -/
theorem in2_10 (c : Dev nD) :
    (V5 m ρ c (Pipeline.arrRef spec2 10) : FVec Ideal S256x128 .bf16)
      = truncf (F := Ideal) (s := S256x128) (φ := .f32) .bf16 (m ((c : Thread nD τ).loc main_arg14)) bitsLt_bf16_f32 := by
  show StableHlo.after hostOps2 (W4 m ρ c) (Proc.devRef .tc main_v46) = _
  after_results
  rw [W4_arg14]
  all_goals rfl

/-- Window 11: the decoder's second bias as a row. -/
theorem in2_11 (c : Dev nD) :
    V5 m ρ c (Pipeline.arrRef spec2 11) = shapeCast _ (m ((c : Thread nD τ).loc main_arg15)) shapeCasts_S128_S1x128 := by
  show StableHlo.after hostOps2 (W4 m ρ c) (Proc.devRef .tc main_v52) = _
  after_results
  rw [W4_arg15]
  all_goals rfl

/-- Window 12: the scalar head's weights rounded to the short format. -/
theorem in2_12 (c : Dev nD) :
    (V5 m ρ c (Pipeline.arrRef spec2 12) : FVec Ideal S64x1 .bf16)
      = truncf (F := Ideal) (s := S64x1) (φ := .f32) .bf16 (m ((c : Thread nD τ).loc main_arg16)) bitsLt_bf16_f32 := by
  show StableHlo.after hostOps2 (W4 m ρ c) (Proc.devRef .tc main_v47) = _
  after_results
  rw [W4_arg16]
  all_goals rfl

/-- Window 13: the scalar head's bias as a one-by-one array. -/
theorem in2_13 (c : Dev nD) :
    V5 m ρ c (Pipeline.arrRef spec2 13) = shapeCast _ (m ((c : Thread nD τ).loc main_arg17)) shapeCasts_S1_S1x1 := by
  show StableHlo.after hostOps2 (W4 m ρ c) (Proc.devRef .tc main_v53) = _
  after_results
  rw [W4_arg17]
  all_goals rfl

end Cert.KernelIdeal.Host

end
-- ==== Proof.Spec.lean ====
/-
  The node-wise arithmetic of a two-layer graph-convolution encoder with a reparameterised latent and two decoder heads, written ONCE
  over the extended reals, entry by entry. Both programs are compared against these functions.

  A graph-convolution layer sums, into node `i`, the rows of its sources scaled by `d(src) · d(i)`, `d` the inverse square root of
  the degree. One program scales each message by the product before summing; the other scales a row by `d` of its own node
  before it is gathered and the sum by `d(i)` afterwards. The three stage functions below are the second form's dense stages:
  each takes the raw sum `a` of pre-scaled rows and the column `d2` of the `d`, and works with `d2 i · a i k`.
-/
import Idealize.ShloMosaic.PureOps.Ideal
import Idealize.ShloMosaic.Lib.ValueIdx

noncomputable section

open scoped BigOperators

namespace Cert.Spec

open Idealize.ShloMosaic Idealize.ShloMosaic.ValueIdx

/-- A rank-2 shape by its two extents. -/
abbrev Sh (a b : Nat) : Shape := ⟨2, ![a, b]⟩
/-- A rank-2 array of extended reals. -/
abbrev RArr (a b : Nat) : Type := (Sh a b).Idx → EReal
/-- A rank-2 array of 32-bit words. -/
abbrev WArr (a b : Nat) : Type := (Sh a b).Idx → BitVec 32

/-- The row of an `N`-row table that a start word names: the word read signed, clamped into the table. -/
def rowOf (N : Nat) (hN : 0 < N) (w : BitVec 32) : Fin N := ⟨min w.toInt.toNat (N - 1), by omega⟩

/-- Entry `k` of the one-hot row of the word `w`: one when `w` is the number `k`, zero otherwise. -/
def hot (w : BitVec 32) (k : Fin 128) : EReal := if w = BitVec.ofNat 32 k.val then 1 else 0

/-- A bias added, then the positive part. -/
def act (a b : EReal) : EReal := max (a + b) 0

/-- The literal one half. -/
abbrev half : EReal := Ideal.ofBits .f32 0x3F000000#32

/-- FIRST STAGE: row `i` of the projected table `E` selected by the one-hot row of token `x2 i`, scaled by `d2 i`. -/
def stage0 (x2 : WArr 50000 1) (E : RArr 128 256) (d2 : RArr 50000 1) (i : Fin 50000) (h : Fin 256) : EReal :=
  (∑ k : Fin 128, hot (x2 (ix2 i 0)) k * E (ix2 k h)) * d2 (ix2 i 0)

/-- The activation a dense stage starts from: the sum `a` of pre-scaled rows, scaled by `d2 i`, plus the bias, positive part. -/
def hidden (a : RArr 50000 256) (d2 : RArr 50000 1) (b : RArr 1 256) (i : Fin 50000) (k : Fin 256) : EReal :=
  act (d2 (ix2 i 0) * a (ix2 i k)) (b (ix2 0 k))

/-- SECOND STAGE: the activation times the weights, scaled by `d2 i` for the next gather. -/
def stage1 (a : RArr 50000 256) (d2 : RArr 50000 1) (b : RArr 1 256) (W : RArr 256 256) (i : Fin 50000) (h : Fin 256) : EReal :=
  (∑ k : Fin 256, hidden a d2 b i k * W (ix2 k h)) * d2 (ix2 i 0)

/-- THIRD STAGE, a linear head on the activation (the mean head and the log-variance head are this function at their weights). -/
def head (a : RArr 50000 256) (d2 : RArr 50000 1) (b : RArr 1 256) (W : RArr 256 64) (c : RArr 1 64) (i : Fin 50000) (l : Fin 64) : EReal :=
  (∑ k : Fin 256, hidden a d2 b i k * W (ix2 k l)) + c (ix2 0 l)

/-- The latent: mean plus noise times `exp` of half the log-variance. -/
def latent (mu lv : Fin 50000 → Fin 64 → EReal) (eps : RArr 50000 64) (i : Fin 50000) (l : Fin 64) : EReal :=
  mu i l + eps (ix2 i l) * Ideal.exp (half * lv i l)

/-- The reconstruction head: a hidden layer with positive part, then a linear layer. -/
def recon (z : Fin 50000 → Fin 64 → EReal) (W3 : RArr 64 256) (b3 : RArr 1 256) (W4 : RArr 256 128) (b4 : RArr 1 128)
    (i : Fin 50000) (v : Fin 128) : EReal :=
  (∑ j : Fin 256, act (∑ l : Fin 64, z i l * W3 (ix2 l j)) (b3 (ix2 0 j)) * W4 (ix2 j v)) + b4 (ix2 0 v)

/-- The scalar head: the logistic function of a linear form of the latent. -/
def capHead (z : Fin 50000 → Fin 64 → EReal) (Wc : RArr 64 1) (bc : RArr 1 1) (i : Fin 50000) : EReal :=
  Ideal.logistic ((∑ l : Fin 64, z i l * Wc (ix2 l 0)) + bc (ix2 0 0))

/-! ## The graph side: messages, their sources and destinations

  A message `e` carries two words: `sw e` names its source node and `dw e` its destination node. A gather reads the source word
  with a negative value wrapped by the table's length and then clamped into the table; the scatter-add reads the destination word
  signed and drops a message whose word is no node. -/

/-- A negative index word wrapped by the number of nodes, as indexing does before a gather. -/
def wrapN (w : BitVec 32) : BitVec 32 := Scalar.select (IntOp.cmpi .slt w 0#32) (IntOp.addi w 50000#32) w
/-- A negative token word wrapped by the number of table rows. -/
def wrapV (w : BitVec 32) : BitVec 32 := Scalar.select (IntOp.cmpi .slt w 0#32) (IntOp.addi w 128#32) w
/-- The node a message's index word names for a gather. -/
def nodeOf (w : BitVec 32) : Fin 50000 := rowOf 50000 (by decide) (wrapN w)
/-- The messages that land on node `i`. -/
def inbox (dw : Fin 850000 → BitVec 32) (i : Fin 50000) : Finset (Fin 850000) :=
  Finset.univ.filter fun e => (dw e).toInt = (i.val : ℤ)
/-- The degree of node `i`, counted as the scatter-add of ones counts it. -/
def degree (dw : Fin 850000 → BitVec 32) (i : Fin 50000) : EReal := (0 : EReal) + ∑ _e ∈ inbox dw i, (1 : EReal)
/-- The inverse square root of the degree, at least one. -/
def dinv (dw : Fin 850000 → BitVec 32) (i : Fin 50000) : EReal := Ideal.rsqrt (max (degree dw i) 1)
/-- The bare sum, into node `i`, of the rows `T` of the messages' sources. -/
def gsum (sw dw : Fin 850000 → BitVec 32) (T : Fin 50000 → Fin 256 → EReal) (i : Fin 50000) (k : Fin 256) : EReal :=
  (0 : EReal) + ∑ e ∈ inbox dw i, T (nodeOf (sw e)) k
/-- The normalised sum, into node `i`, of the rows `T` of the messages' sources, each scaled by the two endpoints' factors. -/
def nsum (sw dw : Fin 850000 → BitVec 32) (D : Fin 50000 → EReal) (T : Fin 50000 → Fin 256 → EReal) (i : Fin 50000) (k : Fin 256) : EReal :=
  (0 : EReal) + ∑ e ∈ inbox dw i, T (nodeOf (sw e)) k * (D (nodeOf (sw e)) * D (nodeOf (dw e)))

end Cert.Spec

end
-- ==== Proof.Stage0Value.lean ====
/-
  FIRST STAGE, read off the pipeline's proof data. The first pallas_call runs over 25 grid points; point `t` reads rows
  `2000·t … 2000·t + 1999` of the token column and of the column `d`, the whole projected table, and writes the same rows of the
  output. Its body builds, for each row, the one-hot row of the token over 128 columns (token compared with the column number),
  multiplies it into the table (a sum over the 128 table rows) and scales the result by the row's `d`. Below: that arithmetic at
  one entry of a block; each input block as rows of its array; the block a point writes as the block of ONE whole-array
  function; the blocks cover the array; so the output array is that function, `Spec.stage0` of the three input arrays.
-/
import proofs.«403013_j32667521253538_2_alg».proof.Proof.KernelIdealFrameP
import proofs.«403013_j32667521253538_2_alg».proof.Proof.Spec
import proofs.«403013_j32667521253538_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Stage0

open Cert.KernelIdeal Cert.KernelIdeal.Gen

/-! ## The body's arithmetic at one entry -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-bit answer of an equality test, widened to a word and read signed as a real: one where equal, zero otherwise. -/
theorem eq_bit_real (x y : BitVec 32) :
    FloatOps.sitofp (F := Ideal) .f32 ((IntOp.cmpi .eq x y).setWidth 32) = if x = y then 1 else 0 := by
  by_cases hxy : x = y
  · subst hxy
    rw [if_pos rfl]
    have e : (IntOp.cmpi .eq x x).setWidth 32 = 1#32 := by
      show (BitVec.ofBool (x == x)).setWidth 32 = 1#32
      rw [beq_self_eq_true]
      rfl
    rw [e]
    show ((((1#32 : BitVec 32).toInt : ℝ)) : EReal) = 1
    norm_num
  · rw [if_neg hxy]
    have e : (IntOp.cmpi .eq x y).setWidth 32 = 0#32 := by
      show (BitVec.ofBool (x == y)).setWidth 32 = 0#32
      rw [beq_eq_false_iff_ne.mpr hxy]
      rfl
    rw [e]
    show ((((0#32 : BitVec 32).toInt : ℝ)) : EReal) = 0
    norm_num

/-- The one-hot entry the body builds at row `p`, column `k`: the row's token compared with the column number. -/
theorem onehot_apply (x0 : Vec Ideal S2000x1 .i32) (p : Fin 2000) (k : Fin 128) :
    (sitofp .f32 (extui 32 (cmpi .eq (broadcastTo S2000x128 (shapeCast S2000x1 x0 shapeCasts_S2000x1_S2000x1) broadcasts_S2000x1_S2000x128)
        (iota .tc S2000x128 32 [1] iota_S2000x128_d1_w32)) natLt_1_32) : FVec Ideal S2000x128 .f32) (ix2 p k)
      = Spec.hot (x0 (ix2 p (0 : Fin 1))) k := by
  rw [sitofp_apply, extui_apply]
  show FloatOps.sitofp (F := Ideal) .f32 ((IntOp.cmpi .eq (broadcastTo S2000x128 (shapeCast S2000x1 x0 shapeCasts_S2000x1_S2000x1) broadcasts_S2000x1_S2000x128 (ix2 p k))
        (iota .tc S2000x128 32 [1] iota_S2000x128_d1_w32 (ix2 p k))).setWidth 32) = _
  rw [broadcastTo_a1_ab_apply, shapeCast_self, iota_single_apply, eq_bit_real]
  rfl

/-! ## The product with the table: a sum over the 128 table rows -/

theorem lhs_dot0_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_dot0_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_dot0_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_dot0_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The body's matrix product into the zero accumulator, at `(p, q)`: row `p` of the left operand against column `q` of the
    right one, summed over the 128 contracted positions. -/
theorem matmul0_apply (l : FVec Ideal S2000x128 .f32) (r : FVec Ideal S128x256 .f32) (p : Fin 2000) (q : Fin 256) :
    matmul dot_S2000x128_S128x256_S2000x256_1_0_0_1_n_n (some .fp32) l r (constant (F := Ideal) S2000x256 .f32 0x00000000#32) (ix2 p q)
      = ∑ k : Fin 128, l (ix2 p k) * r (ix2 k q) := by
  show FloatOps.matmul dot_S2000x128_S128x256_S2000x256_1_0_0_1_n_n (some .fp32) l r (constant (F := Ideal) S2000x256 .f32 0x00000000#32) (ix2 p q) = _
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_dot0_0 _ _
    | ⟨1, _⟩ => exact (lhs_dot0_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_dot0_0 _ _).trans hk
    | ⟨1, _⟩ => exact rhs_dot0_1 _ _)
  rw [el, er]

/-- THE PAYLOAD AT AN ENTRY: the one-hot row of the row's token against column `q` of the table, scaled by the row's `d`. -/
theorem pay_apply (x0 : Vec Ideal S2000x1 .i32) (x1 : Vec Ideal S128x256 .f32) (x2 : Vec Ideal S2000x1 .f32) (p : Fin 2000) (q : Fin 256) :
    k0_pay1 (F := Ideal) x0 x1 x2 (ix2 p q)
      = (∑ k : Fin 128, Spec.hot (x0 (ix2 p (0 : Fin 1))) k * x1 (ix2 k q)) * x2 (ix2 p (0 : Fin 1)) := by
  unfold k0_pay1
  dsimp only
  rw [truncf_apply, mulf_apply, matmul0_apply, broadcastTo_a1_ab_apply, shapeCast_self x2]
  congr 1
  refine Finset.sum_congr rfl fun k _ => ?_
  rw [onehot_apply, shapeCast_self]

/-! ## The blocks, and the array they make -/

variable (V : (c : Dev nD) → (b : Ref sig .tc) → Buf (Elt Ideal) ((c : Thread nD τ).loc b))

/-- The token column, as the first call finds it. -/
abbrev tok (c : Dev nD) : Cert.Spec.WArr 50000 1 := V c (Pipeline.arrRef spec0 0)
/-- The projected table, as the first call finds it. -/
abbrev tab (c : Dev nD) : Cert.Spec.RArr 128 256 := V c (Pipeline.arrRef spec0 1)
/-- The column `d`, as the first call finds it. -/
abbrev dcol (c : Dev nD) : Cert.Spec.RArr 50000 1 := V c (Pipeline.arrRef spec0 2)

theorem hz : (![0, 0] : Fin 2 → Nat) = fun _ => 0 := funext fun a => by fin_cases a <;> rfl

/-- The block index maps over the grid: the three row-tiled windows are at block `(t, 0)` at point `t`, the table at `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of point `t`'s blocks is row `2000·t + p` of the arrays. -/
def row (t : Fin cfg0.N) (p : Fin 2000) : Fin 50000 :=
  ⟨2000 * t.val + p.val, by have ht := t.isLt; have hN : cfg0.N = 25 := N_0; have hp := p.isLt; omega⟩

/-- The token block at point `t`: rows `2000·t …` of the token column. -/
theorem tok_blk (c : Dev nD) (t : Fin cfg0.N) (p : Fin 2000) :
    (iblk0 V c 0 t : Vec Ideal S2000x1 .i32) (ix2 p (0 : Fin 1)) = tok V c (ix2 (row t p) (0 : Fin 1)) := by
  obtain ⟨e0, e1, -⟩ := idx_facts t
  unfold iblk0
  rw [View.read_apply]
  show V c (Pipeline.arrRef spec0 0) _ = V c (Pipeline.arrRef spec0 0) _
  congr 1
  funext a; apply Fin.ext
  match a with
  | ⟨0, _⟩ => show win0_0.index t (0 : Fin 2) * 2000 + 1 * p.val = 2000 * t.val + p.val; rw [e0]; omega
  | ⟨1, _⟩ => show win0_0.index t (1 : Fin 2) * 1 + 1 * 0 = 0; rw [e1]

/-- The table's block at every point is the table. -/
theorem tab_blk (c : Dev nD) (t : Fin cfg0.N) (k : Fin 128) (q : Fin 256) :
    (iblk0 V c 1 t : Vec Ideal S128x256 .f32) (ix2 k q) = tab V c (ix2 k q) := by
  obtain ⟨-, -, e2, e3, -⟩ := idx_facts t
  unfold iblk0
  rw [View.read_apply]
  show V c (Pipeline.arrRef spec0 1) _ = V c (Pipeline.arrRef spec0 1) _
  congr 1
  funext a; apply Fin.ext
  match a with
  | ⟨0, _⟩ => show win0_1.index t (0 : Fin 2) * 128 + 1 * k.val = k.val; rw [e2]; omega
  | ⟨1, _⟩ => show win0_1.index t (1 : Fin 2) * 256 + 1 * q.val = q.val; rw [e3]; omega

/-- The block of the column `d` at point `t`: rows `2000·t …` of the column. -/
theorem dcol_blk (c : Dev nD) (t : Fin cfg0.N) (p : Fin 2000) :
    (iblk0 V c 2 t : Vec Ideal S2000x1 .f32) (ix2 p (0 : Fin 1)) = dcol V c (ix2 (row t p) (0 : Fin 1)) := by
  obtain ⟨-, -, -, -, e4, e5, -⟩ := idx_facts t
  unfold iblk0
  rw [View.read_apply]
  show V c (Pipeline.arrRef spec0 2) _ = V c (Pipeline.arrRef spec0 2) _
  congr 1
  funext a; apply Fin.ext
  match a with
  | ⟨0, _⟩ => show win0_2.index t (0 : Fin 2) * 2000 + 1 * p.val = 2000 * t.val + p.val; rw [e4]; omega
  | ⟨1, _⟩ => show win0_2.index t (1 : Fin 2) * 1 + 1 * 0 = 0; rw [e5]

/-- Entry `(p, q)` of the output block at point `t` is entry `(2000·t + p, q)` of the output array. -/
theorem out_emb (t : Fin cfg0.N) (p : Fin 2000) (q : Fin 256) :
    ((cfg0.win 3).blk t).view.emb (ix2 p q) = (ix2 (row t p) q : S50000x256.Idx) := by
  obtain ⟨-, -, -, -, -, -, e6, e7⟩ := idx_facts t
  funext a; apply Fin.ext
  match a with
  | ⟨0, _⟩ => show win0_3.index t (0 : Fin 2) * 2000 + 1 * p.val = 2000 * t.val + p.val; rw [e6]; omega
  | ⟨1, _⟩ => show win0_3.index t (1 : Fin 2) * 256 + 1 * q.val = q.val; rw [e7]; omega

/-- THE OUTPUT ARRAY AS ONE FUNCTION of the three input arrays: the first stage, entry by entry. -/
def G (c : Dev nD) : S50000x256.Idx → EReal :=
  fun j => Spec.stage0 (tok V c) (tab V c) (dcol V c) (j 0) (j 1)

/-- WHAT POINT `t` WRITES BACK is block `t` of that function. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz]
  simp only [View.ld_unit_zero (S := S2000x1) hz, View.ld_unit_zero (S := S128x256) hz]
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (ix2 p q) = G V c (((cfg0.win 3).blk t).view.emb (ix2 p q))
  rw [out_emb]
  refine (pay_apply (iblk0 V c 0 t) (iblk0 V c 1 t) (iblk0 V c 2 t) p q).trans ?_
  rw [tok_blk, dcol_blk]
  show _ = (∑ k : Fin 128, Spec.hot (tok V c (ix2 (row t p) (0 : Fin 1))) k * tab V c (ix2 k q)) * dcol V c (ix2 (row t p) (0 : Fin 1))
  congr 1
  refine Finset.sum_congr rfl fun k _ => ?_
  rw [tab_blk]

/-- An index of the output array is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v17).slice (win0_3.rect t)).set ↔ _
  rw [View.set_slice_whole, Rect.mem_set_unit]
  exact Iff.rfl

/-- Row `r` of the output is written by point `r / 2000`: the 25 blocks cover the array. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; rw [e6]; omega
  | ⟨1, _⟩ => show win0_3.index t (1 : Fin 2) * 256 ≤ (i 1).val ∧ (i 1).val < win0_3.index t (1 : Fin 2) * 256 + 256; rw [e7]; omega

/-- THE OUTPUT ARRAY after the first call is that function of the three input arrays. -/
theorem final (c : Dev nD) : (dat0 (F := Ideal) V c).arrAt 3 cfg0.N = G V c :=
  (dat0 (F := Ideal) V c).arrAt_eq_of_cover 3 (G V c) (fun t _ => flushed_eq V c t) cover

/-- THE VALUE: entry `(i, h)` of the first call's output is the first stage of the token column, the table and the column `d`. -/
theorem value (c : Dev nD) (i : Fin 50000) (h : Fin 256) :
    (dat0 (F := Ideal) V c).arrAt 3 cfg0.N (ix2 i h) = Cert.Spec.stage0 (tok V c) (tab V c) (dcol V c) i h :=
  congrFun (final V c) (ix2 i h)

end Cert.KernelIdeal.Stage0

end
-- ==== Proof.Stage1Value.lean ====
/- The value of the second dense stage's output array after its region, entry by entry.
   The region's body computes, on a block of 2000 rows, the positive part of the scaled row sum plus the bias,
   multiplies it with the weight matrix and scales the product row by row; here that block is read at an index,
   each block is recognised as the restriction of ONE whole-array function, and the blocks are seen to cover the array. -/
import proofs.«403013_j32667521253538_2_alg».proof.Proof.KernelIdealFrameP
import proofs.«403013_j32667521253538_2_alg».proof.Proof.Spec
import proofs.«403013_j32667521253538_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Stage1

open Cert.KernelIdeal Cert.KernelIdeal.Gen

/-! ## The body's payload at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index keeps the output's row. -/
theorem lhs_dot_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The product's left operand index has the summation index as its column. -/
theorem lhs_dot_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The product's right operand index has the summation index as its row. -/
theorem rhs_dot_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The product's right operand index keeps the output's column. -/
theorem rhs_dot_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The matrix product into the zero accumulator, at `(p, q)`: row `p` of the left factor against column `q` of the right. -/
theorem matmul_at (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-- THE PAYLOAD AT AN INDEX: entry `(p, q)` of the block the body stores is the activation row `p` against column `q` of
    the weights, scaled by the column's entry of row `p`. -/
theorem pay_at (d : Vec Ideal S2000x1 .f32) (a : Vec Ideal S2000x256 .f32) (b : Vec Ideal S1x256 .f32)
    (w : Vec Ideal S256x256 .bf16) (p : Fin 2000) (q : Fin 256) :
    k1_pay1 (F := Ideal) d a b w d (ix2 p q)
      = (∑ k : Fin 256, Cert.Spec.act (d (ix2 p 0) * a (ix2 p k)) (b (ix2 0 k)) * w (ix2 k q)) * d (ix2 p 0) := by
  unfold k1_pay1
  simp only [shapeCast_self]
  rw [truncf_apply, mulf_apply, matmul_at, broadcastTo_a1_ab_apply]
  refine congrArg (· * d (ix2 p 0)) (Finset.sum_congr rfl fun k _ => ?_)
  rw [truncf_apply, maximumf_apply, addf_apply, mulf_apply, broadcastTo_a1_ab_apply, broadcastTo_1b_ab_apply, broadcast_apply]
  unfold Cert.Spec.act
  show max (_ + _) (Ideal.ofBits .f32 0x00000000#32) * _ = _
  rw [Ideal.ofBits_zero_f32]

/-! ## From the blocks to the array -/

variable (V : (c : Dev nD) → (b : Ref sig .tc) → Buf (Elt Ideal) ((c : Thread nD τ).loc b))

/-- The array `a` the stage starts from, as the region finds it. -/
abbrev agg (c : Dev nD) : Cert.Spec.RArr 50000 256 := V c (Pipeline.arrRef spec1 0)
/-- The scaling column `d2`. -/
abbrev dcol (c : Dev nD) : Cert.Spec.RArr 50000 1 := V c (Pipeline.arrRef spec1 1)
/-- The bias row. -/
abbrev brow (c : Dev nD) : Cert.Spec.RArr 1 256 := V c (Pipeline.arrRef spec1 2)
/-- The weight matrix. -/
abbrev wts (c : Dev nD) : Cert.Spec.RArr 256 256 := V c (Pipeline.arrRef spec1 3)

/-- The whole output array as ONE function of the four input arrays: the second dense stage, entry by entry. -/
def G (c : Dev nD) : S50000x256.Idx → EReal :=
  fun j => Cert.Spec.stage1 (agg V c) (dcol V c) (brow V c) (wts V c) (j 0) (j 1)

theorem hz : (![0, 0] : Fin 2 → Nat) = fun _ => 0 := funext fun a => by fin_cases a <;> rfl

/-- The printed index maps over the grid: the row-tiled windows sit at block row `t`, the small ones at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of point `t`'s block of `a` is row `2000 t + p` of the array. -/
theorem ablk_at (c : Dev nD) (t : Fin cfg1.N) (p : Fin 2000) (k : Fin 256) (r : Fin 50000) (hr : r.val = 2000 * t.val + p.val) :
    (iblk1 V c 0 t : Vec Ideal S2000x256 .f32) (ix2 p k) = agg V c (ix2 r k) := by
  obtain ⟨e0, e1, -⟩ := idx_facts t
  unfold iblk1
  rw [View.read_apply]
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

/-- Row `p` of point `t`'s block of the column is row `2000 t + p` of the column. -/
theorem dblk_at (c : Dev nD) (t : Fin cfg1.N) (p : Fin 2000) (r : Fin 50000) (hr : r.val = 2000 * t.val + p.val) :
    (iblk1 V c 1 t : Vec Ideal S2000x1 .f32) (ix2 p 0) = dcol V c (ix2 r 0) := by
  obtain ⟨-, -, e0, e1, -⟩ := idx_facts t
  unfold iblk1
  rw [View.read_apply]
  show V c (Pipeline.arrRef spec1 1) (((cfg1.win 1).blk t).view.emb (ix2 p 0)) = V c (Pipeline.arrRef spec1 1) (ix2 r 0)
  refine congrArg _ (funext fun a => Fin.ext ?_)
  match a with
  | ⟨0, _⟩ => show win1_1.index t (0 : Fin 2) * 2000 + 1 * p.val = r.val; omega
  | ⟨1, _⟩ => show win1_1.index t (1 : Fin 2) * 1 + 1 * 0 = 0; omega

/-- Every point's block of the bias row is the whole row. -/
theorem bblk_at (c : Dev nD) (t : Fin cfg1.N) (k : Fin 256) :
    (iblk1 V c 2 t : Vec Ideal S1x256 .f32) (ix2 0 k) = brow V c (ix2 0 k) := by
  obtain ⟨-, -, -, -, e0, e1, -⟩ := idx_facts t
  unfold iblk1
  rw [View.read_apply]
  show V c (Pipeline.arrRef spec1 2) (((cfg1.win 2).blk t).view.emb (ix2 0 k)) = V c (Pipeline.arrRef spec1 2) (ix2 0 k)
  refine congrArg _ (funext fun a => Fin.ext ?_)
  match a with
  | ⟨0, _⟩ => show win1_2.index t (0 : Fin 2) * 1 + 1 * 0 = 0; omega
  | ⟨1, _⟩ => show win1_2.index t (1 : Fin 2) * 256 + 1 * k.val = k.val; omega

/-- Every point's block of the weights is the whole matrix. -/
theorem wblk_at (c : Dev nD) (t : Fin cfg1.N) (k : Fin 256) (q : Fin 256) :
    (iblk1 V c 3 t : Vec Ideal S256x256 .bf16) (ix2 k q) = wts V c (ix2 k q) := by
  obtain ⟨-, -, -, -, -, -, e0, e1, -⟩ := idx_facts t
  unfold iblk1
  rw [View.read_apply]
  show V c (Pipeline.arrRef spec1 3) (((cfg1.win 3).blk t).view.emb (ix2 k q)) = V c (Pipeline.arrRef spec1 3) (ix2 k q)
  refine congrArg _ (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega

/-- WHAT POINT `t` WRITES BACK is block `t` of the stage's whole-array function of the arrays as the region finds them. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz]
  simp only [View.ld_unit_zero (S := S2000x256) hz, View.ld_unit_zero (S := S2000x1) hz, View.ld_unit_zero (S := S1x256) hz, View.ld_unit_zero (S := S256x256) hz]
  funext j
  obtain ⟨p, q, rfl⟩ : ∃ (p : Fin 2000) (q : Fin 256), j = ix2 p q := ⟨j 0, j 1, eq_ix2 j⟩
  show k1_pay1 (F := Ideal) (iblk1 V c 1 t) (iblk1 V c 0 t) (iblk1 V c 2 t) (iblk1 V c 3 t) (iblk1 V c 1 t) (ix2 p q)
    = G V c (((cfg1.win 4).blk t).view.emb (ix2 p q))
  refine (pay_at (iblk1 V c 1 t) (iblk1 V c 0 t) (iblk1 V c 2 t) (iblk1 V c 3 t) p q).trans ?_
  obtain ⟨-, -, -, -, -, -, -, -, e0, e1⟩ := idx_facts t
  have hN : cfg1.N = 25 := N_1
  have ht : t.val < 25 := hN ▸ t.isLt
  have hemb : ((cfg1.win 4).blk t).view.emb (ix2 p q) = ix2 (⟨2000 * t.val + p.val, by omega⟩ : Fin 50000) q :=
    funext fun a => Fin.ext (by
      match a with
      | ⟨0, _⟩ => show win1_4.index t (0 : Fin 2) * 2000 + 1 * p.val = 2000 * t.val + p.val; omega
      | ⟨1, _⟩ => show win1_4.index t (1 : Fin 2) * 256 + 1 * q.val = q.val; omega)
  rw [hemb]
  show _ = Cert.Spec.stage1 (agg V c) (dcol V c) (brow V c) (wts V c) (⟨2000 * t.val + p.val, by omega⟩ : Fin 50000) q
  unfold Cert.Spec.stage1 Cert.Spec.hidden
  rw [dblk_at V c t p ⟨2000 * t.val + p.val, by omega⟩ rfl]
  refine congrArg (· * _) (Finset.sum_congr rfl fun k _ => ?_)
  rw [ablk_at V c t p k ⟨2000 * t.val + p.val, by omega⟩ rfl, bblk_at V c t k, wblk_at V c t k q]

/-- An index of the array is in point `t`'s block iff each coordinate is in the block's range on its axis. -/
theorem mem_blk (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v31).slice (win1_4.rect t)).set ↔ _
  rw [View.set_slice_whole, Rect.mem_set_unit]
  exact Iff.rfl

/-- Every index of the array is in some point's block: row `r` is in the block of point `r / 2000`. -/
theorem cover (i : S50000x256.Idx) :
    ∃ t : Fin cfg1.N, (cfg1.win 4).flush t = true ∧ i ∈ ((cfg1.win 4).blk t).view.set := by
  have hN : cfg1.N = 25 := N_1
  have hi0 : (i 0).val < 50000 := (i 0).isLt
  have hi1 : (i 1).val < 256 := (i 1).isLt
  obtain ⟨t, ht⟩ : ∃ t : Fin cfg1.N, t.val = (i 0).val / 2000 := ⟨⟨(i 0).val / 2000, by omega⟩, rfl⟩
  refine ⟨t, flush1_4 t, ?_⟩
  rw [mem_blk]
  obtain ⟨-, -, -, -, -, -, -, -, e0, e1⟩ := idx_facts t
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 256 ≤ (i 1).val ∧ (i 1).val < win1_4.index t (1 : Fin 2) * 256 + 256
    omega

/-- THE ARRAY after the region: the stage's function of the four input arrays. -/
theorem final (c : Dev nD) : (dat1 (F := Ideal) V c).arrAt 4 cfg1.N = G V c :=
  (dat1 (F := Ideal) V c).arrAt_eq_of_cover 4 (G V c) (fun t _ => flushed_eq V c t) cover

/-- THE VALUE of the region's output array, entry by entry. -/
theorem value (c : Dev nD) (i : Fin 50000) (h : Fin 256) :
    (dat1 (F := Ideal) V c).arrAt 4 cfg1.N (ix2 i h) = Cert.Spec.stage1 (agg V c) (dcol V c) (brow V c) (wts V c) i h :=
  congrFun (final V c) (ix2 i h)

end Cert.KernelIdeal.Stage1

end
-- ==== Proof.Stage2HeadsValue.lean ====
/-
  The two linear heads of the third dense stage, read off the idealized kernel's third region.

  Per grid point the body forms, on its 2000 rows, the activation
      h p k = max (d p · a p k + b k) 0,
  multiplies it by a 256 × 64 weight matrix and adds a bias row; it does so twice, once with the
  weights of the mean head and once with those of the log-variance head. This module reads the
  stored block at an index, shows that the block a point writes is the restriction, to the point's
  rows, of ONE function of the region's input arrays (the specification's `head`), and concludes
  that after the region each of the two output arrays holds that function entry by entry.
-/
import proofs.«403013_j32667521253538_2_alg».proof.Proof.KernelIdealFrameP
import proofs.«403013_j32667521253538_2_alg».proof.Proof.Spec
import proofs.«403013_j32667521253538_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Stage2Heads

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- A column `[a, 1]` broadcast along the rows of `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The activation the heads start from, at row `p` and feature `k` of a block: the column entry times the
    block entry, plus the bias, positive part. -/
theorem hidden_apply (v0 : Vec Ideal S2000x1 .f32) (v2 : Vec Ideal S2000x256 .f32) (v6 : Vec Ideal S1x256 .f32)
    (p : Fin 2000) (k : Fin 256) :
    k2_pay4 (F := Ideal) v0 v2 v6 (ix2 p k)
      = Cert.Spec.act (v0 (ix2 p (0 : Fin 1)) * v2 (ix2 p k)) (v6 (ix2 (0 : Fin 1) k)) := by
  unfold k2_pay4
  simp only [shapeCast_self]
  rw [truncf_apply, maximumf_apply, addf_apply, mulf_apply, broadcast_apply]
  rw [broadcastTo_a1_ab_apply (a := 2000) (b := 256) v0 broadcasts_S2000x1_S2000x256 p k,
    broadcastTo_1b_ab_apply (a := 2000) (b := 256) v6 broadcasts_S1x256_S2000x256 p k]
  show max _ (Ideal.ofBits .f32 0x00000000#32) = _
  rw [Ideal.ofBits_zero_f32]
  rfl

/-! ## The product with a weight matrix -/

/-- The left operand's row coordinate is the output's. -/
theorem lhs_heads_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
/-- The left operand's column coordinate is the contraction index. -/
theorem lhs_heads_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
/-- The right operand's row coordinate is the contraction index. -/
theorem rhs_heads_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
/-- The right operand's column coordinate is the output's. -/
theorem rhs_heads_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- A 2000 × 256 block times a 256 × 64 matrix into the zero accumulator, at `(p, q)`: the sum over the 256
    features of the products. -/
theorem heads_matmul_apply (l : FVec Ideal S2000x256 .bf16) (r : FVec Ideal S256x64 .bf16) (p : Fin 2000) (q : Fin 64) :
    matmul (F := Ideal) dot_S2000x256_S256x64_S2000x64_1_0_0_1_n_n none l r (constant (F := Ideal) S2000x64 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 p q) ((ValueIdx.contrEquiv1 dot_S2000x256_S256x64_S2000x64_1_0_0_1_n_n 256 rfl rfl).symm k) = ix2 p k := funext fun a => Fin.ext (by
    match a with
    | ⟨0, _⟩ => exact lhs_heads_0 _ _
    | ⟨1, _⟩ => exact (lhs_heads_1 _ _).trans hk)
  have er : dot_S2000x256_S256x64_S2000x64_1_0_0_1_n_n.rhsIdx (ix2 p q) ((ValueIdx.contrEquiv1 dot_S2000x256_S256x64_S2000x64_1_0_0_1_n_n 256 rfl rfl).symm k) = ix2 k q := funext fun a => Fin.ext (by
    match a with
    | ⟨0, _⟩ => exact (rhs_heads_0 _ _).trans hk
    | ⟨1, _⟩ => exact rhs_heads_1 _ _)
  rw [el, er]

/-- THE HEAD'S STORED BLOCK AT AN INDEX: the activation row times the weight column, plus the bias. -/
theorem head_block_apply (v0 : Vec Ideal S2000x1 .f32) (v2 : Vec Ideal S2000x256 .f32) (v6 : Vec Ideal S1x256 .f32)
    (v13 : Vec Ideal S256x64 .bf16) (v16 : Vec Ideal S1x64 .f32) (p : Fin 2000) (q : Fin 64) :
    k2_pay5 (F := Ideal) v0 v2 v6 v13 v16 (ix2 p q)
      = (∑ k : Fin 256, Cert.Spec.act (v0 (ix2 p (0 : Fin 1)) * v2 (ix2 p k)) (v6 (ix2 (0 : Fin 1) k)) * v13 (ix2 k q))
        + v16 (ix2 (0 : Fin 1) q) := by
  unfold k2_pay5
  simp only [shapeCast_self]
  rw [addf_apply, heads_matmul_apply, broadcastTo_1b_ab_apply (a := 2000) (b := 64) v16 broadcasts_S1x64_S2000x64 p q]
  simp only [hidden_apply]

/-- The second head's payload is the same term of its own weights and bias. -/
theorem k2_pay6_eq (v0 : Vec Ideal S2000x1 .f32) (v2 : Vec Ideal S2000x256 .f32) (v6 : Vec Ideal S1x256 .f32)
    (v20 : Vec Ideal S256x64 .bf16) (v23 : Vec Ideal S1x64 .f32) :
    k2_pay6 (F := Ideal) v0 v2 v6 v20 v23 = k2_pay5 (F := Ideal) v0 v2 v6 v20 v23 := rfl

/-! ## The region's arrays -/

variable (V : (c : Dev nD) → (b : Ref sig .tc) → Buf (Elt Ideal) ((c : Thread nD τ).loc b))

/-- The region's first input, the array the specification's stage functions call `a`, as the region finds it. -/
abbrev agg (c : Dev nD) : Cert.Spec.RArr 50000 256 := V c (Pipeline.arrRef spec2 0)
/-- The region's column input, the one the specification's stage functions call `d2`. -/
abbrev dcol (c : Dev nD) : Cert.Spec.RArr 50000 1 := V c (Pipeline.arrRef spec2 1)
/-- The bias row of the activation. -/
abbrev brow (c : Dev nD) : Cert.Spec.RArr 1 256 := V c (Pipeline.arrRef spec2 2)
/-- The mean head's weights. -/
abbrev wmu (c : Dev nD) : Cert.Spec.RArr 256 64 := V c (Pipeline.arrRef spec2 3)
/-- The mean head's bias row. -/
abbrev bmu (c : Dev nD) : Cert.Spec.RArr 1 64 := V c (Pipeline.arrRef spec2 4)
/-- The log-variance head's weights. -/
abbrev wlv (c : Dev nD) : Cert.Spec.RArr 256 64 := V c (Pipeline.arrRef spec2 5)
/-- The log-variance head's bias row. -/
abbrev blv (c : Dev nD) : Cert.Spec.RArr 1 64 := V c (Pipeline.arrRef spec2 6)

/-- A head as ONE array: the specification's function at the two coordinates of an index. -/
abbrev headArr (A : Cert.Spec.RArr 50000 256) (D : Cert.Spec.RArr 50000 1) (B : Cert.Spec.RArr 1 256)
    (W : Cert.Spec.RArr 256 64) (C : Cert.Spec.RArr 1 64) : Cert.Spec.RArr 50000 64 :=
  fun j => Cert.Spec.head A D B W C (j 0) (j 1)

theorem hz : (![0, 0] : Fin 2 → Nat) = fun _ => 0 := funext fun a => by fin_cases a <;> rfl

/-- The grid has 25 points. -/
theorem lt25 (t : Fin cfg2.N) : t.val < 25 := t.isLt

/-- The row of the 50000 that row `p` of point `t`'s blocks is. -/
abbrev rowAt (t : Fin cfg2.N) (p : Fin 2000) : Fin 50000 := ⟨2000 * t.val + p.val, by have := lt25 t; have := p.isLt; omega⟩

/-- The printed index maps, decided over the grid: the row-tiled windows sit at block `(t, 0)`, the whole-array
    windows at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_14.index t (0 : Fin 2) = t.val ∧ win2_14.index t (1 : Fin 2) = 0
    ∧ win2_15.index t (0 : Fin 2) = t.val ∧ win2_15.index t (1 : Fin 2) = 0 :=
  (by decide +kernel : ∀ t : Fin grid2.N, _)

/-- THE STORED BLOCK IS THE SPECIFICATION'S HEAD on the point's rows, once each loaded block is known to be the
    matching part of its array: row `p` of the blocks is row `i` of the arrays, the small arrays are read whole. -/
theorem head_block_eq (x0 : Vec Ideal S2000x256 .f32) (x1 : Vec Ideal S2000x1 .f32) (x2 : Vec Ideal S1x256 .f32)
    (x3 : Vec Ideal S256x64 .bf16) (x4 : Vec Ideal S1x64 .f32)
    (A : Cert.Spec.RArr 50000 256) (D : Cert.Spec.RArr 50000 1) (B : Cert.Spec.RArr 1 256)
    (W : Cert.Spec.RArr 256 64) (C : Cert.Spec.RArr 1 64) (p : Fin 2000) (q : Fin 64) (i : Fin 50000)
    (h0 : ∀ k : Fin 256, x0 (ix2 p k) = A (ix2 i k)) (h1 : x1 (ix2 p (0 : Fin 1)) = D (ix2 i (0 : Fin 1)))
    (h2 : ∀ k : Fin 256, x2 (ix2 (0 : Fin 1) k) = B (ix2 (0 : Fin 1) k))
    (h3 : ∀ k : Fin 256, x3 (ix2 k q) = W (ix2 k q)) (h4 : x4 (ix2 (0 : Fin 1) q) = C (ix2 (0 : Fin 1) q)) :
    k2_pay5 (F := Ideal) x1 x0 x2 x3 x4 (ix2 p q) = headArr A D B W C (ix2 i q) := by
  rw [head_block_apply]
  show _ = Cert.Spec.head A D B W C i q
  unfold Cert.Spec.head Cert.Spec.hidden
  rw [h1, h4]
  simp only [h0, h2, h3]

/-- Row `p` of point `t`'s block of the first input is row `2000·t + p` of the array. -/
theorem agg_block (c : Dev nD) (t : Fin cfg2.N) (p : Fin 2000) (k : Fin 256) :
    (iblk2 V c 0 t : Vec Ideal S2000x256 .f32) (ix2 p k) = agg V c (ix2 (rowAt t p) k) := by
  obtain ⟨e0, e1, -⟩ := idx_facts t
  have ht := lt25 t; have hp := p.isLt; have hk := k.isLt
  show agg V c (((cfg2.win 0).blk t).view.emb (ix2 p k)) = agg V c (ix2 (rowAt t p) k)
  refine congrArg (agg V c) (funext fun a => Fin.ext ?_)
  match a with
  | ⟨0, _⟩ => show win2_0.index t (0 : Fin 2) * 2000 + 1 * p.val = 2000 * t.val + p.val; omega
  | ⟨1, _⟩ => show win2_0.index t (1 : Fin 2) * 256 + 1 * k.val = k.val; omega

/-- Row `p` of point `t`'s block of the column is row `2000·t + p` of the column. -/
theorem dcol_block (c : Dev nD) (t : Fin cfg2.N) (p : Fin 2000) :
    (iblk2 V c 1 t : Vec Ideal S2000x1 .f32) (ix2 p (0 : Fin 1)) = dcol V c (ix2 (rowAt t p) (0 : Fin 1)) := by
  obtain ⟨-, -, e0, e1, -⟩ := idx_facts t
  have ht := lt25 t; have hp := p.isLt
  show dcol V c (((cfg2.win 1).blk t).view.emb (ix2 p (0 : Fin 1))) = dcol V c (ix2 (rowAt t p) (0 : Fin 1))
  refine congrArg (dcol V c) (funext fun a => Fin.ext ?_)
  match a with
  | ⟨0, _⟩ => show win2_1.index t (0 : Fin 2) * 2000 + 1 * p.val = 2000 * t.val + p.val; omega
  | ⟨1, _⟩ => show win2_1.index t (1 : Fin 2) * 1 + 1 * 0 = 0; omega

/-- The activation's bias row is read whole at every point. -/
theorem brow_block (c : Dev nD) (t : Fin cfg2.N) (k : Fin 256) :
    (iblk2 V c 2 t : Vec Ideal S1x256 .f32) (ix2 (0 : Fin 1) k) = brow V c (ix2 (0 : Fin 1) k) := by
  obtain ⟨-, -, -, -, e0, e1, -⟩ := idx_facts t
  have hk := k.isLt
  show brow V c (((cfg2.win 2).blk t).view.emb (ix2 (0 : Fin 1) k)) = brow V c (ix2 (0 : Fin 1) k)
  refine congrArg (brow V c) (funext fun a => Fin.ext ?_)
  match a with
  | ⟨0, _⟩ => show win2_2.index t (0 : Fin 2) * 1 + 1 * 0 = 0; omega
  | ⟨1, _⟩ => show win2_2.index t (1 : Fin 2) * 256 + 1 * k.val = k.val; omega

/-- The mean head's weights are read whole at every point. -/
theorem wmu_block (c : Dev nD) (t : Fin cfg2.N) (k : Fin 256) (q : Fin 64) :
    (iblk2 V c 3 t : Vec Ideal S256x64 .bf16) (ix2 k q) = wmu V c (ix2 k q) := by
  obtain ⟨-, -, -, -, -, -, e0, e1, -⟩ := idx_facts t
  have hk := k.isLt; have hq := q.isLt
  show wmu V c (((cfg2.win 3).blk t).view.emb (ix2 k q)) = wmu V c (ix2 k q)
  refine congrArg (wmu V c) (funext fun a => Fin.ext ?_)
  match a with
  | ⟨0, _⟩ => show win2_3.index t (0 : Fin 2) * 256 + 1 * k.val = k.val; omega
  | ⟨1, _⟩ => show win2_3.index t (1 : Fin 2) * 64 + 1 * q.val = q.val; omega

/-- The mean head's bias row is read whole at every point. -/
theorem bmu_block (c : Dev nD) (t : Fin cfg2.N) (q : Fin 64) :
    (iblk2 V c 4 t : Vec Ideal S1x64 .f32) (ix2 (0 : Fin 1) q) = bmu V c (ix2 (0 : Fin 1) q) := by
  obtain ⟨-, -, -, -, -, -, -, -, e0, e1, -⟩ := idx_facts t
  have hq := q.isLt
  show bmu V c (((cfg2.win 4).blk t).view.emb (ix2 (0 : Fin 1) q)) = bmu V c (ix2 (0 : Fin 1) q)
  refine congrArg (bmu V c) (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-- The log-variance head's weights are read whole at every point. -/
theorem wlv_block (c : Dev nD) (t : Fin cfg2.N) (k : Fin 256) (q : Fin 64) :
    (iblk2 V c 5 t : Vec Ideal S256x64 .bf16) (ix2 k q) = wlv V c (ix2 k q) := by
  obtain ⟨-, -, -, -, -, -, -, -, -, -, e0, e1, -⟩ := idx_facts t
  have hk := k.isLt; have hq := q.isLt
  show wlv V c (((cfg2.win 5).blk t).view.emb (ix2 k q)) = wlv V c (ix2 k q)
  refine congrArg (wlv V c) (funext fun a => Fin.ext ?_)
  match a with
  | ⟨0, _⟩ => show win2_5.index t (0 : Fin 2) * 256 + 1 * k.val = k.val; omega
  | ⟨1, _⟩ => show win2_5.index t (1 : Fin 2) * 64 + 1 * q.val = q.val; omega

/-- The log-variance head's bias row is read whole at every point. -/
theorem blv_block (c : Dev nD) (t : Fin cfg2.N) (q : Fin 64) :
    (iblk2 V c 6 t : Vec Ideal S1x64 .f32) (ix2 (0 : Fin 1) q) = blv V c (ix2 (0 : Fin 1) q) := by
  obtain ⟨-, -, -, -, -, -, -, -, -, -, -, -, e0, e1, -⟩ := idx_facts t
  have hq := q.isLt
  show blv V c (((cfg2.win 6).blk t).view.emb (ix2 (0 : Fin 1) q)) = blv V c (ix2 (0 : Fin 1) q)
  refine congrArg (blv V c) (funext fun a => Fin.ext ?_)
  match a with
  | ⟨0, _⟩ => show win2_6.index t (0 : Fin 2) * 1 + 1 * 0 = 0; omega
  | ⟨1, _⟩ => show win2_6.index t (1 : Fin 2) * 64 + 1 * q.val = q.val; omega

/-- Row `p` of point `t`'s block of either head's array is row `2000·t + p` of that array. -/
theorem out_row (t : Fin cfg2.N) (p : Fin 2000) (q : Fin 64) :
    (ix2 (rowAt t p) q : S50000x64.Idx) = ((cfg2.win 14).blk t).view.emb (ix2 p q) := by
  obtain ⟨-, -, -, -, -, -, -, -, -, -, -, -, -, -, e0, e1, -⟩ := idx_facts t
  have ht := lt25 t; have hp := p.isLt; have hq := q.isLt
  funext a; apply Fin.ext
  match a with
  | ⟨0, _⟩ => show 2000 * t.val + p.val = win2_14.index t (0 : Fin 2) * 2000 + 1 * p.val; omega
  | ⟨1, _⟩ => show q.val = win2_14.index t (1 : Fin 2) * 64 + 1 * q.val; omega

/-- Point `t` writes back, to the mean head's array, the rows `2000·t … 2000·t + 1999` of the specification's head. -/
theorem mean_flushed (c : Dev nD) (t : Fin cfg2.N) :
    (dat2 (F := Ideal) V c).flushed 14 t
      = ((cfg2.win 14).blk t).view.read (Elt Ideal) (headArr (agg V c) (dcol V c) (brow V c) (wmu V c) (bmu V c)) := by
  show (cfg2.win 14).cut (grid2.coords t) ((dat2 V c).after 14 t) = _
  rw [after2_14]
  unfold out2_14
  rw [View.canon_unit_zero hz]
  simp only [View.ld_unit_zero (S := S2000x1) hz, View.ld_unit_zero (S := S2000x256) hz, View.ld_unit_zero (S := S1x256) hz,
    View.ld_unit_zero (S := S256x64) hz, View.ld_unit_zero (S := S1x64) hz]
  funext j
  obtain ⟨p, q, rfl⟩ : ∃ (p : Fin 2000) (q : Fin 64), j = ix2 p q := ⟨j 0, j 1, eq_ix2 j⟩
  refine (head_block_eq (iblk2 V c 0 t) (iblk2 V c 1 t) (iblk2 V c 2 t) (iblk2 V c 3 t) (iblk2 V c 4 t)
    (agg V c) (dcol V c) (brow V c) (wmu V c) (bmu V c) p q (rowAt t p)
    (fun k => agg_block V c t p k) (dcol_block V c t p) (fun k => brow_block V c t k)
    (fun k => wmu_block V c t k q) (bmu_block V c t q)).trans ?_
  exact congrArg (headArr (agg V c) (dcol V c) (brow V c) (wmu V c) (bmu V c)) (out_row t p q)

/-- Row `p` of point `t`'s block of the log-variance head's array is row `2000·t + p` of that array. -/
theorem out_row_lv (t : Fin cfg2.N) (p : Fin 2000) (q : Fin 64) :
    (ix2 (rowAt t p) q : S50000x64.Idx) = ((cfg2.win 15).blk t).view.emb (ix2 p q) := by
  obtain ⟨-, -, -, -, -, -, -, -, -, -, -, -, -, -, -, -, e0, e1⟩ := idx_facts t
  have ht := lt25 t; have hp := p.isLt; have hq := q.isLt
  funext a; apply Fin.ext
  match a with
  | ⟨0, _⟩ => show 2000 * t.val + p.val = win2_15.index t (0 : Fin 2) * 2000 + 1 * p.val; omega
  | ⟨1, _⟩ => show q.val = win2_15.index t (1 : Fin 2) * 64 + 1 * q.val; omega

/-- Point `t` writes back, to the log-variance head's array, the rows `2000·t … 2000·t + 1999` of the
    specification's head at that head's weights and bias. -/
theorem logvar_flushed (c : Dev nD) (t : Fin cfg2.N) :
    (dat2 (F := Ideal) V c).flushed 15 t
      = ((cfg2.win 15).blk t).view.read (Elt Ideal) (headArr (agg V c) (dcol V c) (brow V c) (wlv V c) (blv V c)) := by
  show (cfg2.win 15).cut (grid2.coords t) ((dat2 V c).after 15 t) = _
  rw [after2_15]
  unfold out2_15
  rw [View.canon_unit_zero hz]
  simp only [View.ld_unit_zero (S := S2000x1) hz, View.ld_unit_zero (S := S2000x256) hz, View.ld_unit_zero (S := S1x256) hz,
    View.ld_unit_zero (S := S256x64) hz, View.ld_unit_zero (S := S1x64) hz]
  rw [k2_pay6_eq]
  funext j
  obtain ⟨p, q, rfl⟩ : ∃ (p : Fin 2000) (q : Fin 64), j = ix2 p q := ⟨j 0, j 1, eq_ix2 j⟩
  refine (head_block_eq (iblk2 V c 0 t) (iblk2 V c 1 t) (iblk2 V c 2 t) (iblk2 V c 5 t) (iblk2 V c 6 t)
    (agg V c) (dcol V c) (brow V c) (wlv V c) (blv V c) p q (rowAt t p)
    (fun k => agg_block V c t p k) (dcol_block V c t p) (fun k => brow_block V c t k)
    (fun k => wlv_block V c t k q) (blv_block V c t q)).trans ?_
  exact congrArg (headArr (agg V c) (dcol V c) (brow V c) (wlv V c) (blv V c)) (out_row_lv t p q)

/-! ## From the blocks to the arrays -/

/-- An index of the mean head's array is in point `t`'s block iff each coordinate is in the block's range. -/
theorem mem_blk_mu (t : Fin cfg2.N) (i : S50000x64.Idx) :
    i ∈ ((cfg2.win 14).blk t).view.set ↔ ∀ a : Fin 2, win2_14.index t a * S2000x64.size a ≤ (i a).val ∧ (i a).val < win2_14.index t a * S2000x64.size a + S2000x64.size a := by
  show i ∈ ((View.whole main_v54_0).slice (win2_14.rect t)).set ↔ _
  rw [View.set_slice_whole, Rect.mem_set_unit]
  exact Iff.rfl

/-- The same for the log-variance head's array. -/
theorem mem_blk_lv (t : Fin cfg2.N) (i : S50000x64.Idx) :
    i ∈ ((cfg2.win 15).blk t).view.set ↔ ∀ a : Fin 2, win2_15.index t a * S2000x64.size a ≤ (i a).val ∧ (i a).val < win2_15.index t a * S2000x64.size a + S2000x64.size a := by
  show i ∈ ((View.whole main_v54_1).slice (win2_15.rect t)).set ↔ _
  rw [View.set_slice_whole, Rect.mem_set_unit]
  exact Iff.rfl

/-- The point whose blocks hold row `r`: `r / 2000`. -/
abbrev pointOf (r : Nat) (hr : r < 50000) : Fin cfg2.N := ⟨r / 2000, by show r / 2000 < 25; omega⟩

/-- Every index of the mean head's array is in the block of the point its row names. -/
theorem cover_mu (i : S50000x64.Idx) :
    ∃ t : Fin cfg2.N, (cfg2.win 14).flush t = true ∧ i ∈ ((cfg2.win 14).blk t).view.set := by
  have hi0 : (i 0).val < 50000 := (i 0).isLt
  have hi1 : (i 1).val < 64 := (i 1).isLt
  refine ⟨pointOf (i 0).val hi0, flush2_14 _, ?_⟩
  rw [mem_blk_mu]
  obtain ⟨-, -, -, -, -, -, -, -, -, -, -, -, -, -, e0, e1, -⟩ := idx_facts (pointOf (i 0).val hi0)
  have ev : (pointOf (i 0).val hi0).val = (i 0).val / 2000 := rfl
  intro a
  match a with
  | ⟨0, _⟩ =>
    show win2_14.index (pointOf (i 0).val hi0) (0 : Fin 2) * 2000 ≤ (i 0).val ∧ (i 0).val < win2_14.index (pointOf (i 0).val hi0) (0 : Fin 2) * 2000 + 2000
    omega
  | ⟨1, _⟩ =>
    show win2_14.index (pointOf (i 0).val hi0) (1 : Fin 2) * 64 ≤ (i 1).val ∧ (i 1).val < win2_14.index (pointOf (i 0).val hi0) (1 : Fin 2) * 64 + 64
    omega

/-- Every index of the log-variance head's array is in the block of the point its row names. -/
theorem cover_lv (i : S50000x64.Idx) :
    ∃ t : Fin cfg2.N, (cfg2.win 15).flush t = true ∧ i ∈ ((cfg2.win 15).blk t).view.set := by
  have hi0 : (i 0).val < 50000 := (i 0).isLt
  have hi1 : (i 1).val < 64 := (i 1).isLt
  refine ⟨pointOf (i 0).val hi0, flush2_15 _, ?_⟩
  rw [mem_blk_lv]
  obtain ⟨-, -, -, -, -, -, -, -, -, -, -, -, -, -, -, -, e0, e1⟩ := idx_facts (pointOf (i 0).val hi0)
  have ev : (pointOf (i 0).val hi0).val = (i 0).val / 2000 := rfl
  intro a
  match a with
  | ⟨0, _⟩ =>
    show win2_15.index (pointOf (i 0).val hi0) (0 : Fin 2) * 2000 ≤ (i 0).val ∧ (i 0).val < win2_15.index (pointOf (i 0).val hi0) (0 : Fin 2) * 2000 + 2000
    omega
  | ⟨1, _⟩ =>
    show win2_15.index (pointOf (i 0).val hi0) (1 : Fin 2) * 64 ≤ (i 1).val ∧ (i 1).val < win2_15.index (pointOf (i 0).val hi0) (1 : Fin 2) * 64 + 64
    omega

/-- After the region the mean head's array is the specification's head at the mean weights and bias. -/
theorem mean_final (c : Dev nD) :
    (dat2 (F := Ideal) V c).arrAt 14 cfg2.N = headArr (agg V c) (dcol V c) (brow V c) (wmu V c) (bmu V c) :=
  (dat2 (F := Ideal) V c).arrAt_eq_of_cover 14 (headArr (agg V c) (dcol V c) (brow V c) (wmu V c) (bmu V c))
    (fun t _ => mean_flushed V c t) cover_mu

/-- After the region the log-variance head's array is the specification's head at that head's weights and bias. -/
theorem logvar_final (c : Dev nD) :
    (dat2 (F := Ideal) V c).arrAt 15 cfg2.N = headArr (agg V c) (dcol V c) (brow V c) (wlv V c) (blv V c) :=
  (dat2 (F := Ideal) V c).arrAt_eq_of_cover 15 (headArr (agg V c) (dcol V c) (brow V c) (wlv V c) (blv V c))
    (fun t _ => logvar_flushed V c t) cover_lv

/-- THE MEAN HEAD, entry by entry. -/
theorem mean_value (c : Dev nD) (i : Fin 50000) (l : Fin 64) :
    (dat2 (F := Ideal) V c).arrAt 14 cfg2.N (ix2 i l)
      = Cert.Spec.head (agg V c) (dcol V c) (brow V c) (wmu V c) (bmu V c) i l :=
  congrFun (mean_final V c) (ix2 i l)

/-- THE LOG-VARIANCE HEAD, entry by entry. -/
theorem logvar_value (c : Dev nD) (i : Fin 50000) (l : Fin 64) :
    (dat2 (F := Ideal) V c).arrAt 15 cfg2.N (ix2 i l)
      = Cert.Spec.head (agg V c) (dcol V c) (brow V c) (wlv V c) (blv V c) i l :=
  congrFun (logvar_final V c) (ix2 i l)

end Cert.KernelIdeal.Stage2Heads

end
-- ==== Proof.Stage2DecodeValue.lean ====
/-
  The third stage's decoder outputs, entry by entry. Every grid point handles 2000 consecutive rows; on its rows the body
  computes, from the blocks of the stage's inputs, the latent (mean plus noise times the exponential of half the log-variance,
  each head a linear map of the positive part of the scaled aggregate plus bias), then the reconstruction (a hidden layer with
  positive part followed by a linear layer) and the scalar head (the logistic function of a linear form of the latent).
  Below: each contraction read as a sum over its one contracted coordinate; each payload read at a row and a column; each
  input block read as rows of its array; the block a point writes back as the restriction of ONE function of the whole
  arrays; the row blocks cover the array, so the array ends holding that function.
-/
import proofs.«403013_j32667521253538_2_alg».proof.Proof.KernelIdealFrameP
import proofs.«403013_j32667521253538_2_alg».proof.Proof.Spec
import proofs.«403013_j32667521253538_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Stage2Decode

open Cert.KernelIdeal Cert.KernelIdeal.Gen
open Idealize.ShloMosaic Idealize.ShloMosaic.TcCoe Idealize.ShloMosaic.ValueIdx Idealize.SL.Sem
open Idealize.ShloMosaic.Pipeline (Dat)

/-! ## The four contractions, each a sum over its one contracted coordinate -/

theorem lhsH_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhsH_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhsH_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhsH_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl
/-- A [2000, 256] by [256, 64] contraction into the zero accumulator, at row p and column q: the sum over the 256 contracted coordinates. -/
theorem mmH_apply (l : FVec Ideal S2000x256 .bf16) (r : FVec Ideal S256x64 .bf16) (p : Fin 2000) (q : Fin 64) :
    FloatOps.matmul dot_S2000x256_S256x64_S2000x64_1_0_0_1_n_n none l r (constant (F := Ideal) S2000x64 .f32 0x00000000#32) (ix2 p q)
      = ∑ k : Fin 256, l (ix2 p k) * r (ix2 k q) := by
  rw [Ideal.matmul_constant_zero_apply, ← Equiv.sum_comp (contrEquiv1 dot_S2000x256_S256x64_S2000x64_1_0_0_1_n_n 256 rfl rfl).symm]
  refine Finset.sum_congr rfl fun k _ => ?_
  have hk := contrEquiv1_symm_val dot_S2000x256_S256x64_S2000x64_1_0_0_1_n_n 256 rfl rfl k
  have el : dot_S2000x256_S256x64_S2000x64_1_0_0_1_n_n.lhsIdx (ix2 p q) ((contrEquiv1 dot_S2000x256_S256x64_S2000x64_1_0_0_1_n_n 256 rfl rfl).symm k) = ix2 p k := funext fun a => Fin.ext (by
    match a with
    | ⟨0, _⟩ => exact lhsH_0 _ _
    | ⟨1, _⟩ => exact (lhsH_1 _ _).trans hk)
  have er : dot_S2000x256_S256x64_S2000x64_1_0_0_1_n_n.rhsIdx (ix2 p q) ((contrEquiv1 dot_S2000x256_S256x64_S2000x64_1_0_0_1_n_n 256 rfl rfl).symm k) = ix2 k q := funext fun a => Fin.ext (by
    match a with
    | ⟨0, _⟩ => exact (rhsH_0 _ _).trans hk
    | ⟨1, _⟩ => exact rhsH_1 _ _)
  rw [el, er]

theorem lhsD1_0 (i : S2000x256.Idx) (q : dot_S2000x64_S64x256_S2000x256_1_0_0_1_n_n.contr.Idx) :
    (dot_S2000x64_S64x256_S2000x256_1_0_0_1_n_n.lhsIdx i q 0).val = (i 0).val := by
  unfold DotDims.lhsIdx
  rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
  rfl
theorem lhsD1_1 (i : S2000x256.Idx) (q : dot_S2000x64_S64x256_S2000x256_1_0_0_1_n_n.contr.Idx) :
    (dot_S2000x64_S64x256_S2000x256_1_0_0_1_n_n.lhsIdx i q 1).val = (q ⟨0, by decide⟩).val :=
  dot_S2000x64_S64x256_S2000x256_1_0_0_1_n_n.lhsIdx_val_of_single rfl i q
theorem rhsD1_0 (i : S2000x256.Idx) (q : dot_S2000x64_S64x256_S2000x256_1_0_0_1_n_n.contr.Idx) :
    (dot_S2000x64_S64x256_S2000x256_1_0_0_1_n_n.rhsIdx i q 0).val = (q ⟨0, by decide⟩).val :=
  dot_S2000x64_S64x256_S2000x256_1_0_0_1_n_n.rhsIdx_val_of_single rfl i q
theorem rhsD1_1 (i : S2000x256.Idx) (q : dot_S2000x64_S64x256_S2000x256_1_0_0_1_n_n.contr.Idx) :
    (dot_S2000x64_S64x256_S2000x256_1_0_0_1_n_n.rhsIdx i q 1).val = (i 1).val := by
  unfold DotDims.rhsIdx
  rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
  rfl
/-- A [2000, 64] by [64, 256] contraction into the zero accumulator, at row p and column q: the sum over the 64 contracted coordinates. -/
theorem mmD1_apply (l : FVec Ideal S2000x64 .bf16) (r : FVec Ideal S64x256 .bf16) (p : Fin 2000) (q : Fin 256) :
    FloatOps.matmul dot_S2000x64_S64x256_S2000x256_1_0_0_1_n_n none l r (constant (F := Ideal) S2000x256 .f32 0x00000000#32) (ix2 p q)
      = ∑ k : Fin 64, l (ix2 p k) * r (ix2 k q) := by
  rw [Ideal.matmul_constant_zero_apply, ← Equiv.sum_comp (contrEquiv1 dot_S2000x64_S64x256_S2000x256_1_0_0_1_n_n 64 rfl rfl).symm]
  refine Finset.sum_congr rfl fun k _ => ?_
  have hk := contrEquiv1_symm_val dot_S2000x64_S64x256_S2000x256_1_0_0_1_n_n 64 rfl rfl k
  have el : dot_S2000x64_S64x256_S2000x256_1_0_0_1_n_n.lhsIdx (ix2 p q) ((contrEquiv1 dot_S2000x64_S64x256_S2000x256_1_0_0_1_n_n 64 rfl rfl).symm k) = ix2 p k := funext fun a => Fin.ext (by
    match a with
    | ⟨0, _⟩ => exact lhsD1_0 _ _
    | ⟨1, _⟩ => exact (lhsD1_1 _ _).trans hk)
  have er : dot_S2000x64_S64x256_S2000x256_1_0_0_1_n_n.rhsIdx (ix2 p q) ((contrEquiv1 dot_S2000x64_S64x256_S2000x256_1_0_0_1_n_n 64 rfl rfl).symm k) = ix2 k q := funext fun a => Fin.ext (by
    match a with
    | ⟨0, _⟩ => exact (rhsD1_0 _ _).trans hk
    | ⟨1, _⟩ => exact rhsD1_1 _ _)
  rw [el, er]

theorem lhsD2_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhsD2_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhsD2_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhsD2_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl
/-- A [2000, 256] by [256, 128] contraction into the zero accumulator, at row p and column q: the sum over the 256 contracted coordinates. -/
theorem mmD2_apply (l : FVec Ideal S2000x256 .bf16) (r : FVec Ideal S256x128 .bf16) (p : Fin 2000) (q : Fin 128) :
    FloatOps.matmul dot_S2000x256_S256x128_S2000x128_1_0_0_1_n_n none l r (constant (F := Ideal) S2000x128 .f32 0x00000000#32) (ix2 p q)
      = ∑ k : Fin 256, l (ix2 p k) * r (ix2 k q) := by
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhsD2_0 _ _
    | ⟨1, _⟩ => exact (lhsD2_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhsD2_0 _ _).trans hk
    | ⟨1, _⟩ => exact rhsD2_1 _ _)
  rw [el, er]

theorem lhsC_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
theorem lhsC_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
theorem rhsC_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
theorem rhsC_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl
/-- A [2000, 64] by [64, 1] contraction into the zero accumulator, at row p and column q: the sum over the 64 contracted coordinates. -/
theorem mmC_apply (l : FVec Ideal S2000x64 .bf16) (r : FVec Ideal S64x1 .bf16) (p : Fin 2000) (q : Fin 1) :
    FloatOps.matmul dot_S2000x64_S64x1_S2000x1_1_0_0_1_n_n none l r (constant (F := Ideal) S2000x1 .f32 0x00000000#32) (ix2 p q)
      = ∑ k : Fin 64, l (ix2 p k) * r (ix2 k q) := by
  rw [Ideal.matmul_constant_zero_apply, ← Equiv.sum_comp (contrEquiv1 dot_S2000x64_S64x1_S2000x1_1_0_0_1_n_n 64 rfl rfl).symm]
  refine Finset.sum_congr rfl fun k _ => ?_
  have hk := contrEquiv1_symm_val dot_S2000x64_S64x1_S2000x1_1_0_0_1_n_n 64 rfl rfl k
  have el : dot_S2000x64_S64x1_S2000x1_1_0_0_1_n_n.lhsIdx (ix2 p q) ((contrEquiv1 dot_S2000x64_S64x1_S2000x1_1_0_0_1_n_n 64 rfl rfl).symm k) = ix2 p k := funext fun a => Fin.ext (by
    match a with
    | ⟨0, _⟩ => exact lhsC_0 _ _
    | ⟨1, _⟩ => exact (lhsC_1 _ _).trans hk)
  have er : dot_S2000x64_S64x1_S2000x1_1_0_0_1_n_n.rhsIdx (ix2 p q) ((contrEquiv1 dot_S2000x64_S64x1_S2000x1_1_0_0_1_n_n 64 rfl rfl).symm k) = ix2 k q := funext fun a => Fin.ext (by
    match a with
    | ⟨0, _⟩ => exact (rhsC_0 _ _).trans hk
    | ⟨1, _⟩ => exact rhsC_1 _ _)
  rw [el, er]

/-! ## A column broadcast over many columns -/

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at a row and a column -/

/-- The activation the heads start from: the scaled aggregate plus the bias row, positive part. -/
theorem pay4_apply (d : FVec Ideal S2000x1 .f32) (a : FVec Ideal S2000x256 .f32) (b : FVec Ideal S1x256 .f32)
    (p : Fin 2000) (k : Fin 256) :
    k2_pay4 (F := Ideal) d a b (ix2 p k) = Cert.Spec.act (d (ix2 p 0) * a (ix2 p k)) (b (ix2 0 k)) := by
  unfold k2_pay4
  simp only [shapeCast_self]
  rw [truncf_apply, maximumf_apply, addf_apply, mulf_apply, broadcast_apply, broadcastTo_a1_ab_apply,
    broadcastTo_1b_ab_apply]
  show max _ (Ideal.ofBits .f32 0x00000000#32) = _
  rw [Ideal.ofBits_zero_f32]
  rfl

/-- A head: the activation's row times a weight column, plus the head's bias. -/
theorem pay5_apply (d : FVec Ideal S2000x1 .f32) (a : FVec Ideal S2000x256 .f32) (b : FVec Ideal S1x256 .f32)
    (W : FVec Ideal S256x64 .bf16) (c : FVec Ideal S1x64 .f32) (p : Fin 2000) (l : Fin 64) :
    k2_pay5 (F := Ideal) d a b W c (ix2 p l)
      = (∑ k : Fin 256, k2_pay4 (F := Ideal) d a b (ix2 p k) * W (ix2 k l)) + c (ix2 0 l) := by
  unfold k2_pay5
  simp only [shapeCast_self]
  rw [addf_apply, broadcastTo_1b_ab_apply]
  exact congrArg (· + c (ix2 0 l)) (mmH_apply _ _ p l)

/-- The second head is the same function of its own weights and bias. -/
theorem pay6_apply (d : FVec Ideal S2000x1 .f32) (a : FVec Ideal S2000x256 .f32) (b : FVec Ideal S1x256 .f32)
    (W : FVec Ideal S256x64 .bf16) (c : FVec Ideal S1x64 .f32) (p : Fin 2000) (l : Fin 64) :
    k2_pay6 (F := Ideal) d a b W c (ix2 p l)
      = (∑ k : Fin 256, k2_pay4 (F := Ideal) d a b (ix2 p k) * W (ix2 k l)) + c (ix2 0 l) := by
  unfold k2_pay6
  simp only [shapeCast_self]
  rw [addf_apply, broadcastTo_1b_ab_apply]
  exact congrArg (· + c (ix2 0 l)) (mmH_apply _ _ p l)

/-- The latent: the first head plus the noise times the exponential of half the second head. -/
theorem pay7_apply (d : FVec Ideal S2000x1 .f32) (a : FVec Ideal S2000x256 .f32) (b : FVec Ideal S1x256 .f32)
    (Wm : FVec Ideal S256x64 .bf16) (cm : FVec Ideal S1x64 .f32) (Wl : FVec Ideal S256x64 .bf16) (cl : FVec Ideal S1x64 .f32)
    (e : FVec Ideal S2000x64 .f32) (p : Fin 2000) (l : Fin 64) :
    k2_pay7 (F := Ideal) d a b Wm cm Wl cl e (ix2 p l)
      = k2_pay5 (F := Ideal) d a b Wm cm (ix2 p l)
        + e (ix2 p l) * Ideal.exp (Cert.Spec.half * k2_pay6 (F := Ideal) d a b Wl cl (ix2 p l)) := by
  unfold k2_pay7
  rfl

/-- The reconstruction: a hidden layer with positive part, then a linear layer. -/
theorem pay2_apply (z : FVec Ideal S2000x64 .f32) (W3 : FVec Ideal S64x256 .bf16) (b3 : FVec Ideal S1x256 .f32)
    (W4 : FVec Ideal S256x128 .bf16) (b4 : FVec Ideal S1x128 .f32) (p : Fin 2000) (v : Fin 128) :
    k2_pay2 (F := Ideal) z W3 b3 W4 b4 (ix2 p v)
      = (∑ j : Fin 256, Cert.Spec.act (∑ l : Fin 64, z (ix2 p l) * W3 (ix2 l j)) (b3 (ix2 0 j)) * W4 (ix2 j v))
        + b4 (ix2 0 v) := by
  unfold k2_pay2
  simp only [shapeCast_self]
  rw [addf_apply, broadcastTo_1b_ab_apply]
  refine congrArg (· + b4 (ix2 0 v)) ?_
  refine (mmD2_apply _ _ p v).trans ?_
  refine Finset.sum_congr rfl fun j _ => ?_
  refine congrArg (· * W4 (ix2 j v)) ?_
  rw [truncf_apply, maximumf_apply, addf_apply, broadcast_apply, broadcastTo_1b_ab_apply]
  show max (_ + _) (Ideal.ofBits .f32 0x00000000#32) = _
  rw [Ideal.ofBits_zero_f32]
  exact congrArg (fun s => max (s + b3 (ix2 0 j)) 0) ((mmD1_apply _ _ p j).trans (Finset.sum_congr rfl fun l _ => rfl))

/-- The scalar head: the logistic function of a linear form of the latent. -/
theorem pay3_apply (z : FVec Ideal S2000x64 .f32) (Wc : FVec Ideal S64x1 .bf16) (bc : FVec Ideal S1x1 .f32) (p : Fin 2000) :
    k2_pay3 (F := Ideal) z Wc bc (ix2 p (0 : Fin 1))
      = Ideal.logistic ((∑ l : Fin 64, z (ix2 p l) * Wc (ix2 l (0 : Fin 1))) + bc (ix2 (0 : Fin 1) (0 : Fin 1))) := by
  unfold k2_pay3
  simp only [shapeCast_self]
  show Ideal.logistic _ = _
  rw [addf_apply, broadcastTo_1b_ab_apply]
  exact congrArg (fun s => Ideal.logistic (s + bc (ix2 (0 : Fin 1) (0 : Fin 1))))
    ((mmC_apply _ _ p (0 : Fin 1)).trans (Finset.sum_congr rfl fun l _ => rfl))

/-! ## The stage's arrays and the blocks a grid point reads -/

section Stage
variable (V : (c : Dev nD) → (b : Ref sig .tc) → Buf (Elt Ideal) ((c : Thread nD τ).loc b))

/-- The aggregate, the scaling column, the bias row, the two heads' weights and biases, the noise, the decoder's
    weights and biases, the scalar head's weight column and bias: the stage's input arrays as the region finds them. -/
abbrev agg (c : Dev nD) : Cert.Spec.RArr 50000 256 := V c (Pipeline.arrRef spec2 0)
abbrev dcol (c : Dev nD) : Cert.Spec.RArr 50000 1 := V c (Pipeline.arrRef spec2 1)
abbrev brow (c : Dev nD) : Cert.Spec.RArr 1 256 := V c (Pipeline.arrRef spec2 2)
abbrev wmu (c : Dev nD) : Cert.Spec.RArr 256 64 := V c (Pipeline.arrRef spec2 3)
abbrev bmu (c : Dev nD) : Cert.Spec.RArr 1 64 := V c (Pipeline.arrRef spec2 4)
abbrev wlv (c : Dev nD) : Cert.Spec.RArr 256 64 := V c (Pipeline.arrRef spec2 5)
abbrev blv (c : Dev nD) : Cert.Spec.RArr 1 64 := V c (Pipeline.arrRef spec2 6)
abbrev noise (c : Dev nD) : Cert.Spec.RArr 50000 64 := V c (Pipeline.arrRef spec2 7)
abbrev w3 (c : Dev nD) : Cert.Spec.RArr 64 256 := V c (Pipeline.arrRef spec2 8)
abbrev b3 (c : Dev nD) : Cert.Spec.RArr 1 256 := V c (Pipeline.arrRef spec2 9)
abbrev w4 (c : Dev nD) : Cert.Spec.RArr 256 128 := V c (Pipeline.arrRef spec2 10)
abbrev b4 (c : Dev nD) : Cert.Spec.RArr 1 128 := V c (Pipeline.arrRef spec2 11)
abbrev wc (c : Dev nD) : Cert.Spec.RArr 64 1 := V c (Pipeline.arrRef spec2 12)
abbrev bc (c : Dev nD) : Cert.Spec.RArr 1 1 := V c (Pipeline.arrRef spec2 13)
/-- the latent of the stage's inputs -/
abbrev zed (c : Dev nD) : Fin 50000 → Fin 64 → EReal :=
  Cert.Spec.latent (Cert.Spec.head (agg V c) (dcol V c) (brow V c) (wmu V c) (bmu V c))
    (Cert.Spec.head (agg V c) (dcol V c) (brow V c) (wlv V c) (blv V c)) (noise V c)

/-- Each input window's block at a grid point, at its literal type. -/
abbrev aggBlk (c : Dev nD) (t : Fin cfg2.N) : FVec Ideal S2000x256 .f32 := iblk2 V c 0 t
abbrev dBlk (c : Dev nD) (t : Fin cfg2.N) : FVec Ideal S2000x1 .f32 := iblk2 V c 1 t
abbrev bBlk (c : Dev nD) (t : Fin cfg2.N) : FVec Ideal S1x256 .f32 := iblk2 V c 2 t
abbrev wmuBlk (c : Dev nD) (t : Fin cfg2.N) : FVec Ideal S256x64 .bf16 := iblk2 V c 3 t
abbrev bmuBlk (c : Dev nD) (t : Fin cfg2.N) : FVec Ideal S1x64 .f32 := iblk2 V c 4 t
abbrev wlvBlk (c : Dev nD) (t : Fin cfg2.N) : FVec Ideal S256x64 .bf16 := iblk2 V c 5 t
abbrev blvBlk (c : Dev nD) (t : Fin cfg2.N) : FVec Ideal S1x64 .f32 := iblk2 V c 6 t
abbrev epsBlk (c : Dev nD) (t : Fin cfg2.N) : FVec Ideal S2000x64 .f32 := iblk2 V c 7 t
abbrev w3Blk (c : Dev nD) (t : Fin cfg2.N) : FVec Ideal S64x256 .bf16 := iblk2 V c 8 t
abbrev b3Blk (c : Dev nD) (t : Fin cfg2.N) : FVec Ideal S1x256 .f32 := iblk2 V c 9 t
abbrev w4Blk (c : Dev nD) (t : Fin cfg2.N) : FVec Ideal S256x128 .bf16 := iblk2 V c 10 t
abbrev b4Blk (c : Dev nD) (t : Fin cfg2.N) : FVec Ideal S1x128 .f32 := iblk2 V c 11 t
abbrev wcBlk (c : Dev nD) (t : Fin cfg2.N) : FVec Ideal S64x1 .bf16 := iblk2 V c 12 t
abbrev bcBlk (c : Dev nD) (t : Fin cfg2.N) : FVec Ideal S1x1 .f32 := iblk2 V c 13 t

theorem hz : (![0, 0] : Fin 2 → Nat) = fun _ => 0 := funext fun a => by fin_cases a <;> rfl

/-! ## The index maps: a row-tiled window's block index is the point on the rows and zero on the columns; a whole-array
    window's is zero on both axes -/
theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N, win2_2.index t (0 : Fin 2) = 0 ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = t.val ∧ win2_7.index t (1 : Fin 2) = 0 :=
  (by decide +kernel : ∀ t : Fin grid2.N, _)
theorem idx_8 : ∀ t : Fin cfg2.N, win2_8.index t (0 : Fin 2) = 0 ∧ win2_8.index t (1 : Fin 2) = 0 :=
  (by decide +kernel : ∀ t : Fin grid2.N, _)
theorem idx_9 : ∀ t : Fin cfg2.N, win2_9.index t (0 : Fin 2) = 0 ∧ win2_9.index t (1 : Fin 2) = 0 :=
  (by decide +kernel : ∀ t : Fin grid2.N, _)
theorem idx_10 : ∀ t : Fin cfg2.N, win2_10.index t (0 : Fin 2) = 0 ∧ win2_10.index t (1 : Fin 2) = 0 :=
  (by decide +kernel : ∀ t : Fin grid2.N, _)
theorem idx_11 : ∀ t : Fin cfg2.N, win2_11.index t (0 : Fin 2) = 0 ∧ win2_11.index t (1 : Fin 2) = 0 :=
  (by decide +kernel : ∀ t : Fin grid2.N, _)
theorem idx_12 : ∀ t : Fin cfg2.N, win2_12.index t (0 : Fin 2) = 0 ∧ win2_12.index t (1 : Fin 2) = 0 :=
  (by decide +kernel : ∀ t : Fin grid2.N, _)
theorem idx_13 : ∀ t : Fin cfg2.N, win2_13.index t (0 : Fin 2) = 0 ∧ win2_13.index t (1 : Fin 2) = 0 :=
  (by decide +kernel : ∀ t : Fin grid2.N, _)
theorem idx_16 : ∀ t : Fin cfg2.N, win2_16.index t (0 : Fin 2) = t.val ∧ win2_16.index t (1 : Fin 2) = 0 :=
  (by decide +kernel : ∀ t : Fin grid2.N, _)
theorem idx_17 : ∀ t : Fin cfg2.N, win2_17.index t (0 : Fin 2) = t.val ∧ win2_17.index t (1 : Fin 2) = 0 :=
  (by decide +kernel : ∀ t : Fin grid2.N, _)

/-! ## The blocks read as rows of their arrays -/

theorem aggBlk_apply (c : Dev nD) (t : Fin cfg2.N) (p : Fin 2000) (k : Fin 256) (r : Fin 50000)
    (hr : r.val = t.val * 2000 + p.val) : aggBlk V c t (ix2 p k) = agg V c (ix2 r k) := by
  obtain ⟨e0, e1⟩ := idx_0 t
  show iblk2 V c 0 t (ix2 p k) = _
  unfold iblk2
  rw [View.read_apply]
  show V c (Pipeline.arrRef spec2 0) _ = V c (Pipeline.arrRef spec2 0) (ix2 r k)
  refine congrArg _ (funext fun a => Fin.ext ?_)
  match a with
  | ⟨0, _⟩ => show win2_0.index t (0 : Fin 2) * 2000 + 1 * p.val = r.val; rw [e0, hr]; omega
  | ⟨1, _⟩ => show win2_0.index t (1 : Fin 2) * 256 + 1 * k.val = k.val; rw [e1]; omega

theorem dBlk_apply (c : Dev nD) (t : Fin cfg2.N) (p : Fin 2000) (k : Fin 1) (r : Fin 50000)
    (hr : r.val = t.val * 2000 + p.val) : dBlk V c t (ix2 p k) = dcol V c (ix2 r k) := by
  obtain ⟨e0, e1⟩ := idx_1 t
  show iblk2 V c 1 t (ix2 p k) = _
  unfold iblk2
  rw [View.read_apply]
  show V c (Pipeline.arrRef spec2 1) _ = V c (Pipeline.arrRef spec2 1) (ix2 r k)
  refine congrArg _ (funext fun a => Fin.ext ?_)
  match a with
  | ⟨0, _⟩ => show win2_1.index t (0 : Fin 2) * 2000 + 1 * p.val = r.val; rw [e0, hr]; omega
  | ⟨1, _⟩ => show win2_1.index t (1 : Fin 2) * 1 + 1 * k.val = k.val; rw [e1]; omega

theorem bBlk_eq (c : Dev nD) (t : Fin cfg2.N) : bBlk V c t = brow V c := by
  obtain ⟨e0, e1⟩ := idx_2 t
  funext y
  show iblk2 V c 2 t y = _
  unfold iblk2
  rw [View.read_apply]
  show V c (Pipeline.arrRef spec2 2) _ = V c (Pipeline.arrRef spec2 2) y
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

theorem wmuBlk_eq (c : Dev nD) (t : Fin cfg2.N) : wmuBlk V c t = wmu V c := by
  obtain ⟨e0, e1⟩ := idx_3 t
  funext y
  show iblk2 V c 3 t y = _
  unfold iblk2
  rw [View.read_apply]
  show V c (Pipeline.arrRef spec2 3) _ = V c (Pipeline.arrRef spec2 3) y
  refine congrArg _ (funext fun a => Fin.ext ?_)
  match a with
  | ⟨0, _⟩ => show win2_3.index t (0 : Fin 2) * 256 + 1 * (y 0).val = (y 0).val; rw [e0]; omega
  | ⟨1, _⟩ => show win2_3.index t (1 : Fin 2) * 64 + 1 * (y 1).val = (y 1).val; rw [e1]; omega

theorem bmuBlk_eq (c : Dev nD) (t : Fin cfg2.N) : bmuBlk V c t = bmu V c := by
  obtain ⟨e0, e1⟩ := idx_4 t
  funext y
  show iblk2 V c 4 t y = _
  unfold iblk2
  rw [View.read_apply]
  show V c (Pipeline.arrRef spec2 4) _ = V c (Pipeline.arrRef spec2 4) y
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

theorem wlvBlk_eq (c : Dev nD) (t : Fin cfg2.N) : wlvBlk V c t = wlv V c := by
  obtain ⟨e0, e1⟩ := idx_5 t
  funext y
  show iblk2 V c 5 t y = _
  unfold iblk2
  rw [View.read_apply]
  show V c (Pipeline.arrRef spec2 5) _ = V c (Pipeline.arrRef spec2 5) y
  refine congrArg _ (funext fun a => Fin.ext ?_)
  match a with
  | ⟨0, _⟩ => show win2_5.index t (0 : Fin 2) * 256 + 1 * (y 0).val = (y 0).val; rw [e0]; omega
  | ⟨1, _⟩ => show win2_5.index t (1 : Fin 2) * 64 + 1 * (y 1).val = (y 1).val; rw [e1]; omega

theorem blvBlk_eq (c : Dev nD) (t : Fin cfg2.N) : blvBlk V c t = blv V c := by
  obtain ⟨e0, e1⟩ := idx_6 t
  funext y
  show iblk2 V c 6 t y = _
  unfold iblk2
  rw [View.read_apply]
  show V c (Pipeline.arrRef spec2 6) _ = V c (Pipeline.arrRef spec2 6) y
  refine congrArg _ (funext fun a => Fin.ext ?_)
  match a with
  | ⟨0, _⟩ => show win2_6.index t (0 : Fin 2) * 1 + 1 * (y 0).val = (y 0).val; rw [e0]; omega
  | ⟨1, _⟩ => show win2_6.index t (1 : Fin 2) * 64 + 1 * (y 1).val = (y 1).val; rw [e1]; omega

theorem epsBlk_apply (c : Dev nD) (t : Fin cfg2.N) (p : Fin 2000) (k : Fin 64) (r : Fin 50000)
    (hr : r.val = t.val * 2000 + p.val) : epsBlk V c t (ix2 p k) = noise V c (ix2 r k) := by
  obtain ⟨e0, e1⟩ := idx_7 t
  show iblk2 V c 7 t (ix2 p k) = _
  unfold iblk2
  rw [View.read_apply]
  show V c (Pipeline.arrRef spec2 7) _ = V c (Pipeline.arrRef spec2 7) (ix2 r k)
  refine congrArg _ (funext fun a => Fin.ext ?_)
  match a with
  | ⟨0, _⟩ => show win2_7.index t (0 : Fin 2) * 2000 + 1 * p.val = r.val; rw [e0, hr]; omega
  | ⟨1, _⟩ => show win2_7.index t (1 : Fin 2) * 64 + 1 * k.val = k.val; rw [e1]; omega

theorem w3Blk_eq (c : Dev nD) (t : Fin cfg2.N) : w3Blk V c t = w3 V c := by
  obtain ⟨e0, e1⟩ := idx_8 t
  funext y
  show iblk2 V c 8 t y = _
  unfold iblk2
  rw [View.read_apply]
  show V c (Pipeline.arrRef spec2 8) _ = V c (Pipeline.arrRef spec2 8) y
  refine congrArg _ (funext fun a => Fin.ext ?_)
  match a with
  | ⟨0, _⟩ => show win2_8.index t (0 : Fin 2) * 64 + 1 * (y 0).val = (y 0).val; rw [e0]; omega
  | ⟨1, _⟩ => show win2_8.index t (1 : Fin 2) * 256 + 1 * (y 1).val = (y 1).val; rw [e1]; omega

theorem b3Blk_eq (c : Dev nD) (t : Fin cfg2.N) : b3Blk V c t = b3 V c := by
  obtain ⟨e0, e1⟩ := idx_9 t
  funext y
  show iblk2 V c 9 t y = _
  unfold iblk2
  rw [View.read_apply]
  show V c (Pipeline.arrRef spec2 9) _ = V c (Pipeline.arrRef spec2 9) y
  refine congrArg _ (funext fun a => Fin.ext ?_)
  match a with
  | ⟨0, _⟩ => show win2_9.index t (0 : Fin 2) * 1 + 1 * (y 0).val = (y 0).val; rw [e0]; omega
  | ⟨1, _⟩ => show win2_9.index t (1 : Fin 2) * 256 + 1 * (y 1).val = (y 1).val; rw [e1]; omega

theorem w4Blk_eq (c : Dev nD) (t : Fin cfg2.N) : w4Blk V c t = w4 V c := by
  obtain ⟨e0, e1⟩ := idx_10 t
  funext y
  show iblk2 V c 10 t y = _
  unfold iblk2
  rw [View.read_apply]
  show V c (Pipeline.arrRef spec2 10) _ = V c (Pipeline.arrRef spec2 10) y
  refine congrArg _ (funext fun a => Fin.ext ?_)
  match a with
  | ⟨0, _⟩ => show win2_10.index t (0 : Fin 2) * 256 + 1 * (y 0).val = (y 0).val; rw [e0]; omega
  | ⟨1, _⟩ => show win2_10.index t (1 : Fin 2) * 128 + 1 * (y 1).val = (y 1).val; rw [e1]; omega

theorem b4Blk_eq (c : Dev nD) (t : Fin cfg2.N) : b4Blk V c t = b4 V c := by
  obtain ⟨e0, e1⟩ := idx_11 t
  funext y
  show iblk2 V c 11 t y = _
  unfold iblk2
  rw [View.read_apply]
  show V c (Pipeline.arrRef spec2 11) _ = V c (Pipeline.arrRef spec2 11) y
  refine congrArg _ (funext fun a => Fin.ext ?_)
  match a with
  | ⟨0, _⟩ => show win2_11.index t (0 : Fin 2) * 1 + 1 * (y 0).val = (y 0).val; rw [e0]; omega
  | ⟨1, _⟩ => show win2_11.index t (1 : Fin 2) * 128 + 1 * (y 1).val = (y 1).val; rw [e1]; omega

theorem wcBlk_eq (c : Dev nD) (t : Fin cfg2.N) : wcBlk V c t = wc V c := by
  obtain ⟨e0, e1⟩ := idx_12 t
  funext y
  show iblk2 V c 12 t y = _
  unfold iblk2
  rw [View.read_apply]
  show V c (Pipeline.arrRef spec2 12) _ = V c (Pipeline.arrRef spec2 12) y
  refine congrArg _ (funext fun a => Fin.ext ?_)
  match a with
  | ⟨0, _⟩ => show win2_12.index t (0 : Fin 2) * 64 + 1 * (y 0).val = (y 0).val; rw [e0]; omega
  | ⟨1, _⟩ => show win2_12.index t (1 : Fin 2) * 1 + 1 * (y 1).val = (y 1).val; rw [e1]; omega

theorem bcBlk_eq (c : Dev nD) (t : Fin cfg2.N) : bcBlk V c t = bc V c := by
  obtain ⟨e0, e1⟩ := idx_13 t
  funext y
  show iblk2 V c 13 t y = _
  unfold iblk2
  rw [View.read_apply]
  show V c (Pipeline.arrRef spec2 13) _ = V c (Pipeline.arrRef spec2 13) y
  refine congrArg _ (funext fun a => Fin.ext ?_)
  match a with
  | ⟨0, _⟩ => show win2_13.index t (0 : Fin 2) * 1 + 1 * (y 0).val = (y 0).val; rw [e0]; omega
  | ⟨1, _⟩ => show win2_13.index t (1 : Fin 2) * 1 + 1 * (y 1).val = (y 1).val; rw [e1]; omega

/-! ## A row of the blocks against the specification -/

/-- On a block's row that is row r of the arrays, the activation is the specification's. -/
theorem hidden_row (d : FVec Ideal S2000x1 .f32) (a : FVec Ideal S2000x256 .f32) (b : FVec Ideal S1x256 .f32)
    (A : Cert.Spec.RArr 50000 256) (D : Cert.Spec.RArr 50000 1) (r : Fin 50000) (p : Fin 2000)
    (ha : ∀ k : Fin 256, a (ix2 p k) = A (ix2 r k)) (hd : d (ix2 p 0) = D (ix2 r 0)) (k : Fin 256) :
    k2_pay4 (F := Ideal) d a b (ix2 p k) = Cert.Spec.hidden A D b r k := by
  rw [pay4_apply, ha, hd]; rfl

/-- So is the first head, -/
theorem head_row (d : FVec Ideal S2000x1 .f32) (a : FVec Ideal S2000x256 .f32) (b : FVec Ideal S1x256 .f32)
    (W : FVec Ideal S256x64 .bf16) (cc : FVec Ideal S1x64 .f32)
    (A : Cert.Spec.RArr 50000 256) (D : Cert.Spec.RArr 50000 1) (r : Fin 50000) (p : Fin 2000)
    (ha : ∀ k : Fin 256, a (ix2 p k) = A (ix2 r k)) (hd : d (ix2 p 0) = D (ix2 r 0)) (l : Fin 64) :
    k2_pay5 (F := Ideal) d a b W cc (ix2 p l) = Cert.Spec.head A D b W cc r l := by
  rw [pay5_apply]
  exact congrArg (· + cc (ix2 0 l))
    (Finset.sum_congr rfl fun k _ => congrArg (· * W (ix2 k l)) (hidden_row d a b A D r p ha hd k))

/-- and the second. -/
theorem head2_row (d : FVec Ideal S2000x1 .f32) (a : FVec Ideal S2000x256 .f32) (b : FVec Ideal S1x256 .f32)
    (W : FVec Ideal S256x64 .bf16) (cc : FVec Ideal S1x64 .f32)
    (A : Cert.Spec.RArr 50000 256) (D : Cert.Spec.RArr 50000 1) (r : Fin 50000) (p : Fin 2000)
    (ha : ∀ k : Fin 256, a (ix2 p k) = A (ix2 r k)) (hd : d (ix2 p 0) = D (ix2 r 0)) (l : Fin 64) :
    k2_pay6 (F := Ideal) d a b W cc (ix2 p l) = Cert.Spec.head A D b W cc r l := by
  rw [pay6_apply]
  exact congrArg (· + cc (ix2 0 l))
    (Finset.sum_congr rfl fun k _ => congrArg (· * W (ix2 k l)) (hidden_row d a b A D r p ha hd k))

/-- The latent on that row is the specification's latent of the arrays. -/
theorem latent_row (d : FVec Ideal S2000x1 .f32) (a : FVec Ideal S2000x256 .f32) (b : FVec Ideal S1x256 .f32)
    (Wm : FVec Ideal S256x64 .bf16) (cm : FVec Ideal S1x64 .f32) (Wl : FVec Ideal S256x64 .bf16) (cl : FVec Ideal S1x64 .f32)
    (e : FVec Ideal S2000x64 .f32)
    (A : Cert.Spec.RArr 50000 256) (D : Cert.Spec.RArr 50000 1) (E : Cert.Spec.RArr 50000 64) (r : Fin 50000) (p : Fin 2000)
    (ha : ∀ k : Fin 256, a (ix2 p k) = A (ix2 r k)) (hd : d (ix2 p 0) = D (ix2 r 0))
    (he : ∀ l : Fin 64, e (ix2 p l) = E (ix2 r l)) (l : Fin 64) :
    k2_pay7 (F := Ideal) d a b Wm cm Wl cl e (ix2 p l)
      = Cert.Spec.latent (Cert.Spec.head A D b Wm cm) (Cert.Spec.head A D b Wl cl) E r l := by
  rw [pay7_apply, head_row d a b Wm cm A D r p ha hd l, head2_row d a b Wl cl A D r p ha hd l, he l]
  rfl

/-- The reconstruction of a block's row whose latent is row r of Z. -/
theorem recon_row (z : FVec Ideal S2000x64 .f32) (Z : Fin 50000 → Fin 64 → EReal) (W3 : FVec Ideal S64x256 .bf16)
    (b3 : FVec Ideal S1x256 .f32) (W4 : FVec Ideal S256x128 .bf16) (b4 : FVec Ideal S1x128 .f32) (r : Fin 50000) (p : Fin 2000)
    (hZ : ∀ l : Fin 64, z (ix2 p l) = Z r l) (v : Fin 128) :
    k2_pay2 (F := Ideal) z W3 b3 W4 b4 (ix2 p v) = Cert.Spec.recon Z W3 b3 W4 b4 r v := by
  rw [pay2_apply]
  unfold Cert.Spec.recon
  simp only [hZ]

/-- The scalar head of a block's row whose latent is row r of Z. -/
theorem cap_row (z : FVec Ideal S2000x64 .f32) (Z : Fin 50000 → Fin 64 → EReal) (Wc : FVec Ideal S64x1 .bf16)
    (bcc : FVec Ideal S1x1 .f32) (r : Fin 50000) (p : Fin 2000) (hZ : ∀ l : Fin 64, z (ix2 p l) = Z r l) :
    k2_pay3 (F := Ideal) z Wc bcc (ix2 p (0 : Fin 1)) = Cert.Spec.capHead Z Wc bcc r := by
  rw [pay3_apply]
  unfold Cert.Spec.capHead
  simp only [hZ]

/-! ## What a point writes back -/

/-- The array row that row p of point t's blocks is. -/
abbrev rowAt (t : Fin cfg2.N) (p : Fin 2000) : Fin 50000 :=
  ⟨t.val * 2000 + p.val, by have ht : t.val < 25 := lt_of_lt_of_eq t.isLt N_2; have := p.isLt; omega⟩

/-- The latent on row p of point t's blocks is row rowAt t p of the latent of the arrays. -/
theorem latent_point (c : Dev nD) (t : Fin cfg2.N) (p : Fin 2000) (l : Fin 64) :
    k2_pay7 (F := Ideal) (dBlk V c t) (aggBlk V c t) (bBlk V c t) (wmuBlk V c t) (bmuBlk V c t) (wlvBlk V c t)
        (blvBlk V c t) (epsBlk V c t) (ix2 p l) = zed V c (rowAt t p) l := by
  rw [bBlk_eq, wmuBlk_eq, bmuBlk_eq, wlvBlk_eq, blvBlk_eq]
  exact latent_row (dBlk V c t) (aggBlk V c t) (brow V c) (wmu V c) (bmu V c) (wlv V c) (blv V c) (epsBlk V c t)
    (agg V c) (dcol V c) (noise V c) (rowAt t p) p (fun k => aggBlk_apply V c t p k (rowAt t p) rfl)
    (dBlk_apply V c t p 0 (rowAt t p) rfl) (fun l => epsBlk_apply V c t p l (rowAt t p) rfl) l

/-- What the reconstruction array ends holding, as one function of the stage's arrays. -/
abbrev reconArr (c : Dev nD) : Cert.Spec.RArr 50000 128 := fun j =>
  Cert.Spec.recon (zed V c) (w3 V c) (b3 V c) (w4 V c) (b4 V c) (j 0) (j 1)

/-- What the scalar head's array ends holding. -/
abbrev capArr (c : Dev nD) : Cert.Spec.RArr 50000 1 := fun j =>
  Cert.Spec.capHead (zed V c) (wc V c) (bc V c) (j 0)

/-- The reconstruction's payload at an index of point t's block is reconArr at that index's place in the array. -/
theorem recon_point (c : Dev nD) (t : Fin cfg2.N) (y : S2000x128.Idx) :
    k2_pay2 (F := Ideal) (k2_pay7 (F := Ideal) (dBlk V c t) (aggBlk V c t) (bBlk V c t) (wmuBlk V c t) (bmuBlk V c t)
        (wlvBlk V c t) (blvBlk V c t) (epsBlk V c t)) (w3Blk V c t) (b3Blk V c t) (w4Blk V c t) (b4Blk V c t) y
      = reconArr V c (((cfg2.win 16).blk t).view.emb y) := by
  obtain ⟨p, q, rfl⟩ : ∃ (p : Fin 2000) (q : Fin 128), y = ix2 p q := ⟨y 0, y 1, eq_ix2 y⟩
  obtain ⟨e0, e1⟩ := idx_16 t
  have hemb : ((cfg2.win 16).blk t).view.emb (ix2 p q) = ix2 (rowAt t p) q := by
    funext a; apply Fin.ext
    match a with
    | ⟨0, _⟩ => show win2_16.index t (0 : Fin 2) * 2000 + 1 * p.val = t.val * 2000 + p.val; rw [e0]; omega
    | ⟨1, _⟩ => show win2_16.index t (1 : Fin 2) * 128 + 1 * q.val = q.val; rw [e1]; omega
  rw [hemb, w3Blk_eq, b3Blk_eq, w4Blk_eq, b4Blk_eq]
  exact recon_row _ (zed V c) (w3 V c) (b3 V c) (w4 V c) (b4 V c) (rowAt t p) p (fun l => latent_point V c t p l) q

/-- The scalar head's payload likewise. -/
theorem cap_point (c : Dev nD) (t : Fin cfg2.N) (y : S2000x1.Idx) :
    k2_pay3 (F := Ideal) (k2_pay7 (F := Ideal) (dBlk V c t) (aggBlk V c t) (bBlk V c t) (wmuBlk V c t) (bmuBlk V c t)
        (wlvBlk V c t) (blvBlk V c t) (epsBlk V c t)) (wcBlk V c t) (bcBlk V c t) y
      = capArr V c (((cfg2.win 17).blk t).view.emb y) := by
  obtain ⟨p, q, rfl⟩ : ∃ (p : Fin 2000) (q : Fin 1), y = ix2 p q := ⟨y 0, y 1, eq_ix2 y⟩
  obtain rfl : q = 0 := Subsingleton.elim _ _
  obtain ⟨e0, e1⟩ := idx_17 t
  have hemb : ((cfg2.win 17).blk t).view.emb (ix2 p (0 : Fin 1)) = ix2 (rowAt t p) (0 : Fin 1) := by
    funext a; apply Fin.ext
    match a with
    | ⟨0, _⟩ => show win2_17.index t (0 : Fin 2) * 2000 + 1 * p.val = t.val * 2000 + p.val; rw [e0]; omega
    | ⟨1, _⟩ => show win2_17.index t (1 : Fin 2) * 1 + 1 * 0 = 0; rw [e1]
  rw [hemb, wcBlk_eq, bcBlk_eq]
  exact cap_row _ (zed V c) (wc V c) (bc V c) (rowAt t p) p (fun l => latent_point V c t p l)

/-- WHAT POINT t WRITES BACK to the reconstruction array is block t of reconArr. -/
theorem recon_flushed (c : Dev nD) (t : Fin cfg2.N) :
    (dat2 (F := Ideal) V c).flushed 16 t = ((cfg2.win 16).blk t).view.read (Elt Ideal) (reconArr V c) := by
  show (cfg2.win 16).cut (grid2.coords t) ((dat2 V c).after 16 t) = _
  rw [after2_16]
  unfold out2_16
  rw [View.canon_unit_zero hz]
  simp only [View.ld_unit_zero (S := S2000x1) hz, View.ld_unit_zero (S := S2000x256) hz, View.ld_unit_zero (S := S1x256) hz, View.ld_unit_zero (S := S256x64) hz, View.ld_unit_zero (S := S1x64) hz, View.ld_unit_zero (S := S2000x64) hz, View.ld_unit_zero (S := S64x256) hz, View.ld_unit_zero (S := S256x128) hz, View.ld_unit_zero (S := S1x128) hz, View.ld_unit_zero (S := S64x1) hz, View.ld_unit_zero (S := S1x1) hz, View.ld_unit_zero (S := S2000x128) hz]
  funext y
  exact recon_point V c t y

/-- WHAT POINT t WRITES BACK to the scalar head's array is block t of capArr. -/
theorem cap_flushed (c : Dev nD) (t : Fin cfg2.N) :
    (dat2 (F := Ideal) V c).flushed 17 t = ((cfg2.win 17).blk t).view.read (Elt Ideal) (capArr V c) := by
  show (cfg2.win 17).cut (grid2.coords t) ((dat2 V c).after 17 t) = _
  rw [after2_17]
  unfold out2_17
  rw [View.canon_unit_zero hz]
  simp only [View.ld_unit_zero (S := S2000x1) hz, View.ld_unit_zero (S := S2000x256) hz, View.ld_unit_zero (S := S1x256) hz, View.ld_unit_zero (S := S256x64) hz, View.ld_unit_zero (S := S1x64) hz, View.ld_unit_zero (S := S2000x64) hz, View.ld_unit_zero (S := S64x256) hz, View.ld_unit_zero (S := S256x128) hz, View.ld_unit_zero (S := S1x128) hz, View.ld_unit_zero (S := S64x1) hz, View.ld_unit_zero (S := S1x1) hz, View.ld_unit_zero (S := S2000x128) hz]
  funext y
  exact cap_point V c t y

/-! ## The row blocks cover the arrays -/

/-- An index of the reconstruction array is in point t's block iff each coordinate is in the block's range on its axis. -/
theorem recon_mem_blk (t : Fin cfg2.N) (i : S50000x128.Idx) :
    i ∈ ((cfg2.win 16).blk t).view.set ↔ ∀ a : Fin 2, win2_16.index t a * S2000x128.size a ≤ (i a).val
      ∧ (i a).val < win2_16.index t a * S2000x128.size a + S2000x128.size a := by
  show i ∈ ((View.whole main_v54_2).slice (win2_16.rect t)).set ↔ _
  rw [View.set_slice_whole, Rect.mem_set_unit]
  exact Iff.rfl

/-- The same for the scalar head's array. -/
theorem cap_mem_blk (t : Fin cfg2.N) (i : S50000x1.Idx) :
    i ∈ ((cfg2.win 17).blk t).view.set ↔ ∀ a : Fin 2, win2_17.index t a * S2000x1.size a ≤ (i a).val
      ∧ (i a).val < win2_17.index t a * S2000x1.size a + S2000x1.size a := by
  show i ∈ ((View.whole main_v54_3).slice (win2_17.rect t)).set ↔ _
  rw [View.set_slice_whole, Rect.mem_set_unit]
  exact Iff.rfl

/-- Row r is in the block of point r / 2000. -/
theorem recon_cover (i : S50000x128.Idx) :
    ∃ t : Fin cfg2.N, (cfg2.win 16).flush t = true ∧ i ∈ ((cfg2.win 16).blk t).view.set := by
  have hi0 : (i 0).val < 50000 := (i 0).isLt
  have hi1 : (i 1).val < 128 := (i 1).isLt
  have hlt : (i 0).val / 2000 < cfg2.N := lt_of_lt_of_eq (by omega : (i 0).val / 2000 < 25) N_2.symm
  obtain ⟨e0, e1⟩ := idx_16 ⟨(i 0).val / 2000, hlt⟩
  refine ⟨⟨(i 0).val / 2000, hlt⟩, flush2_16 _, ?_⟩
  rw [recon_mem_blk]
  intro a
  match a with
  | ⟨0, _⟩ =>
    show win2_16.index ⟨(i 0).val / 2000, hlt⟩ (0 : Fin 2) * 2000 ≤ (i 0).val
      ∧ (i 0).val < win2_16.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_16.index ⟨(i 0).val / 2000, hlt⟩ (1 : Fin 2) * 128 ≤ (i 1).val
      ∧ (i 1).val < win2_16.index ⟨(i 0).val / 2000, hlt⟩ (1 : Fin 2) * 128 + 128
    rw [e1]; omega

theorem cap_cover (i : S50000x1.Idx) :
    ∃ t : Fin cfg2.N, (cfg2.win 17).flush t = true ∧ i ∈ ((cfg2.win 17).blk t).view.set := by
  have hi0 : (i 0).val < 50000 := (i 0).isLt
  have hi1 : (i 1).val < 1 := (i 1).isLt
  have hlt : (i 0).val / 2000 < cfg2.N := lt_of_lt_of_eq (by omega : (i 0).val / 2000 < 25) N_2.symm
  obtain ⟨e0, e1⟩ := idx_17 ⟨(i 0).val / 2000, hlt⟩
  refine ⟨⟨(i 0).val / 2000, hlt⟩, flush2_17 _, ?_⟩
  rw [cap_mem_blk]
  intro a
  match a with
  | ⟨0, _⟩ =>
    show win2_17.index ⟨(i 0).val / 2000, hlt⟩ (0 : Fin 2) * 2000 ≤ (i 0).val
      ∧ (i 0).val < win2_17.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_17.index ⟨(i 0).val / 2000, hlt⟩ (1 : Fin 2) * 1 ≤ (i 1).val
      ∧ (i 1).val < win2_17.index ⟨(i 0).val / 2000, hlt⟩ (1 : Fin 2) * 1 + 1
    rw [e1]; omega

/-! ## The arrays after the stage -/

/-- The reconstruction array after the stage is reconArr of the stage's input arrays. -/
theorem recon_final (c : Dev nD) : (dat2 (F := Ideal) V c).arrAt 16 cfg2.N = reconArr V c :=
  (dat2 (F := Ideal) V c).arrAt_eq_of_cover 16 (reconArr V c) (fun t _ => recon_flushed V c t) recon_cover

/-- The scalar head's array after the stage is capArr of the stage's input arrays. -/
theorem cap_final (c : Dev nD) : (dat2 (F := Ideal) V c).arrAt 17 cfg2.N = capArr V c :=
  (dat2 (F := Ideal) V c).arrAt_eq_of_cover 17 (capArr V c) (fun t _ => cap_flushed V c t) cap_cover

/-- THE RECONSTRUCTION, entry by entry: the specification's reconstruction head of the latent of the stage's inputs. -/
theorem recon_value (c : Dev nD) (i : Fin 50000) (v : Fin 128) :
    (dat2 (F := Ideal) V c).arrAt 16 cfg2.N (ix2 i v)
      = Cert.Spec.recon (zed V c) (w3 V c) (b3 V c) (w4 V c) (b4 V c) i v :=
  congrFun (recon_final V c) (ix2 i v)

/-- THE SCALAR HEAD, entry by entry: the specification's scalar head of the latent of the stage's inputs. -/
theorem cap_value (c : Dev nD) (i : Fin 50000) :
    (dat2 (F := Ideal) V c).arrAt 17 cfg2.N (ix2 i 0) = Cert.Spec.capHead (zed V c) (wc V c) (bc V c) i :=
  congrFun (cap_final V c) (ix2 i 0)

end Stage

end Cert.KernelIdeal.Stage2Decode

end
-- ==== Proof.LibAlgebra.lean ====
/-
  The algebra of the extended reals and the arithmetic of 32-bit words that the comparison of the two programs leans on.

  On the extended reals addition and multiplication are commutative and associative, `0 · x = 0` and `1 · x = x` for
  every `x`, but multiplication does not distribute over addition at the infinities (`⊤ + ⊥ = ⊥`). It does distribute
  when the factor is a nonnegative REAL number, and that is the only distributivity used here: the factor of a node in
  the normalised graph sum is the inverse square root of a positive count, a nonnegative real.

  On words: a word whose signed reading lies in `[0, N)` is not negative, so the wrap "add `N` when negative" leaves it
  alone, and the clamp into `[0, N - 1]` leaves it alone too.
-/
import Idealize.ShloMosaic.PureOps.Ideal
import Idealize.ShloMosaic.Lib.ValueIdx
import Mathlib.Data.EReal.Basic
import Mathlib.Data.EReal.Operations
import proofs.«403013_j32667521253538_2_alg».proof.Proof.Spec

noncomputable section

open scoped BigOperators

namespace Cert.LibAlg

open Idealize.ShloMosaic Idealize.ShloMosaic.ValueIdx Cert.Spec

/-! ## Two literal words -/

/-- The word `0x3F800000`: sign clear, exponent field `127` (the bias), fraction `0`; it denotes `2^23 · 2^(-23) = 1`. -/
theorem ofBits_one_f32 : Ideal.ofBits .f32 0x3F800000#32 = (1 : EReal) := by
  rw [← EReal.coe_one]
  simp [Ideal.ofBits, Ideal.ieee, -EReal.coe_mul]
  norm_num

/-- The all-zero word: exponent field `0` and fraction `0`, the subnormal `0 · 2^(-149) = 0`. -/
theorem ofBits_zero_f32' : Ideal.ofBits .f32 0x00000000#32 = (0 : EReal) := by
  simp [Ideal.ofBits, Ideal.ieee]

/-! ## Distributing a nonnegative real factor over a finite sum -/

/-- A nonnegative real factor distributes over a finite sum of extended reals: by induction on the index set, each step
    being distributivity over ONE addition, which holds for a factor that is nonnegative and not `⊤`. -/
theorem coe_mul_sum {ι : Type} (s : Finset ι) (r : ℝ) (hr : 0 ≤ r) (f : ι → EReal) :
    (r : EReal) * ∑ e ∈ s, f e = ∑ e ∈ s, (r : EReal) * f e := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-! ## A count of ones, and the inverse square root of a degree -/

/-- A finite sum of ones is the real number of its terms. -/
theorem sum_ones {ι : Type} (S : Finset ι) : ∑ _e ∈ S, (1 : EReal) = ((S.card : ℝ) : EReal) := by
  classical
  induction S using Finset.induction_on with
  | empty => simp
  | insert a s ha ih =>
    rw [Finset.sum_insert ha, ih, Finset.card_insert_of_notMem ha, ← EReal.coe_one, ← EReal.coe_add]
    congr 1
    push_cast
    ring

/-- the inverse square root of a degree (a count of ones, at least one after the max) is a nonnegative real -/
theorem inv_sqrt_count_real {ι : Type} (S : Finset ι) :
    ∃ r : ℝ, 0 ≤ r ∧ Ideal.rsqrt (max ((0 : EReal) + ∑ _e ∈ S, (1 : EReal)) 1) = (r : EReal) := by
  -- the degree after the max is the real number m = max (card S) 1 ≥ 1
  have hm : max ((0 : EReal) + ∑ _e ∈ S, (1 : EReal)) 1 = ((max (S.card : ℝ) 1 : ℝ) : EReal) := by
    rw [zero_add, sum_ones, ← EReal.coe_one]
    exact (EReal.coe_strictMono.monotone.map_max).symm
  have hpos : (0 : ℝ) < max (S.card : ℝ) 1 := lt_of_lt_of_le one_pos (le_max_right _ _)
  refine ⟨(Real.sqrt (max (S.card : ℝ) 1))⁻¹, inv_nonneg.mpr (Real.sqrt_nonneg _), ?_⟩
  rw [hm, Ideal.rsqrt_coe, if_neg (not_lt.mpr hpos.le), if_neg hpos.ne']

/-! ## The law of the factored normalisation -/

/-- THE LAW of the factored normalisation: a node's factor `di` times the sum of source rows each pre-scaled by its own
    factor, is the sum of the rows each scaled by the product of the two factors, when every message of the sum lands on
    that node. The factor is a nonnegative real, so it goes inside the sum; inside, it is the destination factor of each
    message, and the rest is commutativity and associativity of the product. -/
theorem aggregate_law {ι : Type} (S : Finset ι) (t : ι → EReal) (ds : ι → EReal) (dd : ι → EReal) (di : EReal)
    (hdi : ∃ r : ℝ, 0 ≤ r ∧ di = (r : EReal)) (hS : ∀ e ∈ S, dd e = di) :
    di * ((0 : EReal) + ∑ e ∈ S, t e * ds e) = (0 : EReal) + ∑ e ∈ S, t e * (ds e * dd e) := by
  obtain ⟨r, hr, rfl⟩ := hdi
  rw [zero_add, zero_add, coe_mul_sum S r hr]
  refine Finset.sum_congr rfl fun e he => ?_
  rw [hS e he, mul_comm, mul_assoc]

/-! ## Words in range -/

/-- A word whose signed reading is not negative reads the same unsigned. -/
theorem toInt_eq_toNat_of_nonneg (w : BitVec 32) (h0 : 0 ≤ w.toInt) : w.toInt = (w.toNat : ℤ) := by
  have hlt := w.isLt
  rw [BitVec.toInt_eq_toNat_cond] at h0 ⊢
  split at h0 <;> split <;> omega

/-- For a word in `[0, 128)`, being the word of the number `k < 128` is having `k` as signed reading. -/
theorem eq_ofNat_iff (w : BitVec 32) (h0 : 0 ≤ w.toInt) (h1 : w.toInt < 128) (k : Fin 128) :
    w = BitVec.ofNat 32 k.val ↔ k = ⟨w.toInt.toNat, by omega⟩ := by
  have hw := toInt_eq_toNat_of_nonneg w h0
  have hk : k.val % 2 ^ 32 = k.val := Nat.mod_eq_of_lt (by omega)
  constructor
  · intro h
    apply Fin.ext
    have h2 : w.toNat = k.val := by rw [h, BitVec.toNat_ofNat, hk]
    show k.val = w.toInt.toNat
    omega
  · intro h
    apply BitVec.eq_of_toNat_eq
    rw [BitVec.toNat_ofNat, hk, h]
    show w.toNat = w.toInt.toNat
    omega

/-- a one-hot row selects: for a token word in range the sum against the one-hot row is the selected entry -/
theorem hot_sum (w : BitVec 32) (h0 : 0 ≤ w.toInt) (h1 : w.toInt < 128) (g : Fin 128 → EReal) :
    ∑ k : Fin 128, hot w k * g k = g ⟨w.toInt.toNat, by omega⟩ := by
  rw [Finset.sum_eq_single (⟨w.toInt.toNat, by omega⟩ : Fin 128)]
  · rw [hot, if_pos ((eq_ofNat_iff w h0 h1 _).mpr rfl), one_mul]
  · intro k _ hk
    rw [hot, if_neg (fun h => hk ((eq_ofNat_iff w h0 h1 k).mp h)), zero_mul]
  · intro h
    exact absurd (Finset.mem_univ _) h

/-- The wrap "add `N` when negative" leaves a word that is not negative alone: the signed comparison with zero fails. -/
theorem wrap_of_nonneg (w c : BitVec 32) (h0 : 0 ≤ w.toInt) :
    Scalar.select (IntOp.cmpi .slt w 0#32) (IntOp.addi w c) w = w := by
  have hs : w.slt 0#32 = false := by
    rw [BitVec.slt_eq_decide, BitVec.toInt_zero]
    exact decide_eq_false (not_lt.mpr h0)
  unfold Scalar.select IntOp.cmpi
  simp only [hs]
  rw [if_neg (by decide)]

/-- The negative-index wrap followed by the clamp into the table, on a word already in range: the row is the word. -/
theorem rowOf_wrap_emb (w : BitVec 32) (h0 : 0 ≤ w.toInt) (h1 : w.toInt < 128) :
    rowOf 128 (by decide) (Scalar.select (IntOp.cmpi .slt w 0#32) (IntOp.addi w 128#32) w) = ⟨w.toInt.toNat, by omega⟩ := by
  rw [wrap_of_nonneg w _ h0]
  apply Fin.ext
  show min w.toInt.toNat (128 - 1) = w.toInt.toNat
  omega

/-- The same for a table of `50000` rows, the word being the number of the node `i`. -/
theorem rowOf_wrap_node (w : BitVec 32) (i : Fin 50000) (h : w.toInt = (i.val : ℤ)) :
    rowOf 50000 (by decide) (Scalar.select (IntOp.cmpi .slt w 0#32) (IntOp.addi w 50000#32) w) = i := by
  rw [wrap_of_nonneg w _ (by omega)]
  apply Fin.ext
  show min w.toInt.toNat (50000 - 1) = i.val
  have := i.isLt
  omega

end Cert.LibAlg

end
-- ==== Proof.LibLayoutReads.lean ====
/-
  A few array operations READ AT ONE INDEX, generic in their proof-carrying arguments: a vector reshaped to a column or
  to a row, a vector broadcast along the rows of a matrix, a scalar broadcast to any shape, and a matrix product at the
  ideal values as the sum over the inner index. Every witness (a reshape's or a broadcast's side condition, a product's
  dimension record) is a variable, and a record's fields enter as equations with literals.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«403013_j32667521253538_2_alg».proof.Proof.Spec

noncomputable section

open scoped BigOperators

namespace Cert.LibLayout

open Idealize.ShloMosaic Idealize.ShloMosaic.ValueIdx Cert.Spec

/-- A rank-1 shape by its extent. -/
abbrev V1 (n : Nat) : Shape := ⟨1, ![n]⟩

/-- A vector reshaped to a column reads its entry: position `i` of the vector and position `(i, 0)` of the column have
    the same row-major rank `i * 1 + 0 = i`. -/
theorem shapeCast_col {α : Type} (n : Nat) (x : (V1 n).Idx → α) (h : (V1 n).ShapeCasts (Sh n 1)) (i : Fin n) :
    shapeCast (Sh n 1) x h (ix2 i 0) = x (ix1 i) := by
  refine shapeCast_apply x h (ix2 i (0 : Fin 1)) (ix1 i) ?_
  rw [Shape.rowMajor_val_two, Shape.rowMajor_val_one]
  show i.val = i.val * 1 + 0
  omega

/-- A vector reshaped to a row reads its entry: position `k` of the vector and position `(0, k)` of the row have the
    same row-major rank `0 * n + k = k`. -/
theorem shapeCast_row {α : Type} (n : Nat) (x : (V1 n).Idx → α) (h : (V1 n).ShapeCasts (Sh 1 n)) (k : Fin n) :
    shapeCast (Sh 1 n) x h (ix2 0 k) = x (ix1 k) := by
  refine shapeCast_apply x h (ix2 (0 : Fin 1) k) (ix1 k) ?_
  rw [Shape.rowMajor_val_two, Shape.rowMajor_val_one]
  show k.val = 0 * n + k.val
  omega

/-- A vector broadcast along rows (first to one row, along axis 1; then the one row down `r` rows) reads its entry:
    the second broadcast reads row `0` of the one-row matrix (its first axis has extent one), the first reads the
    vector at the column. Where the vector has a single entry the column is `0` either way. -/
theorem bcast_bias {α : Type} (r n : Nat) (x : (V1 n).Idx → α) (h1 : (V1 n).BroadcastsInDim (Sh 1 n) ![1])
    (h2 : (Sh 1 n).BroadcastsInDim (Sh r n) ![0, 1]) (i : Fin r) (k : Fin n) :
    broadcastInDim (Sh r n) ![0, 1] h2 (broadcastInDim (Sh 1 n) ![1] h1 x) (ix2 i k) = x (ix1 k) := by
  have e2 := broadcastInDim_apply ![0, 1] h2 (broadcastInDim (Sh 1 n) ![1] h1 x) (ix2 i k) (ix2 (0 : Fin 1) k) (fun a => by
    match a with
    | ⟨0, _⟩ => show (0 : ℕ) = if (1 : ℕ) = 1 then 0 else i.val; rw [if_pos rfl]
    | ⟨1, _⟩ =>
      show k.val = if n = 1 then 0 else k.val
      split
      · have := k.isLt; omega
      · rfl)
  have e1 := broadcastInDim_apply ![1] h1 x (ix2 (0 : Fin 1) k) (ix1 k) (fun a => by
    match a with
    | ⟨0, _⟩ =>
      show k.val = if n = 1 then 0 else k.val
      split
      · have := k.isLt; omega
      · rfl)
  exact e2.trans e1

/-- A scalar broadcast reads the scalar: a rank-0 array has one index. -/
theorem bcast_scalar {α : Type} (t : Shape) (x : (⟨0, ![]⟩ : Shape).Idx → α) (h : (⟨0, ![]⟩ : Shape).BroadcastsInDim t ![])
    (j : t.Idx) : broadcastInDim t ![] h x j = x ix0 :=
  broadcastInDim_apply ![] h x j ix0 (fun a => a.elim0)

/-! ## A matrix product at the ideal values

  The dimension record contracts the left operand's axis 1 with the right operand's axis 0 and has no batch axes; its
  remaining axes are the left operand's axis 0 and the right operand's axis 1. Then the contraction shape has the one
  axis of extent `b`, the left operand is read at (row of the result, inner index) and the right operand at
  (inner index, column of the result). -/

section Dot
variable {a b c : Nat} (D : DotDims (Sh a b) (Sh b c) (Sh a c))

/-- One contracted axis. -/
theorem contr_rank (hlc : D.lhsContracting = [1]) : D.contr.rank = 1 := by
  rw [D.rank_contr, hlc]; rfl

/-- Its extent is the left operand's second extent. -/
theorem contr_size (hlc : D.lhsContracting = [1]) :
    D.contr.size ⟨0, by rw [contr_rank D hlc]; exact Nat.one_pos⟩ = b := by
  have h := D.size_contr 0 (by rw [hlc]; exact Nat.one_pos)
  rw [h]
  have e : D.lhsContracting[0]'(by rw [hlc]; exact Nat.one_pos) = (1 : Fin (Sh a b).rank) := by
    simp [hlc]
  rw [e]
  rfl

/-- The left operand's row is the result's row. -/
theorem lhs_row (hlb : D.lhsBatch = []) (hln : D.lhsNonContracting = [0]) (j : (Sh a c).Idx) (q : D.contr.Idx) :
    (D.lhsIdx j q 0).val = (j 0).val := by
  unfold DotDims.lhsIdx
  rw [dif_neg (show ¬(0 : Fin (Sh a b).rank) ∈ D.lhsBatch by rw [hlb]; simp),
    dif_pos (show (0 : Fin (Sh a b).rank) ∈ D.lhsNonContracting by rw [hln]; simp)]
  simp only [Fin.val_cast]
  have key : ∀ (p : Nat) (hp : p < (Sh a c).rank), p = 0 → (j ⟨p, hp⟩).val = (j 0).val :=
    fun p hp h => by subst h; rfl
  exact key _ _ (by simp [hlb, hln])

/-- The right operand's column is the result's column. -/
theorem rhs_col (hlb : D.lhsBatch = []) (hrb : D.rhsBatch = []) (hln : D.lhsNonContracting = [0])
    (hrn : D.rhsNonContracting = [1]) (j : (Sh a c).Idx) (q : D.contr.Idx) :
    (D.rhsIdx j q 1).val = (j 1).val := by
  unfold DotDims.rhsIdx
  rw [dif_neg (show ¬(1 : Fin (Sh b c).rank) ∈ D.rhsBatch by rw [hrb]; simp),
    dif_pos (show (1 : Fin (Sh b c).rank) ∈ D.rhsNonContracting by rw [hrn]; simp)]
  simp only [Fin.val_cast]
  have key : ∀ (p : Nat) (hp : p < (Sh a c).rank), p = 1 → (j ⟨p, hp⟩).val = (j 1).val :=
    fun p hp h => by subst h; rfl
  exact key _ _ (by simp [hlb, hln, hrn])

/-- A matrix product on the host at the ideal instance is the sum over the inner index. -/
theorem dot_read (a b c : Nat) (D : DotDims (Sh a b) (Sh b c) (Sh a c)) (hlc : D.lhsContracting = [1])
    (hrc : D.rhsContracting = [0]) (hlb : D.lhsBatch = []) (hrb : D.rhsBatch = []) (hln : D.lhsNonContracting = [0])
    (hrn : D.rhsNonContracting = [1]) (prec : Option ContractPrecision) (l : FVec Ideal (Sh a b) .f32)
    (r : FVec Ideal (Sh b c) .f32) (i : Fin a) (j : Fin c) :
    Host.dotGeneral D prec l r (ix2 i j) = ∑ k : Fin b, l (ix2 i k) * r (ix2 k j) := by
  have hr := contr_rank D hlc
  have hs := contr_size D hlc
  simp only [Host.dotGeneral]
  rw [Ideal.dotGeneral_apply, ← Equiv.sum_comp (contrEquiv1 D b hr hs).symm]
  refine Finset.sum_congr rfl fun k _ => ?_
  have hk := contrEquiv1_symm_val D b hr hs k
  have el : D.lhsIdx (ix2 i j) ((contrEquiv1 D b hr hs).symm k) = ix2 i k := funext fun x => Fin.ext (by
    match x with
    | ⟨0, _⟩ => exact lhs_row D hlb hln _ _
    | ⟨1, _⟩ => exact (D.lhsIdx_val_of_single hlc _ _).trans hk)
  have er : D.rhsIdx (ix2 i j) ((contrEquiv1 D b hr hs).symm k) = ix2 k j := funext fun x => Fin.ext (by
    match x with
    | ⟨0, _⟩ => exact (D.rhsIdx_val_of_single hrc _ _).trans hk
    | ⟨1, _⟩ => exact rhs_col D hlb hrb hln hrn _ _)
  rw [el, er]

end Dot

end Cert.LibLayout

end
-- ==== Proof.LibGatherScatter.lean ====
/-
  How a gather and a float scatter-add read AT ONE INDEX, for four dimension-number records:
  a gather of table rows and a gather of vector entries by a column of start words, and the scatter-adds that send
  update rows, or update entries, back to the rows those words name.

  A gather reads its start word SIGNED and CLAMPS it into the table: a negative word reads row 0, a word past the end
  reads the last row. A scatter-add reads the word signed and does NOT clamp: an update whose word is outside the table
  is dropped, so operand entry i receives exactly the updates whose word, as an integer, equals i.

  Every statement is for an arbitrary record whose fields are given as hypotheses, so that it applies to any record
  with those fields; the extents are arbitrary in the general statements and fixed in the named ones at the end.
-/
import Idealize.ShloMosaic.PureOps.Ideal
import Idealize.ShloMosaic.Lib.ValueIdx
import Idealize.ShloMosaic.Lib.StableHlo.Predicate
import proofs.«403013_j32667521253538_2_alg».proof.Proof.Spec

noncomputable section

open scoped BigOperators

namespace Cert.LibGS

open Idealize.ShloMosaic Idealize.ShloMosaic.ValueIdx Cert.Spec

/-! ## The row gather: one table row per start word -/

section GatherRows

variable {N n C : Nat} (d : GatherDims (Sh N C) (Sh n 1) (Sh n C))

/-- An index of the result read on an axis known to be the first gives the row coordinate. -/
theorem ix2_val_zero {a b : Nat} (e : Fin a) (c : Fin b) (X : Fin 2) (h : X = 0) : (ix2 e c X).val = e.val := by
  subst h; rfl

/-- An index of the result read on an axis known to be the second gives the column coordinate. -/
theorem ix2_val_one {a b : Nat} (e : Fin a) (c : Fin b) (X : Fin 2) (h : X = 1) : (ix2 e c X).val = c.val := by
  subst h; rfl

/-- When the second axis is the one offset axis, the result's batch axes are the first alone. -/
theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

/-- The start word a result entry (e, c) reads is the one in row e of the index column. -/
theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

/-- On the table's row axis the operand index is the start word, read signed and clamped into the table. -/
theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

/-- On the table's column axis the operand index is the result's column. -/
theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

/-- THE ROW GATHER AT ONE ENTRY: entry (e, c) of the result is column c of the table row that start word e names. -/
theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

/-! ## The vector gather: one entry per start word -/

/-- The rank-1 index at a coordinate, written in two ways. -/
theorem ix1_eq_ofFin {n : Nat} (e : Fin n) : ix1 e = Shape.Idx.ofFin e := by
  funext a
  match a with
  | ⟨0, _⟩ => exact Fin.ext rfl

/-- Row e of an index column, written in two ways. -/
theorem ixP_eq_ix2 {n : Nat} (e : Fin n) : StableHlo.Predicate.ixP e = ix2 e (0 : Fin 1) := by
  funext a
  match a with
  | ⟨0, _⟩ => rfl
  | ⟨1, _⟩ => rfl

/-- THE VECTOR GATHER AT ONE ENTRY: entry e of the result is the vector's entry that start word e names. -/
theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

/-! ## The row scatter-add -/

/-- An index read on two names of one axis gives one coordinate. -/
theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

/-- When the second axis is the one window axis, the updates' scatter axes are the first alone. -/
theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

/-- The start word an update entry j reads is the one in j's row of the index column. -/
theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the row axis is the start word read signed. -/
theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

/-- The window's start on the column axis is zero. -/
theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

/-- The window coordinate on the row axis, an inserted one, is zero. -/
theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

/-- The window coordinate on the column axis is the update's column. -/
theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

/-- WHERE AN UPDATE LANDS. Update entry j lands on operand entry t exactly when j's start word, read signed, is t's row
    and j's column is t's column. -/
theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

/-- THE ROW SCATTER-ADD AT ONE ENTRY: entry (i, c) of the result is the operand's entry plus column c of every update
    row whose start word, read signed, is i. (A word outside the table matches no i: its row is dropped.) -/
theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

/-! ## The vector scatter-add -/

section ScatterVec
variable {N n : Nat} (d : ScatterDims ⟨1, ![N]⟩ (Sh n 1) ⟨1, ![n]⟩)

/-- The start word update entry j reads is the one in row j of the index column (the updates have one axis). -/
theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the vector's one axis is the start word read signed. -/
theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

/-- The window coordinate on the vector's one axis, an inserted one, is zero. -/
theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

/-- WHERE AN UPDATE LANDS. Update entry j lands on operand entry t exactly when j's start word, read signed, is t. -/
theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

/-- THE VECTOR SCATTER-ADD AT ONE ENTRY: entry i of the result is the operand's entry plus every update entry whose
    start word, read signed, is i. -/
theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

/-! ## The four records at this program's extents -/

/-- The row gather from the 50000-row table of width 256 by 850000 start words. -/
theorem gather_rows_apply {α : Type} (d : GatherDims (Sh 50000 256) (Sh 850000 1) (Sh 850000 256))
    (hoff : d.offsetDims = [1]) (hcoll : d.collapsedSliceDims = [0]) (hob : d.operandBatchingDims = [])
    (hsim : d.startIndexMap = [0]) (hivd : d.indexVectorDim = 1) (hss : d.sliceSizes = ![1, 256])
    (t : (Sh 50000 256).Idx → α) (idx : IVec (Sh 850000 1) 32) (e : Fin 850000) (c : Fin 256) :
    Host.gather d t idx (ix2 e c) = t (ix2 (rowOf 50000 (by decide) (idx (ix2 e 0))) c) :=
  gather_rows_gen d (by decide) hoff hcoll hob hsim hivd hss t idx e c

/-- The row gather from the 128-row embedding table of width 128 by 50000 start words. -/
theorem gather_emb_apply {α : Type} (d : GatherDims (Sh 128 128) (Sh 50000 1) (Sh 50000 128))
    (hoff : d.offsetDims = [1]) (hcoll : d.collapsedSliceDims = [0]) (hob : d.operandBatchingDims = [])
    (hsim : d.startIndexMap = [0]) (hivd : d.indexVectorDim = 1) (hss : d.sliceSizes = ![1, 128])
    (t : (Sh 128 128).Idx → α) (idx : IVec (Sh 50000 1) 32) (i : Fin 50000) (f : Fin 128) :
    Host.gather d t idx (ix2 i f) = t (ix2 (rowOf 128 (by decide) (idx (ix2 i 0))) f) :=
  gather_rows_gen d (by decide) hoff hcoll hob hsim hivd hss t idx i f

/-- The vector gather from a 50000-entry vector by 850000 start words. -/
theorem gather_vec_apply {α : Type} (d : GatherDims ⟨1, ![50000]⟩ (Sh 850000 1) ⟨1, ![850000]⟩)
    (hcoll : d.collapsedSliceDims = [0]) (hob : d.operandBatchingDims = [])
    (hsim : d.startIndexMap = [0]) (hivd : d.indexVectorDim = 1)
    (x : (⟨1, ![50000]⟩ : Shape).Idx → α) (idx : IVec (Sh 850000 1) 32) (e : Fin 850000) :
    Host.gather d x idx (ix1 e) = x (ix1 (rowOf 50000 (by decide) (idx (ix2 e 0)))) :=
  gather_vec_gen (by decide) d hcoll hob hsim hivd x idx e

/-- The row scatter-add of 850000 update rows of width 256 into 50000 rows. -/
theorem scatterAdd_rows_apply (d : ScatterDims (Sh 50000 256) (Sh 850000 1) (Sh 850000 256))
    (huw : d.updateWindowDims = [1]) (hiw : d.insertedWindowDims = [0]) (hsd : d.scatterDimsToOperandDims = [0])
    (hivd : d.indexVectorDim = 1)
    (x : RArr 50000 256) (idx : IVec (Sh 850000 1) 32) (u : RArr 850000 256) (i : Fin 50000) (c : Fin 256) :
    Ideal.hostScatterAdd d x idx u (ix2 i c)
      = x (ix2 i c) + ∑ e ∈ Finset.univ.filter (fun e : Fin 850000 => (idx (ix2 e 0)).toInt = (i.val : ℤ)), u (ix2 e c) :=
  scatterAdd_rows_gen d huw hiw hsd hivd x idx u i c

/-- The vector scatter-add of 850000 update entries into 50000 entries. (The updates have one axis, so every update axis is
    a scatter axis whatever the window axes are said to be: the hypothesis on them plays no part.) -/
theorem scatterAdd_vec_apply (d : ScatterDims ⟨1, ![50000]⟩ (Sh 850000 1) ⟨1, ![850000]⟩)
    (huw : d.updateWindowDims = []) (hiw : d.insertedWindowDims = [0]) (hsd : d.scatterDimsToOperandDims = [0])
    (hivd : d.indexVectorDim = 1)
    (x : (⟨1, ![50000]⟩ : Shape).Idx → EReal) (idx : IVec (Sh 850000 1) 32) (u : (⟨1, ![850000]⟩ : Shape).Idx → EReal)
    (i : Fin 50000) :
    Ideal.hostScatterAdd d x idx u (ix1 i)
      = x (ix1 i) + ∑ e ∈ Finset.univ.filter (fun e : Fin 850000 => (idx (ix2 e 0)).toInt = (i.val : ℤ)), u (ix1 e) :=
  scatterAdd_vec_gen d hiw hsd hivd x idx u i

end Cert.LibGS

end
-- ==== Proof.GraphReads.lean ====
/-
  Four array expressions of the graph side, READ AT ONE INDEX as the specification's graph functions.

  Each expression is built from a column of index words: a vector of words is made a one-column array of start
  indices (for a gather, after a negative word has been wrapped by the table's length), rows or entries of a table are
  gathered by it, the gathered values are combined entry by entry, and a scatter-add sends them to the rows the
  destination words name, starting from an all-zero array.

  Read at one index, a broadcast reads its operand at one index, an entrywise operation acts on the entries, a gather
  reads the row its start word names (signed, clamped) and a scatter-add adds, to the operand's entry, the updates of
  exactly those messages whose destination word is the entry's row. Put together these are the specification's
  functions: the inverse square root of the degree, the bare sum of source rows, the normalised sum of source rows,
  and a row of the embedding table.

  Every dimension record and every side witness is a variable, the record's fields given as hypotheses, so that each
  statement applies to any program that contains the expression.
-/
import Idealize.ShloMosaic.PureOps.Ideal
import Idealize.ShloMosaic.Lib.ValueIdx
import Idealize.ShloMosaic.Lib.ValueLayout
import Idealize.ShloMosaic.Lib.Pipeline.Value
import proofs.«403013_j32667521253538_2_alg».proof.Proof.Spec
import proofs.«403013_j32667521253538_2_alg».proof.Proof.LibGatherScatter
import proofs.«403013_j32667521253538_2_alg».proof.Proof.LibAlgebra

noncomputable section

open scoped BigOperators

namespace Cert.GraphReads

open Idealize.ShloMosaic Idealize.ShloMosaic.ValueIdx Cert.Spec

/-- The shape of a scalar. -/
abbrev S0 : Shape := ⟨0, ![]⟩
/-- The shape of a vector of `n` entries. -/
abbrev V1 (n : Nat) : Shape := ⟨1, ![n]⟩

/-! ## Broadcasts at one index -/

section Broadcasts

variable {α : Type}

/-- A scalar broadcast to any shape reads the scalar everywhere: the scalar shape has no axis to place. -/
theorem scalar_read {t : Shape} (hb : S0.BroadcastsInDim t ![]) (y : S0.Idx → α) (j : t.Idx) :
    broadcastInDim t ![] hb y j = y (fun a => a.elim0) :=
  broadcastInDim_apply _ hb y j (fun a => a.elim0) (fun a => a.elim0)

/-- A vector of 850000 entries made a one-column array reads, in row `e`, the vector's entry `e`. -/
theorem col_read (hb : (V1 850000).BroadcastsInDim (Sh 850000 1) ![0]) (A : (V1 850000).Idx → α) (e : Fin 850000) :
    broadcastInDim (Sh 850000 1) ![0] hb A (ix2 e 0) = A (ix1 e) :=
  broadcastInDim_apply _ hb A (ix2 e 0) (ix1 e) (fun a => match a with
    | ⟨0, _⟩ => by show e.val = if (850000 : Nat) = 1 then 0 else e.val; rw [if_neg (by decide)])

/-- A vector of 50000 entries made a one-column array reads, in row `i`, the vector's entry `i`. -/
theorem col_read_nodes (hb : (V1 50000).BroadcastsInDim (Sh 50000 1) ![0]) (A : (V1 50000).Idx → α) (i : Fin 50000) :
    broadcastInDim (Sh 50000 1) ![0] hb A (ix2 i 0) = A (ix1 i) :=
  broadcastInDim_apply _ hb A (ix2 i 0) (ix1 i) (fun a => match a with
    | ⟨0, _⟩ => by show i.val = if (50000 : Nat) = 1 then 0 else i.val; rw [if_neg (by decide)])

/-- A one-column array spread over 256 columns reads, at `(e, c)`, the column's entry `e`. -/
theorem wide_read (hb : (Sh 850000 1).BroadcastsInDim (Sh 850000 256) ![0, 1]) (y : (Sh 850000 1).Idx → α)
    (e : Fin 850000) (c : Fin 256) :
    broadcastInDim (Sh 850000 256) ![0, 1] hb y (ix2 e c) = y (ix2 e 0) :=
  broadcastInDim_apply _ hb y (ix2 e c) (ix2 e 0) (fun a => match a with
    | ⟨0, _⟩ => by show e.val = if (850000 : Nat) = 1 then 0 else e.val; rw [if_neg (by decide)]
    | ⟨1, _⟩ => by show 0 = if (1 : Nat) = 1 then 0 else c.val; rw [if_pos rfl])

end Broadcasts

/-! ## The wrap of a negative index word, at one index -/

/-- The entrywise wrap of a vector of words by the literal `c` reads, at `j`, the wrap of the word at `j`:
    the comparison with the zero word and the sum with `c` act entry by entry, the two literals being scalars
    broadcast to the vector's shape. -/
theorem wrap_read {n : Nat} (c : BitVec 32) (hbs : S0.BroadcastsInDim (V1 n) ![]) (A : IVec (V1 n) 32) (j : (V1 n).Idx) :
    select (cmpi .slt A (broadcastInDim (V1 n) ![] hbs (constantI S0 32 0#32)))
        (addi A (broadcastInDim (V1 n) ![] hbs (constantI S0 32 c))) A j
      = Scalar.select (IntOp.cmpi .slt (A j) 0#32) (IntOp.addi (A j) c) (A j) := by
  show Scalar.select (IntOp.cmpi .slt (A j) (broadcastInDim (V1 n) ![] hbs (constantI S0 32 0#32) j))
      (IntOp.addi (A j) (broadcastInDim (V1 n) ![] hbs (constantI S0 32 c) j)) (A j) = _
  rw [scalar_read hbs, scalar_read hbs]
  rfl

/-- The column of wrapped start words of the messages reads, in row `e`, the wrap of message `e`'s word. -/
theorem wrapCol_read (hb1 : (V1 850000).BroadcastsInDim (Sh 850000 1) ![0]) (hbs : S0.BroadcastsInDim (V1 850000) ![])
    (A : IVec (V1 850000) 32) (e : Fin 850000) :
    broadcastInDim (Sh 850000 1) ![0] hb1
        (select (cmpi .slt A (broadcastInDim (V1 850000) ![] hbs (constantI S0 32 0#32)))
          (addi A (broadcastInDim (V1 850000) ![] hbs (constantI S0 32 50000#32))) A) (ix2 e 0)
      = wrapN (A (ix1 e)) := by
  rw [col_read hb1, wrap_read 50000#32 hbs A (ix1 e)]
  rfl

/-- The row a gather reads for message `e` from the column of wrapped words is the node the word names. -/
theorem rowOf_wrapCol (hb1 : (V1 850000).BroadcastsInDim (Sh 850000 1) ![0]) (hbs : S0.BroadcastsInDim (V1 850000) ![])
    (A : IVec (V1 850000) 32) (e : Fin 850000) :
    rowOf 50000 (by decide) (broadcastInDim (Sh 850000 1) ![0] hb1
        (select (cmpi .slt A (broadcastInDim (V1 850000) ![] hbs (constantI S0 32 0#32)))
          (addi A (broadcastInDim (V1 850000) ![] hbs (constantI S0 32 50000#32))) A) (ix2 e 0))
      = nodeOf (A (ix1 e)) := by
  rw [wrapCol_read hb1 hbs A e]
  rfl

/-! ## The two float literals, broadcast -/

/-- The zero literal broadcast to any shape reads zero everywhere. -/
theorem zeros_read {t : Shape} (hb : S0.BroadcastsInDim t ![]) (j : t.Idx) :
    broadcastInDim t ![] hb (constant (F := Ideal) S0 .f32 0x00000000#32) j = (0 : EReal) := by
  rw [scalar_read hb]
  exact LibAlg.ofBits_zero_f32'

/-- The literal one broadcast to any shape reads one everywhere. -/
theorem ones_read {t : Shape} (hb : S0.BroadcastsInDim t ![]) (j : t.Idx) :
    broadcastInDim t ![] hb (constant (F := Ideal) S0 .f32 0x3F800000#32) j = (1 : EReal) := by
  rw [scalar_read hb]
  exact LibAlg.ofBits_one_f32

/-! ## Entrywise operations and the scatter-add, at one index -/

/-- The inverse square root of an entrywise maximum, at one index. -/
theorem rsqrt_max_read {s : Shape} (P Q : FVec Ideal s .f32) (j : s.Idx) :
    Host.rsqrt (maximumf P Q) j = Ideal.rsqrt (max (P j) (Q j)) := rfl

/-- The scatter-add of the exact instance is the exact sum. -/
theorem scatterAdd_read {s si su : Shape} {w : Nat} (d : ScatterDims s si su) (x : FVec Ideal s .f32) (idx : IVec si w)
    (u : FVec Ideal su .f32) (j : s.Idx) :
    Host.scatterAdd d x idx u j = Ideal.hostScatterAdd d x idx u j :=
  congrFun (Ideal.hostScatterAdd_def d .single x idx u) j

/-- The row a gather reads from a wrapped word is the node the word names. -/
theorem rowOf_wrap_read (hbs : S0.BroadcastsInDim (V1 850000) ![]) (A : IVec (V1 850000) 32) (j : (V1 850000).Idx) :
    rowOf 50000 (by decide)
        (select (cmpi .slt A (broadcastInDim (V1 850000) ![] hbs (constantI S0 32 0#32)))
          (addi A (broadcastInDim (V1 850000) ![] hbs (constantI S0 32 50000#32))) A j)
      = nodeOf (A j) := by
  rw [wrap_read 50000#32 hbs A j]
  rfl

/-! ## The four reads -/

/-- The inverse square root of the degree: ones scatter-added by the destination words onto zeros count the messages
    that land on node `i`; the count is raised to at least one and its inverse square root taken. -/
theorem dinv_read (sv : ScatterDims (V1 50000) (Sh 850000 1) (V1 850000))
    (huw : sv.updateWindowDims = []) (hiw : sv.insertedWindowDims = [0]) (hsd : sv.scatterDimsToOperandDims = [0])
    (hivd : sv.indexVectorDim = 1)
    (hb0 : S0.BroadcastsInDim (V1 50000) ![]) (hb1 : (V1 850000).BroadcastsInDim (Sh 850000 1) ![0])
    (hb2 : S0.BroadcastsInDim (V1 850000) ![])
    (dstA : IVec (V1 850000) 32) (i : Fin 50000) :
    (Host.rsqrt (maximumf
        (Host.scatterAdd sv (broadcastInDim (V1 50000) ![] hb0 (constant (F := Ideal) S0 .f32 0x00000000#32))
          (broadcastInDim (Sh 850000 1) ![0] hb1 dstA)
          (broadcastInDim (V1 850000) ![] hb2 (constant (F := Ideal) S0 .f32 0x3F800000#32)))
        (broadcastInDim (V1 50000) ![] hb0 (constant (F := Ideal) S0 .f32 0x3F800000#32))) : FVec Ideal (V1 50000) .f32) (ix1 i)
      = dinv (fun e : Fin 850000 => dstA (ix1 e)) i := by
  rw [rsqrt_max_read, scatterAdd_read, LibGS.scatterAdd_vec_apply sv huw hiw hsd hivd, zeros_read hb0, ones_read hb0]
  unfold dinv degree inbox
  simp only [col_read hb1 dstA, ones_read hb2]

/-- The bare sum of source rows: the rows of `o` gathered by the wrapped source words, widened, and scatter-added by the
    destination words onto zeros. -/
theorem gsum_read (sr : ScatterDims (Sh 50000 256) (Sh 850000 1) (Sh 850000 256))
    (huw : sr.updateWindowDims = [1]) (hiw : sr.insertedWindowDims = [0]) (hsd : sr.scatterDimsToOperandDims = [0])
    (hivd : sr.indexVectorDim = 1)
    (gr : GatherDims (Sh 50000 256) (Sh 850000 1) (Sh 850000 256))
    (hoff : gr.offsetDims = [1]) (hcoll : gr.collapsedSliceDims = [0]) (hob : gr.operandBatchingDims = [])
    (hsim : gr.startIndexMap = [0]) (hgivd : gr.indexVectorDim = 1) (hss : gr.sliceSizes = ![1, 256])
    (hbz : S0.BroadcastsInDim (Sh 50000 256) ![]) (hb1 : (V1 850000).BroadcastsInDim (Sh 850000 1) ![0])
    (hbs : S0.BroadcastsInDim (V1 850000) ![]) (hlt : FTy.bf16.bits < FTy.f32.bits)
    (srcA dstA : IVec (V1 850000) 32) (o : FVec Ideal (Sh 50000 256) .bf16) (i : Fin 50000) (k : Fin 256) :
    (Host.scatterAdd sr (broadcastInDim (Sh 50000 256) ![] hbz (constant (F := Ideal) S0 .f32 0x00000000#32))
        (broadcastInDim (Sh 850000 1) ![0] hb1 dstA)
        (extf .f32 (Host.gather gr o (broadcastInDim (Sh 850000 1) ![0] hb1
          (select (cmpi .slt srcA (broadcastInDim (V1 850000) ![] hbs (constantI S0 32 0#32)))
            (addi srcA (broadcastInDim (V1 850000) ![] hbs (constantI S0 32 50000#32))) srcA))) hlt)
        : FVec Ideal (Sh 50000 256) .f32) (ix2 i k)
      = gsum (fun e : Fin 850000 => srcA (ix1 e)) (fun e : Fin 850000 => dstA (ix1 e)) (fun j h => o (ix2 j h)) i k := by
  rw [scatterAdd_read, LibGS.scatterAdd_rows_apply sr huw hiw hsd hivd, zeros_read hbz]
  unfold gsum inbox
  simp only [col_read hb1 dstA, extf_apply, LibGS.gather_rows_apply gr hoff hcoll hob hsim hgivd hss,
    rowOf_wrapCol hb1 hbs srcA]

/-- The normalised sum of source rows: the rows of `T` gathered by the wrapped source words, each scaled by the
    product of the two endpoints' entries of `D`, and scatter-added by the destination words onto zeros. -/
theorem nsum_read (sr : ScatterDims (Sh 50000 256) (Sh 850000 1) (Sh 850000 256))
    (huw : sr.updateWindowDims = [1]) (hiw : sr.insertedWindowDims = [0]) (hsd : sr.scatterDimsToOperandDims = [0])
    (hivd : sr.indexVectorDim = 1)
    (gr : GatherDims (Sh 50000 256) (Sh 850000 1) (Sh 850000 256))
    (hoff : gr.offsetDims = [1]) (hcoll : gr.collapsedSliceDims = [0]) (hob : gr.operandBatchingDims = [])
    (hsim : gr.startIndexMap = [0]) (hgivd : gr.indexVectorDim = 1) (hss : gr.sliceSizes = ![1, 256])
    (gv : GatherDims (V1 50000) (Sh 850000 1) (V1 850000))
    (hvcoll : gv.collapsedSliceDims = [0]) (hvob : gv.operandBatchingDims = [])
    (hvsim : gv.startIndexMap = [0]) (hvivd : gv.indexVectorDim = 1)
    (hbz : S0.BroadcastsInDim (Sh 50000 256) ![]) (hb1 : (V1 850000).BroadcastsInDim (Sh 850000 1) ![0])
    (hbs : S0.BroadcastsInDim (V1 850000) ![]) (hbf : (V1 850000).BroadcastsInDim (Sh 850000 1) ![0])
    (hbw : (Sh 850000 1).BroadcastsInDim (Sh 850000 256) ![0, 1])
    (srcA dstA : IVec (V1 850000) 32) (T : FVec Ideal (Sh 50000 256) .f32) (D : FVec Ideal (V1 50000) .f32)
    (i : Fin 50000) (k : Fin 256) :
    (Host.scatterAdd sr (broadcastInDim (Sh 50000 256) ![] hbz (constant (F := Ideal) S0 .f32 0x00000000#32))
        (broadcastInDim (Sh 850000 1) ![0] hb1 dstA)
        (mulf
          (Host.gather gr T (broadcastInDim (Sh 850000 1) ![0] hb1
            (select (cmpi .slt srcA (broadcastInDim (V1 850000) ![] hbs (constantI S0 32 0#32)))
              (addi srcA (broadcastInDim (V1 850000) ![] hbs (constantI S0 32 50000#32))) srcA)))
          (broadcastInDim (Sh 850000 256) ![0, 1] hbw (broadcastInDim (Sh 850000 1) ![0] hbf
            (mulf
              (Host.gather gv D (broadcastInDim (Sh 850000 1) ![0] hb1
                (select (cmpi .slt srcA (broadcastInDim (V1 850000) ![] hbs (constantI S0 32 0#32)))
                  (addi srcA (broadcastInDim (V1 850000) ![] hbs (constantI S0 32 50000#32))) srcA)))
              (Host.gather gv D (broadcastInDim (Sh 850000 1) ![0] hb1
                (select (cmpi .slt dstA (broadcastInDim (V1 850000) ![] hbs (constantI S0 32 0#32)))
                  (addi dstA (broadcastInDim (V1 850000) ![] hbs (constantI S0 32 50000#32))) dstA)))))))
        : FVec Ideal (Sh 50000 256) .f32) (ix2 i k)
      = nsum (fun e : Fin 850000 => srcA (ix1 e)) (fun e : Fin 850000 => dstA (ix1 e)) (fun j => D (ix1 j))
          (fun j h => T (ix2 j h)) i k := by
  rw [scatterAdd_read, LibGS.scatterAdd_rows_apply sr huw hiw hsd hivd, zeros_read hbz]
  unfold nsum inbox
  simp only [col_read hb1, mulf_apply, wide_read hbw, col_read hbf,
    LibGS.gather_rows_apply gr hoff hcoll hob hsim hgivd hss,
    LibGS.gather_vec_apply gv hvcoll hvob hvsim hvivd, rowOf_wrap_read hbs srcA, rowOf_wrap_read hbs dstA]

/-- A row of the embedding table: the table's rows gathered by the column of wrapped token words read, in row `i`,
    the table row the wrapped token word of node `i` names. -/
theorem emb_read (ge : GatherDims (Sh 128 128) (Sh 50000 1) (Sh 50000 128))
    (hoff : ge.offsetDims = [1]) (hcoll : ge.collapsedSliceDims = [0]) (hob : ge.operandBatchingDims = [])
    (hsim : ge.startIndexMap = [0]) (hivd : ge.indexVectorDim = 1) (hss : ge.sliceSizes = ![1, 128])
    (hbx : (V1 50000).BroadcastsInDim (Sh 50000 1) ![0]) (hbc : S0.BroadcastsInDim (V1 50000) ![])
    (x : IVec (V1 50000) 32) (emb : FVec Ideal (Sh 128 128) .f32) (i : Fin 50000) (f : Fin 128) :
    Host.gather ge emb (broadcastInDim (Sh 50000 1) ![0] hbx
        (select (cmpi .slt x (broadcastInDim (V1 50000) ![] hbc (constantI S0 32 0#32)))
          (addi x (broadcastInDim (V1 50000) ![] hbc (constantI S0 32 128#32))) x)) (ix2 i f)
      = emb (ix2 (rowOf 128 (by decide) (wrapV (x (ix1 i)))) f) := by
  rw [LibGS.gather_emb_apply ge hoff hcoll hob hsim hivd hss, col_read_nodes hbx, wrap_read 128#32 hbc x (ix1 i)]
  rfl

end Cert.GraphReads

end
-- ==== Proof.GraphLaw.lean ====
/-
  The law that joins the two forms of a normalised graph-convolution sum, over the specification's own vocabulary: a node's
  factor times the bare sum of its sources' PRE-SCALED rows is the sum of the rows each scaled by the product of the two
  endpoints' factors. A message that lands on node `i` names `i` as its destination, and a node's factor, the inverse square
  root of a count, is a nonnegative real, which distributes over a finite sum of extended reals.
-/
import proofs.«403013_j32667521253538_2_alg».proof.Proof.Spec
import proofs.«403013_j32667521253538_2_alg».proof.Proof.LibAlgebra

noncomputable section

open scoped BigOperators

namespace Cert.GraphLaw

open Idealize.ShloMosaic Idealize.ShloMosaic.ValueIdx Cert.Spec

/-- A node's factor is a nonnegative real. -/
theorem dinv_real (dw : Fin 850000 → BitVec 32) (i : Fin 50000) : ∃ r : ℝ, 0 ≤ r ∧ dinv dw i = (r : EReal) :=
  Cert.LibAlg.inv_sqrt_count_real (inbox dw i)

/-- A message in node `i`'s inbox names node `i` as the destination of its gather too. -/
theorem nodeOf_of_mem_inbox (dw : Fin 850000 → BitVec 32) (i : Fin 50000) (e : Fin 850000) (he : e ∈ inbox dw i) :
    nodeOf (dw e) = i :=
  Cert.LibAlg.rowOf_wrap_node (dw e) i (Finset.mem_filter.1 he).2

/-- THE LAYER LAW: post-scaling the bare sum of pre-scaled rows is the normalised sum. -/
theorem layer_law (sw dw : Fin 850000 → BitVec 32) (T : Fin 50000 → Fin 256 → EReal) (i : Fin 50000) (k : Fin 256) :
    dinv dw i * gsum sw dw (fun j h => T j h * dinv dw j) i k = nsum sw dw (dinv dw) T i k :=
  Cert.LibAlg.aggregate_law (inbox dw i) (fun e => T (nodeOf (sw e)) k) (fun e => dinv dw (nodeOf (sw e)))
    (fun e => dinv dw (nodeOf (dw e))) (dinv dw i) (dinv_real dw i)
    (fun e he => congrArg (dinv dw) (nodeOf_of_mem_inbox dw i e he))

end Cert.GraphLaw

end
-- ==== Proof.LayerStep.lean ====
/-
  One layer of the comparison, over the specification alone. A dense stage of the factored form takes the bare sum `a` of
  the previous stage's rows — each the wanted row `T j` pre-scaled by its node's factor — and the column `d2` of the factors;
  its activation is then the positive part of the NORMALISED sum plus the bias, which is what the other form computes.
  The first stage selects a row of the projected table by a one-hot row; for a token in range that is the row itself.
-/
import proofs.«403013_j32667521253538_2_alg».proof.Proof.Spec
import proofs.«403013_j32667521253538_2_alg».proof.Proof.LibAlgebra
import proofs.«403013_j32667521253538_2_alg».proof.Proof.GraphLaw

noncomputable section

open scoped BigOperators

namespace Cert.LayerStep

open Idealize.ShloMosaic Idealize.ShloMosaic.ValueIdx Cert.Spec

/-- The first stage at a token in range: the selected row of the table, times the node's factor. -/
theorem stage0_eq (x2 : WArr 50000 1) (E : RArr 128 256) (d2 : RArr 50000 1) (P : Fin 128 → Fin 256 → EReal) (D : Fin 50000 → EReal)
    (hE : ∀ k h, E (ix2 k h) = P k h) (hd : ∀ i, d2 (ix2 i 0) = D i) (i : Fin 50000) (h : Fin 256)
    (w : BitVec 32) (hw : x2 (ix2 i 0) = w) (h0 : 0 ≤ w.toInt) (h1 : w.toInt < 128) :
    stage0 x2 E d2 i h = P ⟨w.toInt.toNat, by omega⟩ h * D i := by
  subst hw
  unfold stage0
  rw [hd i, Finset.sum_congr rfl (fun k _ => by rw [hE k h]), Cert.LibAlg.hot_sum (x2 (ix2 i 0)) h0 h1 (fun k => P k h)]

/-- The activation of a dense stage of the factored form is the positive part of the normalised sum plus the bias. -/
theorem hidden_eq (sw dw : Fin 850000 → BitVec 32) (a : RArr 50000 256) (d2 : RArr 50000 1) (b : RArr 1 256)
    (T O : Fin 50000 → Fin 256 → EReal) (bias : Fin 256 → EReal)
    (hO : ∀ j h, O j h = T j h * dinv dw j) (ha : ∀ i k, a (ix2 i k) = gsum sw dw O i k)
    (hd : ∀ i, d2 (ix2 i 0) = dinv dw i) (hb : ∀ k, b (ix2 0 k) = bias k) (i : Fin 50000) (k : Fin 256) :
    Spec.hidden a d2 b i k = act (nsum sw dw (dinv dw) T i k) (bias k) := by
  unfold Spec.hidden
  have hOf : O = fun j h => T j h * dinv dw j := funext fun j => funext fun h => hO j h
  rw [hd i, ha i k, hb k, hOf, Cert.GraphLaw.layer_law sw dw T i k]

/-- The second stage, given its activation: the linear map, times the node's factor. -/
theorem stage1_eq (a : RArr 50000 256) (d2 : RArr 50000 1) (b : RArr 1 256) (W : RArr 256 256)
    (A : Fin 50000 → Fin 256 → EReal) (Wr : Fin 256 → Fin 256 → EReal) (D : Fin 50000 → EReal)
    (hH : ∀ i k, Spec.hidden a d2 b i k = A i k) (hW : ∀ k h, W (ix2 k h) = Wr k h) (hd : ∀ i, d2 (ix2 i 0) = D i)
    (i : Fin 50000) (h : Fin 256) :
    stage1 a d2 b W i h = (∑ k : Fin 256, A i k * Wr k h) * D i := by
  unfold stage1
  rw [hd i, Finset.sum_congr rfl (fun k _ => by rw [hH i k, hW k h])]

end Cert.LayerStep

end
-- ==== Proof.RefLayers.lean ====
/-
  The plain program's two graph-convolution layers, read entry by entry in the specification's vocabulary: the factors are the
  inverse square roots of the degrees; the first layer's linear map of the gathered embedding row is a row of the projected
  table when the token names one of the table's rows; each layer's sum over the edges is the normalised sum of the previous
  linear map's rows; the activation is the positive part of that sum plus the bias.
-/
import proofs.«403013_j32667521253538_2_alg».proof.Proof.Gen.ReferenceIdeal.Read
import proofs.«403013_j32667521253538_2_alg».proof.Proof.Spec
import proofs.«403013_j32667521253538_2_alg».proof.Proof.LibAlgebra
import proofs.«403013_j32667521253538_2_alg».proof.Proof.LibLayoutReads
import proofs.«403013_j32667521253538_2_alg».proof.Proof.GraphReads

noncomputable section

open scoped BigOperators

namespace Cert.RefLayers

open Idealize.ShloMosaic Idealize.ShloMosaic.ValueIdx Cert.Spec Cert.ReferenceIdeal Cert.ReferenceIdeal.Gen Cert.ReferenceIdeal.Read

/-- An argument array of the plain program, at the ideal instance. -/
abbrev Arg (s : Shape) (t : EltTy) : Type := (⟨s, t⟩ : BufTy).Contents (Elt Ideal)

variable (x0 : Arg S50000 .i32) (x1 : Arg S2x800000 .i32) (x3 : Arg S128x128 .f32) (x4 : Arg S128x256 .f32) (x5 : Arg S256 .f32) (x6 : Arg S256x256 .f32) (x7 : Arg S256 .f32)

/-- The source word of a message. -/
abbrev sw (e : Fin 850000) : BitVec 32 := val_main_v3 (F := Ideal) x1 (ix1 e)
/-- The destination word of a message. -/
abbrev dw (e : Fin 850000) : BitVec 32 := val_main_v6 (F := Ideal) x1 (ix1 e)
/-- The projected embedding table: the embedding table times the first layer's weights. -/
def proj (k : Fin 128) (h : Fin 256) : EReal := ∑ f : Fin 128, x3 (ix2 k f) * x4 (ix2 f h)

/-- The first layer's factors are the inverse square roots of the degrees. -/
theorem dinv1 (i : Fin 50000) : val_main_v20 (F := Ideal) x1 (ix1 i) = dinv (dw x1) i :=
  Cert.GraphReads.dinv_read scatter_S50000_S850000x1_S850000_n_0_0_1 rfl rfl rfl rfl _ _ _ (val_main_v6 (F := Ideal) x1) i

/-- The second layer computes the same factors again. -/
theorem dinv2 (i : Fin 50000) : val_main_v60 (F := Ideal) x1 (ix1 i) = dinv (dw x1) i :=
  Cert.GraphReads.dinv_read scatter_S50000_S850000x1_S850000_n_0_0_1 rfl rfl rfl rfl _ _ _ (val_main_v6 (F := Ideal) x1) i

/-- The gathered embedding row of a token in range is the token's row. -/
theorem emb_row (i : Fin 50000) (f : Fin 128) (h0 : 0 ≤ (x0 (ix1 i)).toInt) (h1 : (x0 (ix1 i)).toInt < 128) :
    val_main_v13 (F := Ideal) x0 x3 (ix2 i f) = x3 (ix2 (⟨(x0 (ix1 i)).toInt.toNat, by omega⟩ : Fin 128) f) := by
  have h := Cert.GraphReads.emb_read gather_S128x128_S50000x1_S50000x128_1_0_n_n_0_1_1128 rfl rfl rfl rfl rfl rfl bcast_S50000_S50000x1_0 bcast_S_S50000 x0 x3 i f
  rw [show wrapV (x0 (ix1 i)) = Scalar.select (IntOp.cmpi .slt (x0 (ix1 i)) 0#32) (IntOp.addi (x0 (ix1 i)) 128#32) (x0 (ix1 i)) from rfl,
    Cert.LibAlg.rowOf_wrap_emb (x0 (ix1 i)) h0 h1] at h
  exact h

/-- The first layer's linear map at a token in range: the token's row of the projected table. -/
theorem lin1 (i : Fin 50000) (h : Fin 256) (h0 : 0 ≤ (x0 (ix1 i)).toInt) (h1 : (x0 (ix1 i)).toInt < 128) :
    val_main_v36 (F := Ideal) x0 x3 x4 (ix2 i h) = proj x3 x4 ⟨(x0 (ix1 i)).toInt.toNat, by omega⟩ h := by
  unfold val_main_v36 proj
  rw [Cert.LibLayout.dot_read 50000 128 256 dot_S50000x128_S128x256_S50000x256_1_0_0_1_n_n rfl rfl rfl rfl rfl rfl none _ _ i h]
  exact Finset.sum_congr rfl fun f _ => by rw [emb_row x0 x3 i f h0 h1]

/-- The first layer's sum over the edges is the normalised sum of its linear map's rows. -/
theorem agg1 (i : Fin 50000) (k : Fin 256) :
    val_main_v49 (F := Ideal) x0 x1 x3 x4 (ix2 i k)
      = nsum (sw x1) (dw x1) (dinv (dw x1)) (fun j h => val_main_v36 (F := Ideal) x0 x3 x4 (ix2 j h)) i k := by
  have h := Cert.GraphReads.nsum_read scatter_S50000x256_S850000x1_S850000x256_1_0_0_1 rfl rfl rfl rfl
    gather_S50000x256_S850000x1_S850000x256_1_0_n_n_0_1_1256 rfl rfl rfl rfl rfl rfl
    gather_S50000_S850000x1_S850000_n_0_n_n_0_1_1 rfl rfl rfl rfl bcast_S_S50000x256 bcast_S850000_S850000x1_0 bcast_S_S850000 bcast_S850000_S850000x1_0 bcast_S850000x1_S850000x256_0_1
    (val_main_v3 (F := Ideal) x1) (val_main_v6 (F := Ideal) x1) (val_main_v36 (F := Ideal) x0 x3 x4) (val_main_v20 (F := Ideal) x1) i k
  rw [show (fun j => val_main_v20 (F := Ideal) x1 (ix1 j)) = dinv (dw x1) from funext (dinv1 x1)] at h
  exact h

/-- A bias vector broadcast over the rows reads its entry. -/
theorem bias1 (i : Fin 50000) (k : Fin 256) : val_main_v51 (F := Ideal) x5 (ix2 i k) = x5 (ix1 k) := by
  unfold val_main_v51 val_main_v50
  exact Cert.LibLayout.bcast_bias 50000 256 x5 _ _ i k

/-- The first layer's activation: the positive part of the sum plus the bias. -/
theorem act1 (i : Fin 50000) (k : Fin 256) :
    val_main_v53 (F := Ideal) x0 x1 x3 x4 x5 (ix2 i k) = act (val_main_v49 (F := Ideal) x0 x1 x3 x4 (ix2 i k)) (x5 (ix1 k)) := by
  rw [val_main_v53_apply, val_main_v52_apply, bias1, val_main_call0_v0_apply, val_main_call0_cst_apply]
  simp only [Ideal.maximumf_def, Ideal.addf_def, Ideal.ofBits_def, Cert.LibAlg.ofBits_zero_f32']
  rfl

/-- The second layer's linear map: the activation times the weights. -/
theorem lin2 (i : Fin 50000) (h : Fin 256) :
    val_main_v76 (F := Ideal) x0 x1 x3 x4 x5 x6 (ix2 i h)
      = ∑ k : Fin 256, val_main_v53 (F := Ideal) x0 x1 x3 x4 x5 (ix2 i k) * x6 (ix2 k h) := by
  unfold val_main_v76
  exact Cert.LibLayout.dot_read 50000 256 256 dot_S50000x256_S256x256_S50000x256_1_0_0_1_n_n rfl rfl rfl rfl rfl rfl none _ _ i h

/-- The second layer's sum over the edges is the normalised sum of its linear map's rows. -/
theorem agg2 (i : Fin 50000) (k : Fin 256) :
    val_main_v89 (F := Ideal) x0 x1 x3 x4 x5 x6 (ix2 i k)
      = nsum (sw x1) (dw x1) (dinv (dw x1)) (fun j h => val_main_v76 (F := Ideal) x0 x1 x3 x4 x5 x6 (ix2 j h)) i k := by
  have h := Cert.GraphReads.nsum_read scatter_S50000x256_S850000x1_S850000x256_1_0_0_1 rfl rfl rfl rfl
    gather_S50000x256_S850000x1_S850000x256_1_0_n_n_0_1_1256 rfl rfl rfl rfl rfl rfl
    gather_S50000_S850000x1_S850000_n_0_n_n_0_1_1 rfl rfl rfl rfl bcast_S_S50000x256 bcast_S850000_S850000x1_0 bcast_S_S850000 bcast_S850000_S850000x1_0 bcast_S850000x1_S850000x256_0_1
    (val_main_v3 (F := Ideal) x1) (val_main_v6 (F := Ideal) x1) (val_main_v76 (F := Ideal) x0 x1 x3 x4 x5 x6) (val_main_v60 (F := Ideal) x1) i k
  rw [show (fun j => val_main_v60 (F := Ideal) x1 (ix1 j)) = dinv (dw x1) from funext (dinv2 x1)] at h
  exact h

/-- The second bias broadcast over the rows reads its entry. -/
theorem bias2 (i : Fin 50000) (k : Fin 256) : val_main_v91 (F := Ideal) x7 (ix2 i k) = x7 (ix1 k) := by
  unfold val_main_v91 val_main_v90
  exact Cert.LibLayout.bcast_bias 50000 256 x7 _ _ i k

/-- The second layer's activation: the positive part of the sum plus the bias. -/
theorem act2 (i : Fin 50000) (k : Fin 256) :
    val_main_v93 (F := Ideal) x0 x1 x3 x4 x5 x6 x7 (ix2 i k)
      = act (val_main_v89 (F := Ideal) x0 x1 x3 x4 x5 x6 (ix2 i k)) (x7 (ix1 k)) := by
  rw [val_main_v93_apply, val_main_v92_apply, bias2, val_main_call1_v0_apply, val_main_call1_cst_apply]
  simp only [Ideal.maximumf_def, Ideal.addf_def, Ideal.ofBits_def, Cert.LibAlg.ofBits_zero_f32']
  rfl

end Cert.RefLayers

end
-- ==== Proof.BridgeHeads.lean ====
/-
  The last stages of the reference program, read entry by entry.

  From its second-layer activation the reference computes four results: a mean and a log-variance (two linear heads on the
  activation), a latent (mean plus noise times the exponential of half the log-variance) and, from the latent, a
  reconstruction (a hidden layer with positive part, then a linear layer) and a scalar (the logistic function of a linear
  form). Each result entry is shown to be the corresponding function of the shared specification applied to any arrays that
  agree, entry by entry, with the reference's: every stage reads its operands at one index, a contraction is a finite sum
  over the contracted coordinate, and the index a stage reads at is identified coordinate by coordinate.
-/
import proofs.«403013_j32667521253538_2_alg».proof.Proof.Gen.ReferenceIdeal.Read
import proofs.«403013_j32667521253538_2_alg».proof.Proof.Spec
import proofs.«403013_j32667521253538_2_alg».proof.Proof.LibAlgebra
import Idealize.ShloMosaic.PureOps.Ideal
import Idealize.ShloMosaic.Lib.ValueIdx

noncomputable section

open scoped BigOperators

namespace Cert.BridgeHeads

open Idealize.ShloMosaic Idealize.ShloMosaic.ValueIdx Cert.Spec Cert.ReferenceIdeal Cert.ReferenceIdeal.Gen Cert.ReferenceIdeal.Read Cert.LibAlg

/-- The contents type of an argument array of the reference at the exact-arithmetic instance. -/
abbrev Arg (s : Shape) (t : EltTy) : Type := (⟨s, t⟩ : BufTy).Contents (Elt Ideal)

/-! ## Index equations

  The index at which a contraction reads its left and right operand, and the index at which a broadcast bias is read,
  written by coordinates. -/

section Mean

variable (a : RArr 50000 256) (d2 : RArr 50000 1) (b : RArr 1 256)

/-- A linear head of the reference on its activation: the contraction over the 256 hidden coordinates plus the bias of
    the column, against the specification's head on arrays that agree with the reference's. Both sides are the same sum
    term by term and the same bias. -/
theorem head_point (y : Arg S50000x256 .f32) (xw : Arg S256x64 .f32) (xc : Arg S64 .f32)
    (W : RArr 256 64) (c : RArr 1 64)
    (hH : ∀ (i : Fin 50000) (k : Fin 256), Spec.hidden a d2 b i k = y (ix2 i k))
    (hW : ∀ (k : Fin 256) (l : Fin 64), W (ix2 k l) = xw (ix2 k l)) (hc : ∀ l : Fin 64, c (ix2 0 l) = xc (ix1 l))
    (i : Fin 50000) (l : Fin 64) :
    head a d2 b W c i l = (∑ k : Fin 256, y (ix2 i k) * xw (ix2 k l)) + xc (ix1 l) := by
  unfold head
  rw [hc]
  congr 1
  exact Finset.sum_congr rfl fun k _ => by rw [hH, hW]

theorem mean_eq (x0 : Arg S50000 .i32) (x1 : Arg S2x800000 .i32) (x3 : Arg S128x128 .f32) (x4 : Arg S128x256 .f32)
    (x5 : Arg S256 .f32) (x6 : Arg S256x256 .f32) (x7 : Arg S256 .f32) (x8 : Arg S256x64 .f32) (x9 : Arg S64 .f32)
    (W : RArr 256 64) (c : RArr 1 64)
    (hH : ∀ (i : Fin 50000) (k : Fin 256),
      Spec.hidden a d2 b i k = val_main_v93 (F := Ideal) x0 x1 x3 x4 x5 x6 x7 (ix2 i k))
    (hW : ∀ (k : Fin 256) (l : Fin 64), W (ix2 k l) = x8 (ix2 k l)) (hc : ∀ l : Fin 64, c (ix2 0 l) = x9 (ix1 l))
    (i : Fin 50000) (l : Fin 64) :
    head a d2 b W c i l = val_main_v97 (F := Ideal) x0 x1 x3 x4 x5 x6 x7 x8 x9 (ix2 i l) := by
  rw [val_main_v97_apply, val_main_v94_apply, val_main_v96_apply, val_main_v95_apply, Ideal.addf_def]
  -- the indices the contraction and the bias read at, by coordinates
  have el : ∀ k : Fin 256, lidx_main_v94 (ix2 i l) k = ix2 i k := fun k =>
    funext fun a => Fin.ext (by match a with | ⟨0, _⟩ => rfl | ⟨1, _⟩ => rfl)
  have er : ∀ k : Fin 256, ridx_main_v94 (ix2 i l) k = ix2 k l := fun k =>
    funext fun a => Fin.ext (by match a with | ⟨0, _⟩ => rfl | ⟨1, _⟩ => rfl)
  have eb : idx_main_v95 (idx_main_v96 (ix2 i l)) = ix1 l :=
    funext fun a => Fin.ext (by match a with | ⟨0, _⟩ => rfl)
  simp only [el, er, eb]
  exact head_point a d2 b _ x8 x9 W c hH hW hc i l

end Mean

section Rest

variable (a : RArr 50000 256) (d2 : RArr 50000 1) (b : RArr 1 256)

/-- The log-variance head: the same linear head at the second pair of weights. -/
theorem logvar_eq (x0 : Arg S50000 .i32) (x1 : Arg S2x800000 .i32) (x3 : Arg S128x128 .f32) (x4 : Arg S128x256 .f32)
    (x5 : Arg S256 .f32) (x6 : Arg S256x256 .f32) (x7 : Arg S256 .f32) (x10 : Arg S256x64 .f32) (x11 : Arg S64 .f32)
    (W : RArr 256 64) (c : RArr 1 64)
    (hH : ∀ (i : Fin 50000) (k : Fin 256),
      Spec.hidden a d2 b i k = val_main_v93 (F := Ideal) x0 x1 x3 x4 x5 x6 x7 (ix2 i k))
    (hW : ∀ (k : Fin 256) (l : Fin 64), W (ix2 k l) = x10 (ix2 k l)) (hc : ∀ l : Fin 64, c (ix2 0 l) = x11 (ix1 l))
    (i : Fin 50000) (l : Fin 64) :
    head a d2 b W c i l = val_main_v101 (F := Ideal) x0 x1 x3 x4 x5 x6 x7 x10 x11 (ix2 i l) := by
  rw [val_main_v101_apply, val_main_v98_apply, val_main_v100_apply, val_main_v99_apply, Ideal.addf_def]
  have el : ∀ k : Fin 256, lidx_main_v98 (ix2 i l) k = ix2 i k := fun k =>
    funext fun a => Fin.ext (by match a with | ⟨0, _⟩ => rfl | ⟨1, _⟩ => rfl)
  have er : ∀ k : Fin 256, ridx_main_v98 (ix2 i l) k = ix2 k l := fun k =>
    funext fun a => Fin.ext (by match a with | ⟨0, _⟩ => rfl | ⟨1, _⟩ => rfl)
  have eb : idx_main_v99 (idx_main_v100 (ix2 i l)) = ix1 l :=
    funext fun a => Fin.ext (by match a with | ⟨0, _⟩ => rfl)
  simp only [el, er, eb]
  exact head_point a d2 b _ x10 x11 W c hH hW hc i l

/-- The latent: the reference adds to the mean the noise times the exponential of one half times the log-variance; the
    one half is the literal word the specification names. -/
theorem latent_eq (x0 : Arg S50000 .i32) (x1 : Arg S2x800000 .i32) (x2 : Arg S50000x64 .f32) (x3 : Arg S128x128 .f32)
    (x4 : Arg S128x256 .f32) (x5 : Arg S256 .f32) (x6 : Arg S256x256 .f32) (x7 : Arg S256 .f32) (x8 : Arg S256x64 .f32)
    (x9 : Arg S64 .f32) (x10 : Arg S256x64 .f32) (x11 : Arg S64 .f32)
    (Wm : RArr 256 64) (cm : RArr 1 64) (Wl : RArr 256 64) (cl : RArr 1 64) (eps : RArr 50000 64)
    (hH : ∀ (i : Fin 50000) (k : Fin 256),
      Spec.hidden a d2 b i k = val_main_v93 (F := Ideal) x0 x1 x3 x4 x5 x6 x7 (ix2 i k))
    (hWm : ∀ (k : Fin 256) (l : Fin 64), Wm (ix2 k l) = x8 (ix2 k l)) (hcm : ∀ l : Fin 64, cm (ix2 0 l) = x9 (ix1 l))
    (hWl : ∀ (k : Fin 256) (l : Fin 64), Wl (ix2 k l) = x10 (ix2 k l)) (hcl : ∀ l : Fin 64, cl (ix2 0 l) = x11 (ix1 l))
    (heps : ∀ (i : Fin 50000) (l : Fin 64), eps (ix2 i l) = x2 (ix2 i l))
    (i : Fin 50000) (l : Fin 64) :
    latent (head a d2 b Wm cm) (head a d2 b Wl cl) eps i l
      = val_main_v106 (F := Ideal) x0 x1 x2 x3 x4 x5 x6 x7 x8 x9 x10 x11 (ix2 i l) := by
  rw [val_main_v106_apply, val_main_v105_apply, val_main_v104_apply, val_main_v103_apply, val_main_v102_apply,
    val_main_cst_20_apply]
  simp only [Ideal.addf_def, Ideal.mulf_def, Ideal.hostUnary_exp_def, Ideal.ofBits_def]
  unfold latent
  rw [mean_eq a d2 b x0 x1 x3 x4 x5 x6 x7 x8 x9 Wm cm hH hWm hcm i l,
    logvar_eq a d2 b x0 x1 x3 x4 x5 x6 x7 x10 x11 Wl cl hH hWl hcl i l, heps]

end Rest

section Decoder

variable (a : RArr 50000 256) (d2 : RArr 50000 1) (b : RArr 1 256)

/-- The hidden layer of the reconstruction head: the latent contracted over its 64 coordinates with the third weight
    matrix, plus the bias of the column, positive part. The zero the reference takes the maximum with is the all-zero
    word. -/
theorem recon_hidden_eq (x0 : Arg S50000 .i32) (x1 : Arg S2x800000 .i32) (x2 : Arg S50000x64 .f32) (x3 : Arg S128x128 .f32)
    (x4 : Arg S128x256 .f32) (x5 : Arg S256 .f32) (x6 : Arg S256x256 .f32) (x7 : Arg S256 .f32) (x8 : Arg S256x64 .f32)
    (x9 : Arg S64 .f32) (x10 : Arg S256x64 .f32) (x11 : Arg S64 .f32)
    (x12 : Arg S64x256 .f32) (x13 : Arg S256 .f32)
    (Wm : RArr 256 64) (cm : RArr 1 64) (Wl : RArr 256 64) (cl : RArr 1 64) (eps : RArr 50000 64)
    (W3 : RArr 64 256) (b3 : RArr 1 256)
    (hH : ∀ (i : Fin 50000) (k : Fin 256),
      Spec.hidden a d2 b i k = val_main_v93 (F := Ideal) x0 x1 x3 x4 x5 x6 x7 (ix2 i k))
    (hWm : ∀ (k : Fin 256) (l : Fin 64), Wm (ix2 k l) = x8 (ix2 k l)) (hcm : ∀ l : Fin 64, cm (ix2 0 l) = x9 (ix1 l))
    (hWl : ∀ (k : Fin 256) (l : Fin 64), Wl (ix2 k l) = x10 (ix2 k l)) (hcl : ∀ l : Fin 64, cl (ix2 0 l) = x11 (ix1 l))
    (heps : ∀ (i : Fin 50000) (l : Fin 64), eps (ix2 i l) = x2 (ix2 i l))
    (hW3 : ∀ (l : Fin 64) (j : Fin 256), W3 (ix2 l j) = x12 (ix2 l j)) (hb3 : ∀ j : Fin 256, b3 (ix2 0 j) = x13 (ix1 j))
    (i : Fin 50000) (j : Fin 256) :
    act (∑ l : Fin 64, latent (head a d2 b Wm cm) (head a d2 b Wl cl) eps i l * W3 (ix2 l j)) (b3 (ix2 0 j))
      = val_main_v111 (F := Ideal) x0 x1 x2 x3 x4 x5 x6 x7 x8 x9 x10 x11 x12 x13 (ix2 i j) := by
  rw [val_main_v111_apply, val_main_v110_apply, val_main_v107_apply, val_main_v109_apply, val_main_v108_apply,
    val_main_call2_v0_apply, val_main_call2_cst_apply]
  simp only [Ideal.addf_def, Ideal.maximumf_def, Ideal.ofBits_def, ofBits_zero_f32']
  have el : ∀ k : Fin 64, lidx_main_v107 (ix2 i j) k = ix2 i k := fun k =>
    funext fun a => Fin.ext (by match a with | ⟨0, _⟩ => rfl | ⟨1, _⟩ => rfl)
  have er : ∀ k : Fin 64, ridx_main_v107 (ix2 i j) k = ix2 k j := fun k =>
    funext fun a => Fin.ext (by match a with | ⟨0, _⟩ => rfl | ⟨1, _⟩ => rfl)
  have eb : idx_main_v108 (idx_main_v109 (ix2 i j)) = ix1 j :=
    funext fun a => Fin.ext (by match a with | ⟨0, _⟩ => rfl)
  simp only [el, er, eb]
  -- the contraction, term by term
  have hs : (∑ l : Fin 64, latent (head a d2 b Wm cm) (head a d2 b Wl cl) eps i l * W3 (ix2 l j))
      = ∑ k : Fin 64, val_main_v106 (F := Ideal) x0 x1 x2 x3 x4 x5 x6 x7 x8 x9 x10 x11 (ix2 i k) * x12 (ix2 k j) :=
    Finset.sum_congr rfl fun k _ => by
      rw [latent_eq a d2 b x0 x1 x2 x3 x4 x5 x6 x7 x8 x9 x10 x11 Wm cm Wl cl eps hH hWm hcm hWl hcl heps i k, hW3]
  unfold act
  rw [hs, hb3]

/-- The reconstruction: the hidden layer contracted over its 256 coordinates with the fourth weight matrix, plus the
    bias of the column. -/
theorem recon_eq (x0 : Arg S50000 .i32) (x1 : Arg S2x800000 .i32) (x2 : Arg S50000x64 .f32) (x3 : Arg S128x128 .f32)
    (x4 : Arg S128x256 .f32) (x5 : Arg S256 .f32) (x6 : Arg S256x256 .f32) (x7 : Arg S256 .f32) (x8 : Arg S256x64 .f32)
    (x9 : Arg S64 .f32) (x10 : Arg S256x64 .f32) (x11 : Arg S64 .f32)
    (x12 : Arg S64x256 .f32) (x13 : Arg S256 .f32) (x14 : Arg S256x128 .f32) (x15 : Arg S128 .f32)
    (Wm : RArr 256 64) (cm : RArr 1 64) (Wl : RArr 256 64) (cl : RArr 1 64) (eps : RArr 50000 64)
    (W3 : RArr 64 256) (b3 : RArr 1 256) (W4 : RArr 256 128) (b4 : RArr 1 128)
    (hH : ∀ (i : Fin 50000) (k : Fin 256),
      Spec.hidden a d2 b i k = val_main_v93 (F := Ideal) x0 x1 x3 x4 x5 x6 x7 (ix2 i k))
    (hWm : ∀ (k : Fin 256) (l : Fin 64), Wm (ix2 k l) = x8 (ix2 k l)) (hcm : ∀ l : Fin 64, cm (ix2 0 l) = x9 (ix1 l))
    (hWl : ∀ (k : Fin 256) (l : Fin 64), Wl (ix2 k l) = x10 (ix2 k l)) (hcl : ∀ l : Fin 64, cl (ix2 0 l) = x11 (ix1 l))
    (heps : ∀ (i : Fin 50000) (l : Fin 64), eps (ix2 i l) = x2 (ix2 i l))
    (hW3 : ∀ (l : Fin 64) (j : Fin 256), W3 (ix2 l j) = x12 (ix2 l j)) (hb3 : ∀ j : Fin 256, b3 (ix2 0 j) = x13 (ix1 j))
    (hW4 : ∀ (j : Fin 256) (v : Fin 128), W4 (ix2 j v) = x14 (ix2 j v)) (hb4 : ∀ v : Fin 128, b4 (ix2 0 v) = x15 (ix1 v))
    (i : Fin 50000) (v : Fin 128) :
    recon (latent (head a d2 b Wm cm) (head a d2 b Wl cl) eps) W3 b3 W4 b4 i v
      = val_main_v115 (F := Ideal) x0 x1 x2 x3 x4 x5 x6 x7 x8 x9 x10 x11 x12 x13 x14 x15 (ix2 i v) := by
  rw [val_main_v115_apply, val_main_v112_apply, val_main_v114_apply, val_main_v113_apply, Ideal.addf_def]
  have el : ∀ k : Fin 256, lidx_main_v112 (ix2 i v) k = ix2 i k := fun k =>
    funext fun a => Fin.ext (by match a with | ⟨0, _⟩ => rfl | ⟨1, _⟩ => rfl)
  have er : ∀ k : Fin 256, ridx_main_v112 (ix2 i v) k = ix2 k v := fun k =>
    funext fun a => Fin.ext (by match a with | ⟨0, _⟩ => rfl | ⟨1, _⟩ => rfl)
  have eb : idx_main_v113 (idx_main_v114 (ix2 i v)) = ix1 v :=
    funext fun a => Fin.ext (by match a with | ⟨0, _⟩ => rfl)
  simp only [el, er, eb]
  have hs : (∑ j : Fin 256,
        act (∑ l : Fin 64, latent (head a d2 b Wm cm) (head a d2 b Wl cl) eps i l * W3 (ix2 l j)) (b3 (ix2 0 j))
          * W4 (ix2 j v))
      = ∑ k : Fin 256,
          val_main_v111 (F := Ideal) x0 x1 x2 x3 x4 x5 x6 x7 x8 x9 x10 x11 x12 x13 (ix2 i k) * x14 (ix2 k v) :=
    Finset.sum_congr rfl fun k _ => by
      rw [recon_hidden_eq a d2 b x0 x1 x2 x3 x4 x5 x6 x7 x8 x9 x10 x11 x12 x13 Wm cm Wl cl eps W3 b3
        hH hWm hcm hWl hcl heps hW3 hb3 i k, hW4]
  unfold recon
  rw [hs, hb4]

/-- The scalar head: the latent contracted over its 64 coordinates with the one-column weight, plus the bias, through
    the logistic function, which is by definition one over one plus the exponential of the negated argument; the two
    ones of the reference are the literal word of one. -/
theorem cap_eq (x0 : Arg S50000 .i32) (x1 : Arg S2x800000 .i32) (x2 : Arg S50000x64 .f32) (x3 : Arg S128x128 .f32)
    (x4 : Arg S128x256 .f32) (x5 : Arg S256 .f32) (x6 : Arg S256x256 .f32) (x7 : Arg S256 .f32) (x8 : Arg S256x64 .f32)
    (x9 : Arg S64 .f32) (x10 : Arg S256x64 .f32) (x11 : Arg S64 .f32)
    (x16 : Arg S64x1 .f32) (x17 : Arg S1 .f32)
    (Wm : RArr 256 64) (cm : RArr 1 64) (Wl : RArr 256 64) (cl : RArr 1 64) (eps : RArr 50000 64)
    (Wc : RArr 64 1) (bc : RArr 1 1)
    (hH : ∀ (i : Fin 50000) (k : Fin 256),
      Spec.hidden a d2 b i k = val_main_v93 (F := Ideal) x0 x1 x3 x4 x5 x6 x7 (ix2 i k))
    (hWm : ∀ (k : Fin 256) (l : Fin 64), Wm (ix2 k l) = x8 (ix2 k l)) (hcm : ∀ l : Fin 64, cm (ix2 0 l) = x9 (ix1 l))
    (hWl : ∀ (k : Fin 256) (l : Fin 64), Wl (ix2 k l) = x10 (ix2 k l)) (hcl : ∀ l : Fin 64, cl (ix2 0 l) = x11 (ix1 l))
    (heps : ∀ (i : Fin 50000) (l : Fin 64), eps (ix2 i l) = x2 (ix2 i l))
    (hWc : ∀ l : Fin 64, Wc (ix2 l 0) = x16 (ix2 l 0)) (hbc : bc (ix2 0 0) = x17 (ix1 0))
    (i : Fin 50000) :
    capHead (latent (head a d2 b Wm cm) (head a d2 b Wl cl) eps) Wc bc i
      = val_main_v125 (F := Ideal) x0 x1 x2 x3 x4 x5 x6 x7 x8 x9 x10 x11 x16 x17 (ix2 i 0) := by
  rw [val_main_v125_apply, val_main_v124_apply, val_main_cst_22_apply, val_main_v123_apply, val_main_v122_apply,
    val_main_cst_21_apply, val_main_v121_apply, val_main_v120_apply, val_main_v119_apply, val_main_v116_apply,
    val_main_v118_apply, val_main_v117_apply]
  simp only [Ideal.hostDivf_def, Ideal.addf_def, Ideal.hostUnary_exp_def, Ideal.hostNegf_def, Ideal.negf_def,
    Ideal.ofBits_def, ofBits_one_f32]
  have el : ∀ k : Fin 64, lidx_main_v116 (ix2 i 0) k = ix2 i k := fun k =>
    funext fun a => Fin.ext (by match a with | ⟨0, _⟩ => rfl | ⟨1, _⟩ => rfl)
  have er : ∀ k : Fin 64, ridx_main_v116 (ix2 i 0) k = ix2 k 0 := fun k =>
    funext fun a => Fin.ext (by match a with | ⟨0, _⟩ => rfl | ⟨1, _⟩ => rfl)
  have eb : idx_main_v117 (idx_main_v118 (ix2 i 0)) = ix1 0 :=
    funext fun a => Fin.ext (by match a with | ⟨0, _⟩ => rfl)
  simp only [el, er, eb]
  have hs : (∑ l : Fin 64, latent (head a d2 b Wm cm) (head a d2 b Wl cl) eps i l * Wc (ix2 l 0))
      = ∑ k : Fin 64, val_main_v106 (F := Ideal) x0 x1 x2 x3 x4 x5 x6 x7 x8 x9 x10 x11 (ix2 i k) * x16 (ix2 k 0) :=
    Finset.sum_congr rfl fun k _ => by
      rw [latent_eq a d2 b x0 x1 x2 x3 x4 x5 x6 x7 x8 x9 x10 x11 Wm cm Wl cl eps hH hWm hcm hWl hcl heps i k, hWc]
  unfold capHead Ideal.logistic
  rw [hs, hbc]

end Decoder

end Cert.BridgeHeads

end
-- ==== Proof.Compare.lean ====
/-
  The fused program against the plain one, stage by stage. Each fused dense stage's output array is the specification's stage
  function of the arrays the stage finds (the stage modules); those arrays are terms of the launch memory (the host module);
  read entry by entry they are the factors, the bare sums of the previous stage's rows, the reshaped biases and the weights
  (format changes are the identity here). By the layer law the fused activation is then the plain program's activation, layer
  after layer, and the heads are the same functions of it on both sides.
-/
import proofs.«403013_j32667521253538_2_alg».proof.Proof.KernelIdealFrameP
import proofs.«403013_j32667521253538_2_alg».proof.Proof.KernelHost
import proofs.«403013_j32667521253538_2_alg».proof.Proof.Stage0Value
import proofs.«403013_j32667521253538_2_alg».proof.Proof.Stage1Value
import proofs.«403013_j32667521253538_2_alg».proof.Proof.Stage2HeadsValue
import proofs.«403013_j32667521253538_2_alg».proof.Proof.Stage2DecodeValue
import proofs.«403013_j32667521253538_2_alg».proof.Proof.Gen.ReferenceIdeal.Read
import proofs.«403013_j32667521253538_2_alg».proof.Proof.Spec
import proofs.«403013_j32667521253538_2_alg».proof.Proof.LibAlgebra
import proofs.«403013_j32667521253538_2_alg».proof.Proof.LibLayoutReads
import proofs.«403013_j32667521253538_2_alg».proof.Proof.GraphReads
import proofs.«403013_j32667521253538_2_alg».proof.Proof.LayerStep
import proofs.«403013_j32667521253538_2_alg».proof.Proof.RefLayers
import proofs.«403013_j32667521253538_2_alg».proof.Proof.BridgeHeads
import Idealize.ShloMosaic.Lib.ValueIdx

noncomputable section

open scoped BigOperators

namespace Cert.Compare

open Idealize.ShloMosaic Idealize.ShloMosaic.ValueIdx Idealize.ShloMosaic.TcCoe Idealize.SL.Sem Cert.Spec
open Cert.KernelIdeal Cert.KernelIdeal.Gen Cert.KernelIdeal.Host

variable (m : (ℓ : Loc nD τ sig) → Buf (Elt Ideal) ℓ) (ρ : Dev nD → PrngReg) (c : Dev nD)

/-- Argument 0 of both programs, as launched. -/
abbrev A0 : Cert.RefLayers.Arg Cert.ReferenceIdeal.S50000 .i32 := m ((c.tc : Thread nD τ).loc main_arg0)
/-- Argument 1 of both programs, as launched. -/
abbrev A1 : Cert.RefLayers.Arg Cert.ReferenceIdeal.S2x800000 .i32 := m ((c.tc : Thread nD τ).loc main_arg1)
/-- Argument 2 of both programs, as launched. -/
abbrev A2 : Cert.RefLayers.Arg Cert.ReferenceIdeal.S50000x64 .f32 := m ((c.tc : Thread nD τ).loc main_arg2)
/-- Argument 3 of both programs, as launched. -/
abbrev A3 : Cert.RefLayers.Arg Cert.ReferenceIdeal.S128x128 .f32 := m ((c.tc : Thread nD τ).loc main_arg3)
/-- Argument 4 of both programs, as launched. -/
abbrev A4 : Cert.RefLayers.Arg Cert.ReferenceIdeal.S128x256 .f32 := m ((c.tc : Thread nD τ).loc main_arg4)
/-- Argument 5 of both programs, as launched. -/
abbrev A5 : Cert.RefLayers.Arg Cert.ReferenceIdeal.S256 .f32 := m ((c.tc : Thread nD τ).loc main_arg5)
/-- Argument 6 of both programs, as launched. -/
abbrev A6 : Cert.RefLayers.Arg Cert.ReferenceIdeal.S256x256 .f32 := m ((c.tc : Thread nD τ).loc main_arg6)
/-- Argument 7 of both programs, as launched. -/
abbrev A7 : Cert.RefLayers.Arg Cert.ReferenceIdeal.S256 .f32 := m ((c.tc : Thread nD τ).loc main_arg7)
/-- Argument 8 of both programs, as launched. -/
abbrev A8 : Cert.RefLayers.Arg Cert.ReferenceIdeal.S256x64 .f32 := m ((c.tc : Thread nD τ).loc main_arg8)
/-- Argument 9 of both programs, as launched. -/
abbrev A9 : Cert.RefLayers.Arg Cert.ReferenceIdeal.S64 .f32 := m ((c.tc : Thread nD τ).loc main_arg9)
/-- Argument 10 of both programs, as launched. -/
abbrev A10 : Cert.RefLayers.Arg Cert.ReferenceIdeal.S256x64 .f32 := m ((c.tc : Thread nD τ).loc main_arg10)
/-- Argument 11 of both programs, as launched. -/
abbrev A11 : Cert.RefLayers.Arg Cert.ReferenceIdeal.S64 .f32 := m ((c.tc : Thread nD τ).loc main_arg11)
/-- Argument 12 of both programs, as launched. -/
abbrev A12 : Cert.RefLayers.Arg Cert.ReferenceIdeal.S64x256 .f32 := m ((c.tc : Thread nD τ).loc main_arg12)
/-- Argument 13 of both programs, as launched. -/
abbrev A13 : Cert.RefLayers.Arg Cert.ReferenceIdeal.S256 .f32 := m ((c.tc : Thread nD τ).loc main_arg13)
/-- Argument 14 of both programs, as launched. -/
abbrev A14 : Cert.RefLayers.Arg Cert.ReferenceIdeal.S256x128 .f32 := m ((c.tc : Thread nD τ).loc main_arg14)
/-- Argument 15 of both programs, as launched. -/
abbrev A15 : Cert.RefLayers.Arg Cert.ReferenceIdeal.S128 .f32 := m ((c.tc : Thread nD τ).loc main_arg15)
/-- Argument 16 of both programs, as launched. -/
abbrev A16 : Cert.RefLayers.Arg Cert.ReferenceIdeal.S64x1 .f32 := m ((c.tc : Thread nD τ).loc main_arg16)
/-- Argument 17 of both programs, as launched. -/
abbrev A17 : Cert.RefLayers.Arg Cert.ReferenceIdeal.S1 .f32 := m ((c.tc : Thread nD τ).loc main_arg17)

/-- The source word of a message. -/
abbrev SW : Fin 850000 → BitVec 32 := Cert.RefLayers.sw (A1 m c)
/-- The destination word of a message. -/
abbrev DW : Fin 850000 → BitVec 32 := Cert.RefLayers.dw (A1 m c)
/-- A node's factor. -/
abbrev DI : Fin 50000 → EReal := dinv (DW m c)

/-! ## What the host side of the fused program holds, entry by entry -/

/-- The column of factors the stages read is the factors. -/
theorem dcol_read (i : Fin 50000) :
    (shapeCast S50000x1 (dinvT m c) shapeCasts_S50000_S50000x1 : RArr 50000 1) (ix2 i 0) = DI m c i := by
  rw [Cert.LibLayout.shapeCast_col 50000 (dinvT m c) shapeCasts_S50000_S50000x1 i]
  exact Cert.GraphReads.dinv_read scatter_S50000_S850000x1_S850000_n_0_0_1 rfl rfl rfl rfl _ _ _ (dstT m c) i

/-- The bare sum of an array's rows along the edges. -/
theorem gsum_at (o : FVec Ideal S50000x256 .bf16) (i : Fin 50000) (k : Fin 256) :
    (gsumT m c o : RArr 50000 256) (ix2 i k) = gsum (SW m c) (DW m c) (fun j h => o (ix2 j h)) i k :=
  Cert.GraphReads.gsum_read scatter_S50000x256_S850000x1_S850000x256_1_0_0_1 rfl rfl rfl rfl
    gather_S50000x256_S850000x1_S850000x256_1_0_n_n_0_1_1256 rfl rfl rfl rfl rfl rfl _ _ _ _ (srcT m c) (dstT m c) o i k

/-! ## The first stage -/

/-- The first stage's output: the token's row of the projected table, pre-scaled by the node's factor. -/
theorem out0_eq (hx : ∀ i : Fin 50000, 0 ≤ ((A0 m c) (ix1 i)).toInt ∧ ((A0 m c) (ix1 i)).toInt < 128) (j : Fin 50000) (h : Fin 256) :
    out0 m ρ c (ix2 j h) = Cert.ReferenceIdeal.Read.val_main_v36 (F := Ideal) (A0 m c) (A3 m c) (A4 m c) (ix2 j h) * DI m c j := by
  rw [Cert.RefLayers.lin1 (A0 m c) (A3 m c) (A4 m c) j h (hx j).1 (hx j).2]
  refine (Cert.KernelIdeal.Stage0.value (V1 m ρ) c j h).trans ?_
  refine Cert.LayerStep.stage0_eq _ _ _ (Cert.RefLayers.proj (A3 m c) (A4 m c)) (DI m c) (fun k h' => ?_) (fun i => ?_) j h
    ((A0 m c) (ix1 j)) ?_ (hx j).1 (hx j).2
  · show (V1 m ρ c (Pipeline.arrRef spec0 1) : RArr 128 256) (ix2 k h') = _
    rw [in0_1 m ρ c]
    exact Cert.LibLayout.dot_read 128 128 256 dot_S128x128_S128x256_S128x256_1_0_0_1_n_n rfl rfl rfl rfl rfl rfl none _ _ k h'
  · show (V1 m ρ c (Pipeline.arrRef spec0 2) : RArr 50000 1) (ix2 i 0) = _
    rw [in0_2 m ρ c]
    exact dcol_read m c i
  · show (V1 m ρ c (Pipeline.arrRef spec0 0) : WArr 50000 1) (ix2 j 0) = _
    rw [in0_0 m ρ c]
    exact Cert.LibLayout.shapeCast_col 50000 _ shapeCasts_S50000_S50000x1 j

/-! ## The second stage -/

/-- The second stage's activation is the plain program's first activation. -/
theorem hid1 (hx : ∀ i : Fin 50000, 0 ≤ ((A0 m c) (ix1 i)).toInt ∧ ((A0 m c) (ix1 i)).toInt < 128) (i : Fin 50000) (k : Fin 256) :
    Spec.hidden (Cert.KernelIdeal.Stage1.agg (V3 m ρ) c) (Cert.KernelIdeal.Stage1.dcol (V3 m ρ) c) (Cert.KernelIdeal.Stage1.brow (V3 m ρ) c) i k
      = Cert.ReferenceIdeal.Read.val_main_v53 (F := Ideal) (A0 m c) (A1 m c) (A3 m c) (A4 m c) (A5 m c) (ix2 i k) := by
  rw [Cert.RefLayers.act1, Cert.RefLayers.agg1]
  refine Cert.LayerStep.hidden_eq (SW m c) (DW m c) _ _ _
    (fun j h => Cert.ReferenceIdeal.Read.val_main_v36 (F := Ideal) (A0 m c) (A3 m c) (A4 m c) (ix2 j h)) (fun j h => out0 m ρ c (ix2 j h))
    (fun k' => (A5 m c) (ix1 k')) (fun j h => out0_eq m ρ c hx j h) (fun i' k' => ?_) (fun i' => ?_) (fun k' => ?_) i k
  · show (V3 m ρ c (Pipeline.arrRef spec1 0) : RArr 50000 256) (ix2 i' k') = _
    rw [in1_0 m ρ c]
    exact gsum_at m c (out0 m ρ c) i' k'
  · show (V3 m ρ c (Pipeline.arrRef spec1 1) : RArr 50000 1) (ix2 i' 0) = _
    rw [in1_1 m ρ c]
    exact dcol_read m c i'
  · show (V3 m ρ c (Pipeline.arrRef spec1 2) : RArr 1 256) (ix2 0 k') = _
    rw [in1_2 m ρ c]
    exact Cert.LibLayout.shapeCast_row 256 _ shapeCasts_S256_S1x256 k'

/-- The second stage's output: the plain program's second linear map, pre-scaled by the node's factor. -/
theorem out1_eq (hx : ∀ i : Fin 50000, 0 ≤ ((A0 m c) (ix1 i)).toInt ∧ ((A0 m c) (ix1 i)).toInt < 128) (j : Fin 50000) (h : Fin 256) :
    out1 m ρ c (ix2 j h) = Cert.ReferenceIdeal.Read.val_main_v76 (F := Ideal) (A0 m c) (A1 m c) (A3 m c) (A4 m c) (A5 m c) (A6 m c) (ix2 j h) * DI m c j := by
  rw [Cert.RefLayers.lin2]
  refine (Cert.KernelIdeal.Stage1.value (V3 m ρ) c j h).trans ?_
  refine Cert.LayerStep.stage1_eq _ _ _ _ (fun i k => Cert.ReferenceIdeal.Read.val_main_v53 (F := Ideal) (A0 m c) (A1 m c) (A3 m c) (A4 m c) (A5 m c) (ix2 i k))
    (fun k h' => (A6 m c) (ix2 k h')) (DI m c) (fun i k => hid1 m ρ c hx i k) (fun k h' => ?_) (fun i => ?_) j h
  · show (V3 m ρ c (Pipeline.arrRef spec1 3) : RArr 256 256) (ix2 k h') = _
    rw [in1_3 m ρ c]
    rfl
  · show (V3 m ρ c (Pipeline.arrRef spec1 1) : RArr 50000 1) (ix2 i 0) = _
    rw [in1_1 m ρ c]
    exact dcol_read m c i

/-! ## The third stage -/

/-- The third stage's activation is the plain program's second activation. -/
theorem hid2 (hx : ∀ i : Fin 50000, 0 ≤ ((A0 m c) (ix1 i)).toInt ∧ ((A0 m c) (ix1 i)).toInt < 128) (i : Fin 50000) (k : Fin 256) :
    Spec.hidden (Cert.KernelIdeal.Stage2Decode.agg (V5 m ρ) c) (Cert.KernelIdeal.Stage2Decode.dcol (V5 m ρ) c) (Cert.KernelIdeal.Stage2Decode.brow (V5 m ρ) c) i k
      = Cert.ReferenceIdeal.Read.val_main_v93 (F := Ideal) (A0 m c) (A1 m c) (A3 m c) (A4 m c) (A5 m c) (A6 m c) (A7 m c) (ix2 i k) := by
  rw [Cert.RefLayers.act2, Cert.RefLayers.agg2]
  refine Cert.LayerStep.hidden_eq (SW m c) (DW m c) _ _ _
    (fun j h => Cert.ReferenceIdeal.Read.val_main_v76 (F := Ideal) (A0 m c) (A1 m c) (A3 m c) (A4 m c) (A5 m c) (A6 m c) (ix2 j h)) (fun j h => out1 m ρ c (ix2 j h))
    (fun k' => (A7 m c) (ix1 k')) (fun j h => out1_eq m ρ c hx j h) (fun i' k' => ?_) (fun i' => ?_) (fun k' => ?_) i k
  · show (V5 m ρ c (Pipeline.arrRef spec2 0) : RArr 50000 256) (ix2 i' k') = _
    rw [in2_0 m ρ c]
    exact gsum_at m c (out1 m ρ c) i' k'
  · show (V5 m ρ c (Pipeline.arrRef spec2 1) : RArr 50000 1) (ix2 i' 0) = _
    rw [in2_1 m ρ c]
    exact dcol_read m c i'
  · show (V5 m ρ c (Pipeline.arrRef spec2 2) : RArr 1 256) (ix2 0 k') = _
    rw [in2_2 m ρ c]
    exact Cert.LibLayout.shapeCast_row 256 _ shapeCasts_S256_S1x256 k'

/-! ### The third stage's other arrays, entry by entry -/

theorem wmu_read (k : Fin 256) (l : Fin 64) : (V5 m ρ c (Pipeline.arrRef spec2 3) : RArr 256 64) (ix2 k l) = (A8 m c) (ix2 k l) := by
  rw [in2_3 m ρ c]; rfl
theorem bmu_read (l : Fin 64) : (V5 m ρ c (Pipeline.arrRef spec2 4) : RArr 1 64) (ix2 0 l) = (A9 m c) (ix1 l) := by
  rw [in2_4 m ρ c]; exact Cert.LibLayout.shapeCast_row 64 _ shapeCasts_S64_S1x64 l
theorem wlv_read (k : Fin 256) (l : Fin 64) : (V5 m ρ c (Pipeline.arrRef spec2 5) : RArr 256 64) (ix2 k l) = (A10 m c) (ix2 k l) := by
  rw [in2_5 m ρ c]; rfl
theorem blv_read (l : Fin 64) : (V5 m ρ c (Pipeline.arrRef spec2 6) : RArr 1 64) (ix2 0 l) = (A11 m c) (ix1 l) := by
  rw [in2_6 m ρ c]; exact Cert.LibLayout.shapeCast_row 64 _ shapeCasts_S64_S1x64 l
theorem eps_read (i : Fin 50000) (l : Fin 64) : (V5 m ρ c (Pipeline.arrRef spec2 7) : RArr 50000 64) (ix2 i l) = (A2 m c) (ix2 i l) := by
  rw [in2_7 m ρ c]
theorem w3_read (l : Fin 64) (j : Fin 256) : (V5 m ρ c (Pipeline.arrRef spec2 8) : RArr 64 256) (ix2 l j) = (A12 m c) (ix2 l j) := by
  rw [in2_8 m ρ c]; rfl
theorem b3_read (j : Fin 256) : (V5 m ρ c (Pipeline.arrRef spec2 9) : RArr 1 256) (ix2 0 j) = (A13 m c) (ix1 j) := by
  rw [in2_9 m ρ c]; exact Cert.LibLayout.shapeCast_row 256 _ shapeCasts_S256_S1x256 j
theorem w4_read (j : Fin 256) (v : Fin 128) : (V5 m ρ c (Pipeline.arrRef spec2 10) : RArr 256 128) (ix2 j v) = (A14 m c) (ix2 j v) := by
  rw [in2_10 m ρ c]; rfl
theorem b4_read (v : Fin 128) : (V5 m ρ c (Pipeline.arrRef spec2 11) : RArr 1 128) (ix2 0 v) = (A15 m c) (ix1 v) := by
  rw [in2_11 m ρ c]; exact Cert.LibLayout.shapeCast_row 128 _ shapeCasts_S128_S1x128 v
theorem wc_read (l : Fin 64) : (V5 m ρ c (Pipeline.arrRef spec2 12) : RArr 64 1) (ix2 l 0) = (A16 m c) (ix2 l 0) := by
  rw [in2_12 m ρ c]; rfl
theorem bc_read : (V5 m ρ c (Pipeline.arrRef spec2 13) : RArr 1 1) (ix2 0 0) = (A17 m c) (ix1 0) := by
  rw [in2_13 m ρ c]; exact Cert.LibLayout.shapeCast_row 1 _ shapeCasts_S1_S1x1 0

/-! ## The four results -/

theorem mean_eq (hx : ∀ i : Fin 50000, 0 ≤ ((A0 m c) (ix1 i)).toInt ∧ ((A0 m c) (ix1 i)).toInt < 128) (i : Fin 50000) (l : Fin 64) :
    W6 m ρ c (Proc.devRef .tc main_v54_0) (ix2 i l) = Cert.ReferenceIdeal.Read.val_main_v97 (F := Ideal) (A0 m c) (A1 m c) (A3 m c) (A4 m c) (A5 m c) (A6 m c) (A7 m c) (A8 m c) (A9 m c) (ix2 i l) := by
  rw [res_mean m ρ c]
  refine (Cert.KernelIdeal.Stage2Heads.mean_value (V5 m ρ) c i l).trans ?_
  exact Cert.BridgeHeads.mean_eq _ _ _ (A0 m c) (A1 m c) (A3 m c) (A4 m c) (A5 m c) (A6 m c) (A7 m c) (A8 m c) (A9 m c) _ _ (hid2 m ρ c hx) (wmu_read m ρ c) (bmu_read m ρ c) i l

theorem logvar_eq (hx : ∀ i : Fin 50000, 0 ≤ ((A0 m c) (ix1 i)).toInt ∧ ((A0 m c) (ix1 i)).toInt < 128) (i : Fin 50000) (l : Fin 64) :
    W6 m ρ c (Proc.devRef .tc main_v54_1) (ix2 i l) = Cert.ReferenceIdeal.Read.val_main_v101 (F := Ideal) (A0 m c) (A1 m c) (A3 m c) (A4 m c) (A5 m c) (A6 m c) (A7 m c) (A10 m c) (A11 m c) (ix2 i l) := by
  rw [res_logvar m ρ c]
  refine (Cert.KernelIdeal.Stage2Heads.logvar_value (V5 m ρ) c i l).trans ?_
  exact Cert.BridgeHeads.logvar_eq _ _ _ (A0 m c) (A1 m c) (A3 m c) (A4 m c) (A5 m c) (A6 m c) (A7 m c) (A10 m c) (A11 m c) _ _ (hid2 m ρ c hx) (wlv_read m ρ c) (blv_read m ρ c) i l

theorem recon_eq (hx : ∀ i : Fin 50000, 0 ≤ ((A0 m c) (ix1 i)).toInt ∧ ((A0 m c) (ix1 i)).toInt < 128) (i : Fin 50000) (v : Fin 128) :
    W6 m ρ c (Proc.devRef .tc main_v54_2) (ix2 i v) = Cert.ReferenceIdeal.Read.val_main_v115 (F := Ideal) (A0 m c) (A1 m c) (A2 m c) (A3 m c) (A4 m c) (A5 m c) (A6 m c) (A7 m c) (A8 m c) (A9 m c) (A10 m c) (A11 m c) (A12 m c) (A13 m c) (A14 m c) (A15 m c) (ix2 i v) := by
  rw [res_recon m ρ c]
  refine (Cert.KernelIdeal.Stage2Decode.recon_value (V5 m ρ) c i v).trans ?_
  exact Cert.BridgeHeads.recon_eq _ _ _ (A0 m c) (A1 m c) (A2 m c) (A3 m c) (A4 m c) (A5 m c) (A6 m c) (A7 m c) (A8 m c) (A9 m c) (A10 m c) (A11 m c) (A12 m c) (A13 m c) (A14 m c) (A15 m c) _ _ _ _ _ _ _ _ _ (hid2 m ρ c hx)
    (wmu_read m ρ c) (bmu_read m ρ c) (wlv_read m ρ c) (blv_read m ρ c) (eps_read m ρ c)
    (w3_read m ρ c) (b3_read m ρ c) (w4_read m ρ c) (b4_read m ρ c) i v

theorem cap_eq (hx : ∀ i : Fin 50000, 0 ≤ ((A0 m c) (ix1 i)).toInt ∧ ((A0 m c) (ix1 i)).toInt < 128) (i : Fin 50000) (v : Fin 1) :
    W6 m ρ c (Proc.devRef .tc main_v54_3) (ix2 i v) = Cert.ReferenceIdeal.Read.val_main_v125 (F := Ideal) (A0 m c) (A1 m c) (A2 m c) (A3 m c) (A4 m c) (A5 m c) (A6 m c) (A7 m c) (A8 m c) (A9 m c) (A10 m c) (A11 m c) (A16 m c) (A17 m c) (ix2 i v) := by
  obtain rfl : v = 0 := Subsingleton.elim _ _
  rw [res_cap m ρ c]
  refine (Cert.KernelIdeal.Stage2Decode.cap_value (V5 m ρ) c i).trans ?_
  exact Cert.BridgeHeads.cap_eq _ _ _ (A0 m c) (A1 m c) (A2 m c) (A3 m c) (A4 m c) (A5 m c) (A6 m c) (A7 m c) (A8 m c) (A9 m c) (A10 m c) (A11 m c) (A16 m c) (A17 m c) _ _ _ _ _ _ _ (hid2 m ρ c hx)
    (wmu_read m ρ c) (bmu_read m ρ c) (wlv_read m ρ c) (blv_read m ρ c) (eps_read m ρ c)
    (wc_read m ρ c) (bc_read m ρ c) i

end Cert.Compare

end
-- ==== Proof.lean ====
/-
  The certificate of a two-layer graph-convolution variational encoder-decoder: a program of three fused dense stages with the
  graph sums between them, against the plain formulation.

  The two programs normalise a graph sum differently. The plain one scales every message by the product of its two endpoints'
  factors (the inverse square roots of the degrees) before summing; the fused one scales a node's row by its own factor before
  the row is gathered and the bare sum by the receiving node's factor afterwards. A factor is a nonnegative real, which distributes
  over a finite sum of extended reals, so the two agree (GraphLaw). The fused program's first stage selects a row of the projected
  embedding table by a one-hot row of the token; for a token that names one of the table's 128 rows — the precondition's added
  conjunct — that is the row the plain program gathers. Everything after the second graph sum is the same arithmetic on both sides.
  The frames of the two kernel programs are the generated ones; the reference's is its generated run with the results dropped.
-/
import proofs.«403013_j32667521253538_2_alg».proof.Defs
import proofs.«403013_j32667521253538_2_alg».proof.Proof.Gen.Kernel
import proofs.«403013_j32667521253538_2_alg».proof.Proof.KernelFrameP
import proofs.«403013_j32667521253538_2_alg».proof.Proof.Gen.KernelIdeal
import proofs.«403013_j32667521253538_2_alg».proof.Proof.KernelIdealFrameP
import proofs.«403013_j32667521253538_2_alg».proof.Proof.KernelIdealRun
import proofs.«403013_j32667521253538_2_alg».proof.Proof.Gen.ReferenceIdeal
import proofs.«403013_j32667521253538_2_alg».proof.Proof.Gen.ReferenceIdeal.Run
import proofs.«403013_j32667521253538_2_alg».proof.Proof.Gen.ReferenceIdeal.Read
import proofs.«403013_j32667521253538_2_alg».proof.Proof.Gen.Pre_finite_inputs
import proofs.«403013_j32667521253538_2_alg».proof.Proof.PreDecode
import proofs.«403013_j32667521253538_2_alg».proof.Proof.Compare
import Idealize.ShloMosaic.Lib.ValueIdx
import Idealize.ShloMosaic.Adequacy
import Idealize.ShloMosaic.Init

noncomputable section

namespace Cert.Proof

open Idealize.ShloMosaic Idealize.ShloMosaic.ValueIdx Idealize.SL.Sem

/-- Every token names a row of the embedding table: read off the precondition. -/
theorem tokens_in_range [hP : Cert.Pre_finite_inputs.Facts]
    (m : (ℓ : Loc Cert.KernelIdeal.nD Cert.KernelIdeal.τ Cert.KernelIdeal.sig) → Buf (Elt Ideal) ℓ) (hpre : Cert.Pre_KernelIdeal m)
    (c : Dev Cert.KernelIdeal.nD) (i : Fin 50000) :
    0 ≤ ((m ((c.tc : Thread Cert.KernelIdeal.nD Cert.KernelIdeal.τ).loc Cert.KernelIdeal.main_arg0)) (ix1 i)).toInt
      ∧ ((m ((c.tc : Thread Cert.KernelIdeal.nD Cert.KernelIdeal.τ).loc Cert.KernelIdeal.main_arg0)) (ix1 i)).toInt < 128 :=
  Cert.PreDecode.token_range _ _ _ _ _ _ _ _ _ _ _ _ _ _ _ _ _ _ (hpre c) i

/-- The two idealized programs end with equal results: the fused program's four arrays are, entry by entry, the plain
    program's stages at the same arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W6 m ρ c (Proc.devRef .tc Cert.KernelIdeal.main_v54_2),
    fun c => Cert.KernelIdeal.Gen.W6 m ρ c (Proc.devRef .tc Cert.KernelIdeal.main_v54_3),
    fun c => Cert.KernelIdeal.Gen.W6 m ρ c (Proc.devRef .tc Cert.KernelIdeal.main_v54_0),
    fun c => Cert.KernelIdeal.Gen.W6 m ρ c (Proc.devRef .tc Cert.KernelIdeal.main_v54_1),
    Cert.KernelIdeal.Gen.run_results (F := Ideal) m ρ, ?_⟩
  refine (θ_run Cert.ReferenceIdeal.defs _ _).mono (fun r h c => ?_) (Cert.ReferenceIdeal.Value.run (F := Ideal) m' ρ')
  obtain ⟨h0, h1, h2, h3, hargs⟩ := h c
  have hx := tokens_in_range m hpre c
  refine ⟨h0.trans ?_, h1.trans ?_, h2.trans ?_, h3.trans ?_, hargs⟩
  · rw [Cert.ReferenceIdeal.Read.val_main_v115_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1]
    funext j
    obtain ⟨i, v, rfl⟩ : ∃ (i : Fin 50000) (v : Fin 128), j = ix2 i v := ⟨j 0, j 1, eq_ix2 j⟩
    exact (Cert.Compare.recon_eq m ρ c hx i v).symm
  · rw [Cert.ReferenceIdeal.Read.val_main_v125_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.2.2.2.2.1, (hagree c).2.2.2.2.2.2.2.2.2.2.2.2.2.2.2.2.2]
    funext j
    obtain ⟨i, v, rfl⟩ : ∃ (i : Fin 50000) (v : Fin 1), j = ix2 i v := ⟨j 0, j 1, eq_ix2 j⟩
    exact (Cert.Compare.cap_eq m ρ c hx i v).symm
  · rw [Cert.ReferenceIdeal.Read.val_main_v97_eq, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
    funext j
    obtain ⟨i, v, rfl⟩ : ∃ (i : Fin 50000) (v : Fin 64), j = ix2 i v := ⟨j 0, j 1, eq_ix2 j⟩
    exact (Cert.Compare.mean_eq m ρ c hx i v).symm
  · rw [Cert.ReferenceIdeal.Read.val_main_v101_eq, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.2.2.1, (hagree c).2.2.2.2.2.2.2.2.2.2.2.1]
    funext j
    obtain ⟨i, v, rfl⟩ : ∃ (i : Fin 50000) (v : Fin 64), j = ix2 i v := ⟨j 0, j 1, eq_ix2 j⟩
    exact (Cert.Compare.logvar_eq m ρ c hx i v).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2.2.2) (Cert.ReferenceIdeal.Value.run (F := Ideal) m ρ),
    trivial,
    algebraic⟩

end Cert.Proof

end
